-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S100000 : Shape := ⟨1, ![100000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S8x64 : Shape := ⟨2, ![8, 64]⟩
abbrev S8 : Shape := ⟨1, ![8]⟩
abbrev S4x8 : Shape := ⟨2, ![4, 8]⟩
abbrev S4 : Shape := ⟨1, ![4]⟩
abbrev S1x4 : Shape := ⟨2, ![1, 4]⟩
abbrev S1 : Shape := ⟨1, ![1]⟩
abbrev S4x1 : Shape := ⟨2, ![4, 1]⟩
abbrev S8x4 : Shape := ⟨2, ![8, 4]⟩
abbrev S64x8 : Shape := ⟨2, ![64, 8]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_
  bcast_S_S4x8 : S_.BroadcastsInDim S4x8 (![] : Fin 0 → Fin S4x8.rank)
  reducesTo_S4x8_S_d0_1 : S4x8.ReducesTo [0, 1] S_
  bcast_S_S4 : S_.BroadcastsInDim S4 (![] : Fin 0 → Fin S4.rank)
  reducesTo_S4_S_d0 : S4.ReducesTo [0] S_
  bcast_S_S1x4 : S_.BroadcastsInDim S1x4 (![] : Fin 0 → Fin S1x4.rank)
  reducesTo_S1x4_S_d0_1 : S1x4.ReducesTo [0, 1] S_
  bcast_S_S1 : S_.BroadcastsInDim S1 (![] : Fin 0 → Fin S1.rank)
  reducesTo_S1_S_d0 : S1.ReducesTo [0] S_
  bcast_S_S4x1 : S_.BroadcastsInDim S4x1 (![] : Fin 0 → Fin S4x1.rank)
  reducesTo_S4x1_S_d0_1 : S4x1.ReducesTo [0, 1] S_
  bcast_S_S8x4 : S_.BroadcastsInDim S8x4 (![] : Fin 0 → Fin S8x4.rank)
  reducesTo_S8x4_S_d0_1 : S8x4.ReducesTo [0, 1] S_
  bcast_S_S64x8 : S_.BroadcastsInDim S64x8 (![] : Fin 0 → Fin S64x8.rank)
  reducesTo_S64x8_S_d0_1 : S64x8.ReducesTo [0, 1] S_

variable [Facts]

def fn_part5 {F : FTy → Type} [FloatOps F] (main_arg20 : FVec F S64 .f32) (main_v83 : IVec S_ 1) (main_v84 : FVec F S64x8 .f32) (main_cst_32 : FVec F S_ .f32) : IVec S_ 1 :=
  let main_v85 : FVec F S64x8 .f32 := broadcastInDim S64x8 ![] bcast_S_S64x8 main_cst_32
  let main_v86 : IVec S64x8 1 := cmpf .olt main_v84 main_v85
  let main_c_33 : IVec S_ 1 := constantI S_ 1 1#1
  let main_v87 : IVec S_ 1 := (fun x v => Host.reduce IntOp.andi x v reducesTo_S64x8_S_d0_1 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  main_v93

def fn_part4 {F : FTy → Type} [FloatOps F] (main_arg16 : FVec F S4 .f32) (main_arg17 : FVec F S8x4 .f32) (main_arg18 : FVec F S8 .f32) (main_arg19 : FVec F S64x8 .f32) (main_arg20 : FVec F S64 .f32) (main_v63 : IVec S_ 1) (main_v67 : IVec S_ 1) : IVec S_ 1 :=
  let main_v68 : IVec S_ 1 := andi main_v63 main_v67
  let main_v69 : FVec F S4 .f32 := Host.absf main_arg16
  let main_cst_26 : FVec F S_ .f32 := constant S_ .f32 0x7F800000#32
  let main_v70 : FVec F S4 .f32 := broadcastInDim S4 ![] bcast_S_S4 main_cst_26
  let main_v71 : IVec S4 1 := cmpf .olt main_v69 main_v70
  let main_c_27 : IVec S_ 1 := constantI S_ 1 1#1
  let main_v72 : IVec S_ 1 := (fun x v => Host.reduce IntOp.andi x v reducesTo_S4_S_d0 h_S_) main_v71 main_c_27
  let main_v73 : IVec S_ 1 := andi main_v68 main_v72
  let main_v74 : FVec F S8x4 .f32 := Host.absf main_arg17
  let main_cst_28 : FVec F S_ .f32 := constant S_ .f32 0x7F800000#32
  let main_v75 : FVec F S8x4 .f32 := broadcastInDim S8x4 ![] bcast_S_S8x4 main_cst_28
  let main_v76 : IVec S8x4 1 := cmpf .olt main_v74 main_v75
  let main_c_29 : IVec S_ 1 := constantI S_ 1 1#1
  let main_v77 : IVec S_ 1 := (fun x v => Host.reduce IntOp.andi x v reducesTo_S8x4_S_d0_1 h_S_) main_v76 main_c_29
  let main_v78 : IVec S_ 1 := andi main_v73 main_v77
  let main_v79 : FVec F S8 .f32 := Host.absf main_arg18
  let main_cst_30 : FVec F S_ .f32 := constant S_ .f32 0x7F800000#32
  let main_v80 : FVec F S8 .f32 := broadcastInDim S8 ![] bcast_S_S8 main_cst_30
  let main_v81 : IVec S8 1 := cmpf .olt main_v79 main_v80
  let main_c_31 : IVec S_ 1 := constantI S_ 1 1#1
  let main_v82 : IVec S_ 1 := (fun x v => Host.reduce IntOp.andi x v reducesTo_S8_S_d0 h_S_) main_v81 main_c_31
  let main_v83 : IVec S_ 1 := andi main_v78 main_v82
  let main_v84 : FVec F S64x8 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S1x4 .f32) (main_arg14 : FVec F S1 .f32) (main_arg15 : FVec F S4x1 .f32) (main_arg16 : FVec F S4 .f32) (main_arg17 : FVec F S8x4 .f32) (main_arg18 : FVec F S8 .f32) (main_arg19 : FVec F S64x8 .f32) (main_arg20 : FVec F S64 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S1x4 .f32 := Host.absf main_arg13
  let main_cst_20 : FVec F S_ .f32 := constant S_ .f32 0x7F800000#32
  let main_v55 : FVec F S1x4 .f32 := broadcastInDim S1x4 ![] bcast_S_S1x4 main_cst_20
  let main_v56 : IVec S1x4 1 := cmpf .olt main_v54 main_v55
  let main_c_21 : IVec S_ 1 := constantI S_ 1 1#1
  let main_v57 : IVec S_ 1 := (fun x v => Host.reduce IntOp.andi x v reducesTo_S1x4_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S4x1 .f32 := Host.absf main_arg15
  let main_cst_24 : FVec F S_ .f32 := constant S_ .f32 0x7F800000#32
  let main_v65 : FVec F S4x1 .f32 := broadcastInDim S4x1 ![] bcast_S_S4x1 main_cst_24
  let main_v66 : IVec S4x1 1 := cmpf .olt main_v64 main_v65
  let main_c_25 : IVec S_ 1 := constantI S_ 1 1#1
  let main_v67 : IVec S_ 1 := (fun x v => Host.reduce IntOp.andi x v reducesTo_S4x1_S_d0_1 h_S_) main_v66 main_c_25
  fn_part4 (F := F) main_arg16 main_arg17 main_arg18 main_arg19 main_arg20 main_v63 main_v67

def fn_part2 {F : FTy → Type} [FloatOps F] (main_arg9 : FVec F S8x64 .f32) (main_arg10 : FVec F S8 .f32) (main_arg11 : FVec F S4x8 .f32) (main_arg12 : FVec F S4 .f32) (main_arg13 : FVec F S1x4 .f32) (main_arg14 : FVec F S1 .f32) (main_arg15 : FVec F S4x1 .f32) (main_arg16 : FVec F S4 .f32) (main_arg17 : FVec F S8x4 .f32) (main_arg18 : FVec F S8 .f32) (main_arg19 : FVec F S64x8 .f32) (main_arg20 : FVec F S64 .f32) (main_v33 : IVec S_ 1) : IVec S_ 1 :=
  let main_v34 : FVec F S8x64 .f32 := Host.absf main_arg9
  let main_cst_12 : FVec F S_ .f32 := constant S_ .f32 0x7F800000#32
  let main_v35 : FVec F S8x64 .f32 := broadcastInDim S8x64 ![] bcast_S_S8x64 main_cst_12
  let main_v36 : IVec S8x64 1 := cmpf .olt main_v34 main_v35
  let main_c_13 : IVec S_ 1 := constantI S_ 1 1#1
  let main_v37 : IVec S_ 1 := (fun x v => Host.reduce IntOp.andi x v reducesTo_S8x64_S_d0_1 h_S_) main_v36 main_c_13
  let main_v38 : IVec S_ 1 := andi main_v33 main_v37
  let main_v39 : FVec F S8 .f32 := Host.absf main_arg10
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S4x8 .f32 := Host.absf main_arg11
  let main_cst_16 : FVec F S_ .f32 := constant S_ .f32 0x7F800000#32
  let main_v45 : FVec F S4x8 .f32 := broadcastInDim S4x8 ![] bcast_S_S4x8 main_cst_16
  let main_v46 : IVec S4x8 1 := cmpf .olt main_v44 main_v45
  let main_c_17 : IVec S_ 1 := constantI S_ 1 1#1
  let main_v47 : IVec S_ 1 := (fun x v => Host.reduce IntOp.andi x v reducesTo_S4x8_S_d0_1 h_S_) main_v46 main_c_17
  let main_v48 : IVec S_ 1 := andi main_v43 main_v47
  let main_v49 : FVec F S4 .f32 := Host.absf main_arg12
  let main_cst_18 : FVec F S_ .f32 := constant S_ .f32 0x7F800000#32
  let main_v50 : FVec F S4 .f32 := broadcastInDim S4 ![] bcast_S_S4 main_cst_18
  fn_part3 (F := F) main_arg13 main_arg14 main_arg15 main_arg16 main_arg17 main_arg18 main_arg19 main_arg20 main_v48 main_v49 main_v50

def fn_part1 {F : FTy → Type} [FloatOps F] (main_arg6 : FVec F S64x128 .f32) (main_arg7 : FVec F S64 .f32) (main_arg8 : FVec F S64x128 .f32) (main_arg9 : FVec F S8x64 .f32) (main_arg10 : FVec F S8 .f32) (main_arg11 : FVec F S4x8 .f32) (main_arg12 : FVec F S4 .f32) (main_arg13 : FVec F S1x4 .f32) (main_arg14 : FVec F S1 .f32) (main_arg15 : FVec F S4x1 .f32) (main_arg16 : FVec F S4 .f32) (main_arg17 : FVec F S8x4 .f32) (main_arg18 : FVec F S8 .f32) (main_arg19 : FVec F S64x8 .f32) (main_arg20 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg8
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S100000x64 .f32) (main_arg1 : IVec S2x1250000 32) (main_arg2 : IVec S100000 32) (main_arg3 : FVec F S128x64 .f32) (main_arg4 : FVec F S128 .f32) (main_arg5 : FVec F S128x64 .f32) (main_arg6 : FVec F S64x128 .f32) (main_arg7 : FVec F S64 .f32) (main_arg8 : FVec F S64x128 .f32) (main_arg9 : FVec F S8x64 .f32) (main_arg10 : FVec F S8 .f32) (main_arg11 : FVec F S4x8 .f32) (main_arg12 : FVec F S4 .f32) (main_arg13 : FVec F S1x4 .f32) (main_arg14 : FVec F S1 .f32) (main_arg15 : FVec F S4x1 .f32) (main_arg16 : FVec F S4 .f32) (main_arg17 : FVec F S8x4 .f32) (main_arg18 : FVec F S8 .f32) (main_arg19 : FVec F S64x8 .f32) (main_arg20 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S100000x64 : Shape := ⟨2, ![100000, 64]⟩
abbrev S2x1250000 : Shape := ⟨2, ![2, 1250000]⟩
abbrev S100000 : Shape := ⟨1, ![100000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S8x64 : Shape := ⟨2, ![8, 64]⟩
abbrev S8 : Shape := ⟨1, ![8]⟩
abbrev S4x8 : Shape := ⟨2, ![4, 8]⟩
abbrev S4 : Shape := ⟨1, ![4]⟩
abbrev S1x4 : Shape := ⟨2, ![1, 4]⟩
abbrev S1 : Shape := ⟨1, ![1]⟩
abbrev S4x1 : Shape := ⟨2, ![4, 1]⟩
abbrev S8x4 : Shape := ⟨2, ![8, 4]⟩
abbrev S64x8 : Shape := ⟨2, ![64, 8]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S100000x1 : Shape := ⟨2, ![100000, 1]⟩
abbrev S1x64 : Shape := ⟨2, ![1, 64]⟩
abbrev S64x1 : Shape := ⟨2, ![64, 1]⟩
abbrev S64x64 : Shape := ⟨2, ![64, 64]⟩
abbrev S5000x1 : Shape := ⟨2, ![5000, 1]⟩
abbrev S1x8 : Shape := ⟨2, ![1, 8]⟩
abbrev S64x4 : Shape := ⟨2, ![64, 4]⟩
abbrev S1x1 : Shape := ⟨2, ![1, 1]⟩

abbrev nBuf : Space → Nat
  | .hbm => 116
  | .vmem => 23
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S100000, .i32⟩
  | .hbm, ⟨3, _⟩ => ⟨S128x64, .f32⟩
  | .hbm, ⟨4, _⟩ => ⟨S128, .f32⟩
  | .hbm, ⟨5, _⟩ => ⟨S128x64, .f32⟩
  | .hbm, ⟨6, _⟩ => ⟨S64x128, .f32⟩
  | .hbm, ⟨7, _⟩ => ⟨S64, .f32⟩
  | .hbm, ⟨8, _⟩ => ⟨S64x128, .f32⟩
  | .hbm, ⟨9, _⟩ => ⟨S8x64, .f32⟩
  | .hbm, ⟨10, _⟩ => ⟨S8, .f32⟩
  | .hbm, ⟨11, _⟩ => ⟨S4x8, .f32⟩
  | .hbm, ⟨12, _⟩ => ⟨S4, .f32⟩
  | .hbm, ⟨13, _⟩ => ⟨S1x4, .f32⟩
  | .hbm, ⟨14, _⟩ => ⟨S1, .f32⟩
  | .hbm, ⟨15, _⟩ => ⟨S4x1, .f32⟩
  | .hbm, ⟨16, _⟩ => ⟨S4, .f32⟩
  | .hbm, ⟨17, _⟩ => ⟨S8x4, .f32⟩
  | .hbm, ⟨18, _⟩ => ⟨S8, .f32⟩
  | .hbm, ⟨19, _⟩ => ⟨S64x8, .f32⟩
  | .hbm, ⟨20, _⟩ => ⟨S64, .f32⟩
  | .hbm, ⟨21, _⟩ => ⟨S1x1250000, .i32⟩
  | .hbm, ⟨22, _⟩ => ⟨S1250000, .i32⟩
  | .hbm, ⟨23, _⟩ => ⟨S1x1250000, .i32⟩
  | .hbm, ⟨24, _⟩ => ⟨S1250000, .i32⟩
  | .hbm, ⟨25, _⟩ => ⟨S_, .i32⟩
  | .hbm, ⟨26, _⟩ => ⟨S1250000, .i32⟩
  | .hbm, ⟨27, _⟩ => ⟨S1250000, .i1⟩
  | .hbm, ⟨28, _⟩ => ⟨S_, .i32⟩
  | .hbm, ⟨29, _⟩ => ⟨S1250000, .i32⟩
  | .hbm, ⟨30, _⟩ => ⟨S1250000, .i32⟩
  | .hbm, ⟨31, _⟩ => ⟨S1250000, .i32⟩
  | .hbm, ⟨32, _⟩ => ⟨S1250000x1, .i32⟩
  | .hbm, ⟨33, _⟩ => ⟨S1250000x64, .f32⟩
  | .hbm, ⟨34, _⟩ => ⟨S_, .f32⟩
  | .hbm, ⟨35, _⟩ => ⟨S100000x64, .f32⟩
  | .hbm, ⟨36, _⟩ => ⟨S1250000x1, .i32⟩
  | .hbm, ⟨37, _⟩ => ⟨S100000x64, .f32⟩
  | .hbm, ⟨38, _⟩ => ⟨S64x128, .f32⟩
  | .hbm, ⟨39, _⟩ => ⟨S64x128, .f32⟩
  | .hbm, ⟨40, _⟩ => ⟨S128x64, .f32⟩
  | .hbm, ⟨41, _⟩ => ⟨S1x128, .f32⟩
  | .hbm, ⟨42, _⟩ => ⟨S100000x128, .f32⟩
  | .hbm, ⟨43, _⟩ => ⟨S100000x64, .f32⟩
  | .hbm, ⟨44, _⟩ => ⟨S_, .i32⟩
  | .hbm, ⟨45, _⟩ => ⟨S1250000, .i32⟩
  | .hbm, ⟨46, _⟩ => ⟨S1250000, .i1⟩
  | .hbm, ⟨47, _⟩ => ⟨S_, .i32⟩
  | .hbm, ⟨48, _⟩ => ⟨S1250000, .i32⟩
  | .hbm, ⟨49, _⟩ => ⟨S1250000, .i32⟩
  | .hbm, ⟨50, _⟩ => ⟨S1250000, .i32⟩
  | .hbm, ⟨51, _⟩ => ⟨S1250000x1, .i32⟩
  | .hbm, ⟨52, _⟩ => ⟨S1250000x64, .f32⟩
  | .hbm, ⟨53, _⟩ => ⟨S_, .f32⟩
  | .hbm, ⟨54, _⟩ => ⟨S100000x64, .f32⟩
  | .hbm, ⟨55, _⟩ => ⟨S1250000x1, .i32⟩
  | .hbm, ⟨56, _⟩ => ⟨S100000x64, .f32⟩
  | .hbm, ⟨57, _⟩ => ⟨S_, .f32⟩
  | .hbm, ⟨58, _⟩ => ⟨S100000, .f32⟩
  | .hbm, ⟨59, _⟩ => ⟨S_, .f32⟩
  | .hbm, ⟨60, _⟩ => ⟨S64, .f32⟩
  | .hbm, ⟨61, _⟩ => ⟨S100000x1, .i32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S128x64, .f32⟩
  | .hbm, ⟨70, _⟩ => ⟨S1x64, .f32⟩
  | .hbm, ⟨71, _⟩ => ⟨S100000x1, .i32⟩
  | .hbm, ⟨72, _⟩ => ⟨S64x1, .f32⟩
  | .hbm, ⟨73, _⟩ => ⟨S64x64, .f32⟩
  | .hbm, ⟨74, _⟩ => ⟨S64x8, .f32⟩
  | .hbm, ⟨75, _⟩ => ⟨S64x8, .f32⟩
  | .hbm, ⟨76, _⟩ => ⟨S1x8, .f32⟩
  | .hbm, ⟨77, _⟩ => ⟨S64x8, .f32⟩
  | .hbm, ⟨78, _⟩ => ⟨S64x8, .f32⟩
  | .hbm, ⟨79, _⟩ => ⟨S_, .f32⟩
  | .hbm, ⟨80, _⟩ => ⟨S64x8, .f32⟩
  | .hbm, ⟨81, _⟩ => ⟨S64x8, .f32⟩
  | .hbm, ⟨82, _⟩ => ⟨S8x4, .f32⟩
  | .hbm, ⟨83, _⟩ => ⟨S64x4, .f32⟩
  | .hbm, ⟨84, _⟩ => ⟨S1x4, .f32⟩
  | .hbm, ⟨85, _⟩ => ⟨S64x4, .f32⟩
  | .hbm, ⟨86, _⟩ => ⟨S64x4, .f32⟩
  | .hbm, ⟨87, _⟩ => ⟨S_, .f32⟩
  | .hbm, ⟨88, _⟩ => ⟨S64x4, .f32⟩
  | .hbm, ⟨89, _⟩ => ⟨S64x4, .f32⟩
  | .hbm, ⟨90, _⟩ => ⟨S4x1, .f32⟩
  | .hbm, ⟨91, _⟩ => ⟨S64x1, .f32⟩
  | .hbm, ⟨92, _⟩ => ⟨S1x1, .f32⟩
  | .hbm, ⟨93, _⟩ => ⟨S64x1, .f32⟩
  | .hbm, ⟨94, _⟩ => ⟨S64x1, .f32⟩
  | .hbm, ⟨95, _⟩ => ⟨S1x4, .f32⟩
  | .hbm, ⟨96, _⟩ => ⟨S64x4, .f32⟩
  | .hbm, ⟨97, _⟩ => ⟨S1x4, .f32⟩
  | .hbm, ⟨98, _⟩ => ⟨S64x4, .f32⟩
  | .hbm, ⟨99, _⟩ => ⟨S64x4, .f32⟩
  | .hbm, ⟨100, _⟩ => ⟨S_, .f32⟩
  | .hbm, ⟨101, _⟩ => ⟨S64x4, .f32⟩
  | .hbm, ⟨102, _⟩ => ⟨S64x4, .f32⟩
  | .hbm, ⟨103, _⟩ => ⟨S4x8, .f32⟩
  | .hbm, ⟨104, _⟩ => ⟨S64x8, .f32⟩
  | .hbm, ⟨105, _⟩ => ⟨S1x8, .f32⟩
  | .hbm, ⟨106, _⟩ => ⟨S64x8, .f32⟩
  | .hbm, ⟨107, _⟩ => ⟨S64x8, .f32⟩
  | .hbm, ⟨108, _⟩ => ⟨S_, .f32⟩
  | .hbm, ⟨109, _⟩ => ⟨S64x8, .f32⟩
  | .hbm, ⟨110, _⟩ => ⟨S64x8, .f32⟩
  | .hbm, ⟨111, _⟩ => ⟨S8x64, .f32⟩
  | .hbm, ⟨112, _⟩ => ⟨S64x64, .f32⟩
  | .hbm, ⟨113, _⟩ => ⟨S1x64, .f32⟩
  | .hbm, ⟨114, _⟩ => ⟨S64x64, .f32⟩
  | .hbm, ⟨115, _⟩ => ⟨S64x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S128x64, .f32⟩
  | .local _ .vmem, ⟨8, _⟩ => ⟨S5000x128, .f32⟩
  | .local _ .vmem, ⟨9, _⟩ => ⟨S5000x128, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S1x64, .f32⟩
  | .local _ .vmem, ⟨18, _⟩ => ⟨S5000x1, .i32⟩
  | .local _ .vmem, ⟨19, _⟩ => ⟨S5000x1, .i32⟩
  | .local _ .vmem, ⟨20, _⟩ => ⟨S64x1, .f32⟩
  | .local _ .vmem, ⟨21, _⟩ => ⟨S64x64, .f32⟩
  | .local _ .vmem, ⟨22, _⟩ => ⟨S64x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18_0 : Ref sig .tc := ⟨.hbm, 42, rfl⟩
abbrev main_v18_1 : Ref sig .tc := ⟨.hbm, 43, rfl⟩
abbrev main_c_1 : Ref sig .tc := ⟨.hbm, 44, rfl⟩
abbrev main_v19 : Ref sig .tc := ⟨.hbm, 45, rfl⟩
abbrev main_v20 : Ref sig .tc := ⟨.hbm, 46, rfl⟩
abbrev main_c_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_3 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_4 : Ref sig .tc := ⟨.hbm, 57, rfl⟩
abbrev main_v29 : Ref sig .tc := ⟨.hbm, 58, rfl⟩
abbrev main_cst_5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_6 : Ref sig .tc := ⟨.hbm, 63, rfl⟩
abbrev main_v33 : Ref sig .tc := ⟨.hbm, 64, rfl⟩
abbrev main_v34 : Ref sig .tc := ⟨.hbm, 65, rfl⟩
abbrev main_cst_7 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_call0_cst : Ref sig .tc := ⟨.hbm, 79, rfl⟩
abbrev main_call0_v0 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_call1_cst : Ref sig .tc := ⟨.hbm, 87, rfl⟩
abbrev main_call1_v0 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_call2_cst : Ref sig .tc := ⟨.hbm, 100, rfl⟩
abbrev main_call2_v0 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_call3_cst : Ref sig .tc := ⟨.hbm, 108, rfl⟩
abbrev main_call3_v0 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem6_0 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v34 : BitVec 1 := Scalar.cmpi .eq arg0 c19_i32
  let v35 : BitVec 32 := Scalar.extui v34
  let c0_i32_16 : BitVec 32 := 0#32
  let v36 : BitVec 1 := Scalar.cmpi .ne v35 c0_i32_16
  v36

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  transposes_S128x64_S64x128_1_0 : S128x64.Transposes [1, 0] S64x128
  transposes_S64x128_S128x64_1_0 : S64x128.Transposes [1, 0] S128x64
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  bcast_S_S100000 : S_.BroadcastsInDim S100000 (![] : Fin 0 → Fin S100000.rank)
  bcast_S_S64 : S_.BroadcastsInDim S64 (![] : Fin 0 → Fin S64.rank)
  bcast_S100000_S100000x1_0 : S100000.BroadcastsInDim S100000x1 (![0] : Fin 1 → Fin S100000x1.rank)
  shapeCasts_S64_S1x64 : S64.ShapeCasts S1x64
  shapeCasts_S100000_S100000x1 : S100000.ShapeCasts S100000x1
  shapeCasts_S64_S64x1 : S64.ShapeCasts S64x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S5000x128_S5000x128 : S5000x128.ShapeCasts S5000x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x64 : S64x1.Broadcasts S64x64
  transposes_S8x64_S64x8_1_0 : S8x64.Transposes [1, 0] S64x8
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  bcast_S_S64x8 : S_.BroadcastsInDim S64x8 (![] : Fin 0 → Fin S64x8.rank)
  transposes_S4x8_S8x4_1_0 : S4x8.Transposes [1, 0] S8x4
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  bcast_S_S64x4 : S_.BroadcastsInDim S64x4 (![] : Fin 0 → Fin S64x4.rank)
  transposes_S1x4_S4x1_1_0 : S1x4.Transposes [1, 0] S4x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  transposes_S4x1_S1x4_1_0 : S4x1.Transposes [1, 0] S1x4
  transposes_S8x4_S4x8_1_0 : S8x4.Transposes [1, 0] S4x8
  transposes_S64x8_S8x64_1_0 : S64x8.Transposes [1, 0] S8x64
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  scatter_S64_S100000x1_S100000_n_0_0_1_wf : ScatterDims.WF S64 S100000x1 S100000 [] [0] [0] 1
  dot_S5000x64_S5000x64_S64x64_0_0_1_1_n_n_wf : DotDims.WF S5000x64 S5000x64 S64x64 [0] [0] [1] [1] [] []
  dot_S64x64_S64x8_S64x8_1_0_0_1_n_n_wf : DotDims.WF S64x64 S64x8 S64x8 [1] [0] [0] [1] [] []
  dot_S64x8_S8x4_S64x4_1_0_0_1_n_n_wf : DotDims.WF S64x8 S8x4 S64x4 [1] [0] [0] [1] [] []
  dot_S64x4_S4x1_S64x1_1_0_0_1_n_n_wf : DotDims.WF S64x4 S4x1 S64x1 [1] [0] [0] [1] [] []
  dot_S64x1_S1x4_S64x4_1_0_0_1_n_n_wf : DotDims.WF S64x1 S1x4 S64x4 [1] [0] [0] [1] [] []
  dot_S64x4_S4x8_S64x8_1_0_0_1_n_n_wf : DotDims.WF S64x4 S4x8 S64x8 [1] [0] [0] [1] [] []
  dot_S64x8_S8x64_S64x64_1_0_0_1_n_n_wf : DotDims.WF S64x8 S8x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .i32 = 32 ∨ (Rect.block (s := S100000x1) S5000x1.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def dot_S64x64_S64x8_S64x8_1_0_0_1_n_n : DotDims S64x64 S64x8 S64x8 where
  lhsContracting := [1]
  rhsContracting := [0]
  lhsNonContracting := [0]
  rhsNonContracting := [1]
  lhsBatch := []
  rhsBatch := []
  wf := dot_S64x64_S64x8_S64x8_1_0_0_1_n_n_wf
def dot_S64x8_S8x4_S64x4_1_0_0_1_n_n : DotDims S64x8 S8x4 S64x4 where
  lhsContracting := [1]
  rhsContracting := [0]
  lhsNonContracting := [0]
  rhsNonContracting := [1]
  lhsBatch := []
  rhsBatch := []
  wf := dot_S64x8_S8x4_S64x4_1_0_0_1_n_n_wf
def dot_S64x4_S4x1_S64x1_1_0_0_1_n_n : DotDims S64x4 S4x1 S64x1 where
  lhsContracting := [1]
  rhsContracting := [0]
  lhsNonContracting := [0]
  rhsNonContracting := [1]
  lhsBatch := []
  rhsBatch := []
  wf := dot_S64x4_S4x1_S64x1_1_0_0_1_n_n_wf
def dot_S64x1_S1x4_S64x4_1_0_0_1_n_n : DotDims S64x1 S1x4 S64x4 where
  lhsContracting := [1]
  rhsContracting := [0]
  lhsNonContracting := [0]
  rhsNonContracting := [1]
  lhsBatch := []
  rhsBatch := []
  wf := dot_S64x1_S1x4_S64x4_1_0_0_1_n_n_wf
def dot_S64x4_S4x8_S64x8_1_0_0_1_n_n : DotDims S64x4 S4x8 S64x8 where
  lhsContracting := [1]
  rhsContracting := [0]
  lhsNonContracting := [0]
  rhsNonContracting := [1]
  lhsBatch := []
  rhsBatch := []
  wf := dot_S64x4_S4x8_S64x8_1_0_0_1_n_n_wf
def dot_S64x8_S8x64_S64x64_1_0_0_1_n_n : DotDims S64x8 S8x64 S64x64 where
  lhsContracting := [1]
  rhsContracting := [0]
  lhsNonContracting := [0]
  rhsNonContracting := [1]
  lhsBatch := []
  rhsBatch := []
  wf := dot_S64x8_S8x64_S64x64_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v28) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v40) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S64x64.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1250000 : Shape := ⟨2, ![2, 1250000]⟩
abbrev S100000 : Shape := ⟨1, ![100000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S8x64 : Shape := ⟨2, ![8, 64]⟩
abbrev S8 : Shape := ⟨1, ![8]⟩
abbrev S4x8 : Shape := ⟨2, ![4, 8]⟩
abbrev S4 : Shape := ⟨1, ![4]⟩
abbrev S1x4 : Shape := ⟨2, ![1, 4]⟩
abbrev S1 : Shape := ⟨1, ![1]⟩
abbrev S4x1 : Shape := ⟨2, ![4, 1]⟩
abbrev S8x4 : Shape := ⟨2, ![8, 4]⟩
abbrev S64x8 : Shape := ⟨2, ![64, 8]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000x128 : Shape := ⟨2, ![100000, 128]⟩
abbrev S1x128 : Shape := ⟨2, ![1, 128]⟩
abbrev S1250000x128 : Shape := ⟨2, ![1250000, 128]⟩
abbrev S1x64 : Shape := ⟨2, ![1, 64]⟩
abbrev S100000x1 : Shape := ⟨2, ![100000, 1]⟩
abbrev S64x64 : Shape := ⟨2, ![64, 64]⟩
abbrev S64x1 : Shape := ⟨2, ![64, 1]⟩
abbrev S1x8 : Shape := ⟨2, ![1, 8]⟩
abbrev S64x4 : Shape := ⟨2, ![64, 4]⟩
abbrev S1x1 : Shape := ⟨2, ![1, 1]⟩

abbrev nBuf : Space → Nat
  | .hbm => 131
  | .vmem => 0
  | .smem => 0
  | _ => 0

abbrev hbmTy0_0 (i : Nat) : BufTy := match i % 128 with
  | 0 => ⟨S100000x64, .f32⟩
  | 1 => ⟨S2x1250000, .i32⟩
  | 2 => ⟨S100000, .i32⟩
  | 3 => ⟨S128x64, .f32⟩
  | 4 => ⟨S128, .f32⟩
  | 5 => ⟨S128x64, .f32⟩
  | 6 => ⟨S64x128, .f32⟩
  | 7 => ⟨S64, .f32⟩
  | 8 => ⟨S64x128, .f32⟩
  | 9 => ⟨S8x64, .f32⟩
  | 10 => ⟨S8, .f32⟩
  | 11 => ⟨S4x8, .f32⟩
  | 12 => ⟨S4, .f32⟩
  | 13 => ⟨S1x4, .f32⟩
  | 14 => ⟨S1, .f32⟩
  | 15 => ⟨S4x1, .f32⟩
  | 16 => ⟨S4, .f32⟩
  | 17 => ⟨S8x4, .f32⟩
  | 18 => ⟨S8, .f32⟩
  | 19 => ⟨S64x8, .f32⟩
  | 20 => ⟨S64, .f32⟩
  | 21 => ⟨S1x1250000, .i32⟩
  | 22 => ⟨S1250000, .i32⟩
  | 23 => ⟨S1x1250000, .i32⟩
  | 24 => ⟨S1250000, .i32⟩
  | 25 => ⟨S_, .i32⟩
  | 26 => ⟨S1250000, .i32⟩
  | 27 => ⟨S1250000, .i1⟩
  | 28 => ⟨S_, .i32⟩
  | 29 => ⟨S1250000, .i32⟩
  | 30 => ⟨S1250000, .i32⟩
  | 31 => ⟨S1250000, .i32⟩
  | 32 => ⟨S1250000x1, .i32⟩
  | 33 => ⟨S1250000x64, .f32⟩
  | 34 => ⟨S_, .f32⟩
  | 35 => ⟨S100000x64, .f32⟩
  | 36 => ⟨S1250000x1, .i32⟩
  | 37 => ⟨S100000x64, .f32⟩
  | 38 => ⟨S64x128, .f32⟩
  | 39 => ⟨S100000x128, .f32⟩
  | 40 => ⟨S1x128, .f32⟩
  | 41 => ⟨S100000x128, .f32⟩
  | 42 => ⟨S100000x128, .f32⟩
  | 43 => ⟨S64x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S_, .i32⟩
  | 50 => ⟨S1250000, .i32⟩
  | 51 => ⟨S1250000, .i1⟩
  | 52 => ⟨S_, .i32⟩
  | 53 => ⟨S1250000, .i32⟩
  | 54 => ⟨S1250000, .i32⟩
  | 55 => ⟨S1250000, .i32⟩
  | 56 => ⟨S1250000x1, .i32⟩
  | 57 => ⟨S1250000x128, .f32⟩
  | 58 => ⟨S_, .f32⟩
  | 59 => ⟨S100000x128, .f32⟩
  | 60 => ⟨S1250000x1, .i32⟩
  | 61 => ⟨S100000x128, .f32⟩
  | 62 => ⟨S128x64, .f32⟩
  | 63 => ⟨S100000x64, .f32⟩
  | 64 => ⟨S1x64, .f32⟩
  | 65 => ⟨S100000x64, .f32⟩
  | 66 => ⟨S100000x64, .f32⟩
  | 67 => ⟨S128x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S_, .f32⟩
  | 74 => ⟨S100000, .f32⟩
  | 75 => ⟨S_, .f32⟩
  | 76 => ⟨S64, .f32⟩
  | 77 => ⟨S100000x1, .i32⟩
  | 78 => ⟨S64, .f32⟩
  | 79 => ⟨S_, .f32⟩
  | 80 => ⟨S64x64, .f32⟩
  | 81 => ⟨S100000x1, .i32⟩
  | 82 => ⟨S64x64, .f32⟩
  | 83 => ⟨S_, .f32⟩
  | 84 => ⟨S64, .f32⟩
  | 85 => ⟨S64, .f32⟩
  | 86 => ⟨S64x1, .f32⟩
  | 87 => ⟨S64x64, .f32⟩
  | 88 => ⟨S64x64, .f32⟩
  | 89 => ⟨S64x8, .f32⟩
  | 90 => ⟨S64x8, .f32⟩
  | 91 => ⟨S1x8, .f32⟩
  | 92 => ⟨S64x8, .f32⟩
  | 93 => ⟨S64x8, .f32⟩
  | 94 => ⟨S_, .f32⟩
  | 95 => ⟨S64x8, .f32⟩
  | 96 => ⟨S64x8, .f32⟩
  | 97 => ⟨S8x4, .f32⟩
  | 98 => ⟨S64x4, .f32⟩
  | 99 => ⟨S1x4, .f32⟩
  | 100 => ⟨S64x4, .f32⟩
  | 101 => ⟨S64x4, .f32⟩
  | 102 => ⟨S_, .f32⟩
  | 103 => ⟨S64x4, .f32⟩
  | 104 => ⟨S64x4, .f32⟩
  | 105 => ⟨S4x1, .f32⟩
  | 106 => ⟨S64x1, .f32⟩
  | 107 => ⟨S1x1, .f32⟩
  | 108 => ⟨S64x1, .f32⟩
  | 109 => ⟨S64x1, .f32⟩
  | 110 => ⟨S1x4, .f32⟩
  | 111 => ⟨S64x4, .f32⟩
  | 112 => ⟨S1x4, .f32⟩
  | 113 => ⟨S64x4, .f32⟩
  | 114 => ⟨S64x4, .f32⟩
  | 115 => ⟨S_, .f32⟩
  | 116 => ⟨S64x4, .f32⟩
  | 117 => ⟨S64x4, .f32⟩
  | 118 => ⟨S4x8, .f32⟩
  | 119 => ⟨S64x8, .f32⟩
  | 120 => ⟨S1x8, .f32⟩
  | 121 => ⟨S64x8, .f32⟩
  | 122 => ⟨S64x8, .f32⟩
  | 123 => ⟨S_, .f32⟩
  | 124 => ⟨S64x8, .f32⟩
  | 125 => ⟨S64x8, .f32⟩
  | 126 => ⟨S8x64, .f32⟩
  | 127 => ⟨S64x64, .f32⟩
  | _ => ⟨S100000x64, .f32⟩

abbrev hbmTy0_1 (i : Nat) : BufTy := match i % 128 with
  | 0 => ⟨S1x64, .f32⟩
  | 1 => ⟨S64x64, .f32⟩
  | 2 => ⟨S64x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_call0_cst : Ref sig .tc := ⟨.hbm, 46, rfl⟩
abbrev main_call0_v0 : Ref sig .tc := ⟨.hbm, 47, rfl⟩
abbrev main_v22 : Ref sig .tc := ⟨.hbm, 48, rfl⟩
abbrev main_c_1 : Ref sig .tc := ⟨.hbm, 49, rfl⟩
abbrev main_v23 : Ref sig .tc := ⟨.hbm, 50, rfl⟩
abbrev main_v24 : Ref sig .tc := ⟨.hbm, 51, rfl⟩
abbrev main_c_2 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_3 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_call1_cst : Ref sig .tc := ⟨.hbm, 70, rfl⟩
abbrev main_call1_v0 : Ref sig .tc := ⟨.hbm, 71, rfl⟩
abbrev main_v41 : Ref sig .tc := ⟨.hbm, 72, rfl⟩
abbrev main_cst_4 : Ref sig .tc := ⟨.hbm, 73, rfl⟩
abbrev main_v42 : Ref sig .tc := ⟨.hbm, 74, rfl⟩
abbrev main_cst_5 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_6 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_7 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_call2_cst : Ref sig .tc := ⟨.hbm, 94, rfl⟩
abbrev main_call2_v0 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_call3_cst : Ref sig .tc := ⟨.hbm, 102, rfl⟩
abbrev main_call3_v0 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_call4_cst : Ref sig .tc := ⟨.hbm, 115, rfl⟩
abbrev main_call4_v0 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_call5_cst : Ref sig .tc := ⟨.hbm, 123, rfl⟩
abbrev main_call5_v0 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000 : S_.BroadcastsInDim S100000 (![] : Fin 0 → Fin S100000.rank)
  bcast_S_S64 : S_.BroadcastsInDim S64 (![] : Fin 0 → Fin S64.rank)
  bcast_S100000_S100000x1_0 : S100000.BroadcastsInDim S100000x1 (![0] : Fin 1 → Fin S100000x1.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  transposes_S8x64_S64x8_1_0 : S8x64.Transposes [1, 0] S64x8
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  bcast_S_S64x8 : S_.BroadcastsInDim S64x8 (![] : Fin 0 → Fin S64x8.rank)
  transposes_S4x8_S8x4_1_0 : S4x8.Transposes [1, 0] S8x4
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  bcast_S_S64x4 : S_.BroadcastsInDim S64x4 (![] : Fin 0 → Fin S64x4.rank)
  transposes_S1x4_S4x1_1_0 : S1x4.Transposes [1, 0] S4x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  transposes_S4x1_S1x4_1_0 : S4x1.Transposes [1, 0] S1x4
  transposes_S8x4_S4x8_1_0 : S8x4.Transposes [1, 0] S4x8
  transposes_S64x8_S8x64_1_0 : S64x8.Transposes [1, 0] S8x64
  bcast_S1x64_S64x64_0_1 : S1x64.BroadcastsInDim S64x64 (![0, 1] : Fin 2 → Fin S64x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x128_S100000x128_1_0_0_1_n_n_wf : DotDims.WF S100000x64 S64x128 S100000x128 [1] [0] [0] [1] [] []
  gather_S100000x128_S1250000x1_S1250000x128_1_0_n_n_0_1_1128_wf : GatherDims.WF S100000x128 S1250000x1 S1250000x128 [1] [0] [] [0] [] 1 ![1, 128]
  scatter_S100000x128_S1250000x1_S1250000x128_1_0_0_1_wf : ScatterDims.WF S100000x128 S1250000x1 S1250000x128 [1] [0] [0] 1
  dot_S100000x128_S128x64_S100000x64_1_0_0_1_n_n_wf : DotDims.WF S100000x128 S128x64 S100000x64 [1] [0] [0] [1] [] []
  scatter_S64_S100000x1_S100000_n_0_0_1_wf : ScatterDims.WF S64 S100000x1 S100000 [] [0] [0] 1
  scatter_S64x64_S100000x1_S100000x64_1_0_0_1_wf : ScatterDims.WF S64x64 S100000x1 S100000x64 [1] [0] [0] 1
  dot_S64x64_S64x8_S64x8_1_0_0_1_n_n_wf : DotDims.WF S64x64 S64x8 S64x8 [1] [0] [0] [1] [] []
  dot_S64x8_S8x4_S64x4_1_0_0_1_n_n_wf : DotDims.WF S64x8 S8x4 S64x4 [1] [0] [0] [1] [] []
  dot_S64x4_S4x1_S64x1_1_0_0_1_n_n_wf : DotDims.WF S64x4 S4x1 S64x1 [1] [0] [0] [1] [] []
  dot_S64x1_S1x4_S64x4_1_0_0_1_n_n_wf : DotDims.WF S64x1 S1x4 S64x4 [1] [0] [0] [1] [] []
  dot_S64x4_S4x8_S64x8_1_0_0_1_n_n_wf : DotDims.WF S64x4 S4x8 S64x8 [1] [0] [0] [1] [] []
  dot_S64x8_S8x64_S64x64_1_0_0_1_n_n_wf : DotDims.WF S64x8 S8x64 S64x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1250000x1_S1250000x128_1_0_n_n_0_1_1128 : GatherDims S100000x128 S1250000x1 S1250000x128 where
  offsetDims := [1]
  collapsedSliceDims := [0]
  operandBatchingDims := []
  startIndicesBatchingDims := []
  startIndexMap := [0]
  indexVectorDim := 1
  sliceSizes := ![1, 128]
  wf := gather_S100000x128_S1250000x1_S1250000x128_1_0_n_n_0_1_1128_wf
def scatter_S100000x128_S1250000x1_S1250000x128_1_0_0_1 : ScatterDims S100000x128 S1250000x1 S1250000x128 where
  updateWindowDims := [1]
  insertedWindowDims := [0]
  scatterDimsToOperandDims := [0]
  indexVectorDim := 1
  wf := scatter_S100000x128_S1250000x1_S1250000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x64_S64x8_S64x8_1_0_0_1_n_n : DotDims S64x64 S64x8 S64x8 where
  lhsContracting := [1]
  rhsContracting := [0]
  lhsNonContracting := [0]
  rhsNonContracting := [1]
  lhsBatch := []
  rhsBatch := []
  wf := dot_S64x64_S64x8_S64x8_1_0_0_1_n_n_wf
def dot_S64x8_S8x4_S64x4_1_0_0_1_n_n : DotDims S64x8 S8x4 S64x4 where
  lhsContracting := [1]
  rhsContracting := [0]
  lhsNonContracting := [0]
  rhsNonContracting := [1]
  lhsBatch := []
  rhsBatch := []
  wf := dot_S64x8_S8x4_S64x4_1_0_0_1_n_n_wf
def dot_S64x4_S4x1_S64x1_1_0_0_1_n_n : DotDims S64x4 S4x1 S64x1 where
  lhsContracting := [1]
  rhsContracting := [0]
  lhsNonContracting := [0]
  rhsNonContracting := [1]
  lhsBatch := []
  rhsBatch := []
  wf := dot_S64x4_S4x1_S64x1_1_0_0_1_n_n_wf
def dot_S64x1_S1x4_S64x4_1_0_0_1_n_n : DotDims S64x1 S1x4 S64x4 where
  lhsContracting := [1]
  rhsContracting := [0]
  lhsNonContracting := [0]
  rhsNonContracting := [1]
  lhsBatch := []
  rhsBatch := []
  wf := dot_S64x1_S1x4_S64x4_1_0_0_1_n_n_wf
def dot_S64x4_S4x8_S64x8_1_0_0_1_n_n : DotDims S64x4 S4x8 S64x8 where
  lhsContracting := [1]
  rhsContracting := [0]
  lhsNonContracting := [0]
  rhsNonContracting := [1]
  lhsBatch := []
  rhsBatch := []
  wf := dot_S64x4_S4x8_S64x8_1_0_0_1_n_n_wf
def dot_S64x8_S8x64_S64x64_1_0_0_1_n_n : DotDims S64x8 S8x64 S64x64 where
  lhsContracting := [1]
  rhsContracting := [0]
  lhsNonContracting := [0]
  rhsNonContracting := [1]
  lhsBatch := []
  rhsBatch := []
  wf := dot_S64x8_S8x64_S64x64_1_0_0_1_n_n_wf

class Facts : Prop extends Facts₀ where

variable [Facts]
-- ==== Proof.K.R0.lean ====
/-
  The first pallas_call (the dense layer h1 = max(agg·W_rel + x·W_root + b, 0) and p1 = h1·W2_rel, 20 row blocks of 5000) at the contents `V` its region is entered with.
-/
import proofs.«423418_j69827578298829_3_alg».proof.Proof.Gen.Kernel.Launch
import proofs.«423418_j69827578298829_3_alg».proof.Proof.Gen.Kernel.Skeleton
import proofs.«423418_j69827578298829_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- h1's block from the point's input blocks (aggregate, features, W_rel transposed, bias row, W_root transposed). -/
abbrev hBlk (c : Dev nD) (t : Fin cfg0.N) : Vec F S5000x128 .f32 :=
  k0_pay1 (iblk V c 0 t) (iblk V c 1 t) (iblk V c 2 t) (iblk V c 4 t) (iblk V c 3 t)
/-- p1's block: h1's block times W2_rel transposed. -/
abbrev pBlk (c : Dev nD) (t : Fin cfg0.N) : Vec F S5000x64 .f32 :=
  k0_pay2 (iblk V c 0 t) (iblk V c 1 t) (iblk V c 2 t) (iblk V c 4 t) (iblk V c 3 t) (iblk V c 5 t)

/-- The proof data of the first pipeline on core `c`: the arrays as the region finds them; after the body each input's
    buffer at its block, h1's at `hBlk`, p1's at `pBlk`; the invariant the scoped rest and the generator register;
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => hBlk V c t
    | ⟨7, _⟩ => pBlk V c t
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = hBlk V c t := by dsimp only [dat]
theorem after_7 (c : Dev nD) (t : Fin cfg0.N) : (dat V c).after 7 t = pBlk V c t := by dsimp only [dat]

/-! ## The inputs' buffers hold their blocks at every point -/

/-- Window 0 (the aggregate block) is an uncut input that is never idle and whose body leaves it in place, so its current
    buffer holds its block at every point, fetched there or not (unfetched, the block index has not moved). -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-- Window 1 (the feature block) is an uncut input that is never idle and whose body leaves it in place, so its current
    buffer holds its block at every point, fetched there or not (unfetched, the block index has not moved). -/
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- Window 2 (W_rel transposed) is an uncut input that is never idle and whose body leaves it in place, so its current
    buffer holds its block at every point, fetched there or not (unfetched, the block index has not moved). -/
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- Window 3 (the bias row) is an uncut input that is never idle and whose body leaves it in place, so its current
    buffer holds its block at every point, fetched there or not (unfetched, the block index has not moved). -/
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- Window 4 (W_root transposed) is an uncut input that is never idle and whose body leaves it in place, so its current
    buffer holds its block at every point, fetched there or not (unfetched, the block index has not moved). -/
theorem before_4 (c : Dev nD) (t : Fin cfg0.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- Window 5 (W2_rel transposed) is an uncut input that is never idle and whose body leaves it in place, so its current
    buffer holds its block at every point, fetched there or not (unfetched, the block index has not moved). -/
theorem before_5 (c : Dev nD) (t : Fin cfg0.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The body's run -/

/-- The offsets of every rectangle the body loads and stores through are zero. -/
theorem offsets_zero : (![0, 0] : Fin 2 → Nat) = fun _ => 0 := funext fun a => by fin_cases a <;> rfl

/-- One store through the whole-shape rectangle at zero offsets covers the buffer. -/
theorem whole_store_covers {S : Shape} {e : EltTy} {off : Fin S.rank → Nat} (h : off = fun _ => 0)
    (inb : ∀ a, off a + S.size a ≤ S.size a) (p : S.Idx → Elt F e) (y : S.Idx) :
    ∃ pc ∈ ([⟨Rect.unit off S.size inb, p⟩] : List (View.Piece (Elt F) S e)), y ∈ pc.1.set :=
  ⟨_, List.mem_singleton_self _, View.mem_set_unit_zero h inb y⟩

set_option maxHeartbeats 1000000 in
/-- The body on whole staging memrefs, the six inputs' at contents `x1 … x6` and the two outputs' at anything: it reads
    each input whole, and leaves h1's buffer at `k0_pay1` of the inputs and p1's at `k0_pay2` of them, the inputs as
    they were. Each output buffer is read once before it is stored whole, so what it held does not matter. -/
theorem dense_layer_run (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S64x128 .f32) (harg5 : arg5.IsWhole) (arg6 : Memref sig .tc .vmem S128x64 .f32) (harg6 : arg6.IsWhole) (arg7 : Memref sig .tc .vmem S5000x128 .f32) (harg7 : arg7.IsWhole) (arg8 : Memref sig .tc .vmem S5000x64 .f32) (harg8 : arg8.IsWhole)
    (x1 : Vec F S5000x64 .f32) (x2 : Vec F S5000x64 .f32) (x3 : Vec F S64x128 .f32) (x4 : Vec F S1x128 .f32) (x5 : Vec F S64x128 .f32) (x6 : Vec F S128x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (k0_pay1 x1 x2 x3 x5 x4)
            ∗ owns (c : Thread nD τ) arg8 fullShare (k0_pay2 x1 x2 x3 x5 x4 x6)) -∗ K ⟨⟩))
      ⊢ wp frame (wpE (defs₀ (F := F)) Variants.none c none) E (cc0_kernel i arg1 harg1 arg2 harg2 arg3 harg3 arg4 harg4 arg5 harg5 arg6 harg6 arg7 harg7 arg8 harg8) K := by
  simp only [cc0_kernel_eq_skeleton]; unfold cc0_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (whole_store_covers offsets_zero _ _), View.canon_unit_zero offsets_zero]
    simp only [View.readAt_eq_ld, View.ld_unit_zero (S := S5000x64) offsets_zero, View.ld_unit_zero (S := S64x128) offsets_zero,
      View.ld_unit_zero (S := S1x128) offsets_zero]
  iexists _; isplitr
  swap; · iexact H8
  ipureintro
  rw [View.read_writes_eq_canon _ _ _ (whole_store_covers offsets_zero _ _), View.canon_unit_zero offsets_zero]
  simp only [View.readAt_eq_ld, View.ld_unit_zero (S := S5000x64) offsets_zero, View.ld_unit_zero (S := S64x128) offsets_zero,
    View.ld_unit_zero (S := S1x128) offsets_zero, View.ld_unit_zero (S := S128x64) offsets_zero]

/-! ## The body obligation, at a generic point -/

/-- What the body is called with at point `t`: the invariant, what the core owes, and every window's current buffer. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- What it returns: the same invariant and debt, every buffer at what the body leaves. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the six inputs' buffers hold their blocks, so the run above applies at those blocks; the
    invariant and the core's debt pass through unread. -/
theorem body_at_point (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (dense_layer_run c Set.univ _ _ _ _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the first pipeline at every point. -/
theorem body_obligation (c : Dev nD) : BodyObligation (dat (F := F) V c) (defs₀ (F := F)) Variants.none () Set.univ := fun t => by
  rw [bigSep_W0, bigSep_W0]
  exact body_at_point V c t

end Cert.Kernel.R0

end
-- ==== Proof.K.R1.lean ====
/-
  The second pallas_call (h2 = max(agg2 + h1·W2_root + b2, 0) per block of 5000 rows, its one-hot pooled sums accumulated in a scratch over the 20 blocks, scaled by the inverse counts at the last) at the contents `V` its region is entered with.
-/
import proofs.«423418_j69827578298829_3_alg».proof.Proof.Gen.Kernel.Launch
import proofs.«423418_j69827578298829_3_alg».proof.Proof.Gen.Kernel.Skeleton
import proofs.«423418_j69827578298829_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator: a whole scoped buffer of the kernel's own, passed beside the windows. -/
abbrev scM : Memref sig .tc .vmem S64x64 .f32 := Memref.whole cc1_scratch0

/-- One more block's pooled sums on top of `a`: the third payload at the point's input blocks. -/
abbrev step (c : Dev nD) (t : Fin cfg1.N) (a : Vec F S64x64 .f32) : Vec F S64x64 .f32 :=
  k1_pay3 (iblk V c 0 t) (iblk V c 1 t) (iblk V c 2 t) (iblk V c 3 t) (iblk V c 4 t) a

/-- THE ACCUMULATION: what the scratch holds after the body at position `n` — the zero block then the first block's
    sums at the first point, one more block's sums over what the point before left afterwards. -/
def accAt (c : Dev nD) : (n : ℕ) → n < cfg1.N → Vec F S64x64 .f32
  | 0, hn => step V c ⟨0, hn⟩ (k1_pay2 (F := F))
  | n + 1, hn => step V c ⟨n + 1, hn⟩ (accAt c n (Nat.lt_of_succ_lt hn))

theorem accAt_zero (c : Dev nD) (hn : 0 < cfg1.N) : accAt V c 0 hn = step V c ⟨0, hn⟩ (k1_pay2 (F := F)) := rfl
theorem accAt_succ (c : Dev nD) (n : ℕ) (hn : n + 1 < cfg1.N) :
    accAt V c (n + 1) hn = step V c ⟨n + 1, hn⟩ (accAt V c n (Nat.lt_of_succ_lt hn)) := rfl

/-- What output window 6's buffer holds after the body at position `n`, where the body stores into it (the last point:
    the accumulated sums times the inverse counts); at the other points the window is idle and nothing consults this. -/
def outAt (c : Dev nD) (n : ℕ) (hn : n < cfg1.N) : Vec F S64x64 .f32 :=
  k1_pay1 (accAt V c n hn) (iblk V c 5 ⟨n, hn⟩)

/-- The scoped buffers of the core that this pipeline neither stages nor uses: the first pallas_call's staging buffers, each at anything. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- Two assertions that entail each other are equal. -/
theorem eq_of_entails {P Q : sProp 𝕄} (h₁ : P ⊢ Q) (h₂ : Q ⊢ P) : P = Q := BI.Entails.antisymm h₁ h₂

/-- The class invariant (every scoped buffer the pipeline does not stage at anything, the generator register at some
    state) with the scratch set apart as a memref owned at some contents. -/
theorem PhiA_eq (c : Dev nD) :
    (Pipeline.ΦA spec1 c : sProp 𝕄)
      = iprop(others (F := F) c ∗ (∃ d, owns (c : Thread nD τ) scM fullShare d) ∗ (∃ r, prngReg c r)) := by
  unfold Pipeline.ΦA; rw [scopedRest1_eq]; unfold others
  simp only [scM, owns_whole]
  refine eq_of_entails ?_ ?_
  · iintro ⟨⟨H1, H2, H3, H4, H5, H6, H7, H8, H9, H10, H11, H12, HS⟩, Hg⟩
    isplitr [HS Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [HS]; · iexact HS
    iexact Hg
  · iintro ⟨⟨H1, H2, H3, H4, H5, H6, H7, H8, H9, H10, H11, H12⟩, HS, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact HS
    iexact Hg

/-- The region invariant before position `n`: before the first point the class's; afterwards the same with the
    scratch at what the point before left in it. -/
def PhiS (c : Dev nD) : (n : ℕ) → n ≤ cfg1.N → sProp 𝕄
  | 0, _ => Pipeline.ΦA spec1 c
  | n + 1, hn => iprop(others (F := F) c ∗ owns (c : Thread nD τ) scM fullShare (accAt V c n hn) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(others (F := F) c ∗ owns (c : Thread nD τ) scM fullShare (accAt V c n hn) ∗ (∃ r, prngReg c r)) := rfl
theorem PhiS_pos (c : Dev nD) (n : ℕ) (h : n ≤ cfg1.N) (hz : n ≠ 0) :
    PhiS V c n h = iprop(others (F := F) c ∗ owns (c : Thread nD τ) scM fullShare (accAt V c (n - 1) (by omega)) ∗ (∃ r, prngReg c r)) := by
  cases n with
  | zero => exact absurd rfl hz
  | succ n => rfl

/-- The proof data of the second pipeline on core `c`: the arrays as the region finds them; after the body each
    input's buffer at its block and the output's at `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outAt V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = outAt V c t.val t.isLt := by dsimp only [dat]

theorem PhiS_castSucc (c : Dev nD) (t : Fin cfg1.N) :
    (dat V c).Φ t.castSucc = PhiS V c t.val (Nat.le_of_lt t.isLt) := by
  dsimp only [dat]; simp only [Fin.coe_castSucc]

/-! ## The body's branch conditions -/

/-- The reset's condition (the first `scf.if`, from the grid coordinate): it is the first point. -/
abbrev condFirst (i : grid1.Coords) : Prop := (Scalar.cmpi .ne (Scalar.extui (Scalar.cmpi .eq (BitVec.ofNat 32 (i 0).val) 0#32)) 0#32) = 1#1
/-- Decided over the grid. -/
theorem condFirst_iff : ∀ t : Fin cfg1.N, condFirst (grid1.coords t) ↔ t.val = 0 :=
  (by decide +kernel : ∀ t : Fin grid1.N, condFirst (grid1.coords t) ↔ t.val = 0)
/-- The condition under which the pooled means are stored (the second `scf.if`): it is the last point. -/
abbrev condLast (i : grid1.Coords) : Prop := k1_cond2 i = 1#1
/-- Decided over the grid. -/
theorem condLast_iff : ∀ t : Fin cfg1.N, condLast (grid1.coords t) ↔ t.val = 19 :=
  (by decide +kernel : ∀ t : Fin grid1.N, condLast (grid1.coords t) ↔ t.val = 19)

/-- The zero offsets of a whole-block access, as a constant function. -/
theorem zeroOff : (![0, 0] : Fin 2 → Nat) = fun _ => 0 := funext fun a => by fin_cases a <;> rfl

/-! ## The body's run, case by case -/

set_option maxHeartbeats 1000000 in
/-- THE FIRST POINT. On whole memrefs — the five inputs and the inverse counts at their contents, the output's at
    contents handed back untouched, the accumulator at anything — the body runs to the continuation holding them as
    they were and the accumulator at the first block's sums over the zero block: the reset stores the zero block whole,
    the load after it reads that, and the update's store, last and whole, leaves its payload. -/
theorem runFirst (c : Dev nD) (E : Set ℕ) (i : grid1.Coords) (arg1 : Memref sig .tc .vmem S5000x64 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x1 .i32) (harg5 : arg5.IsWhole) (arg6 : Memref sig .tc .vmem S64x1 .f32) (harg6 : arg6.IsWhole) (arg7 : Memref sig .tc .vmem S64x64 .f32) (harg7 : arg7.IsWhole) (arg8 : Memref sig .tc .vmem S64x64 .f32) (harg8 : arg8.IsWhole)
    (hc0 : condFirst i) (hc1 : ¬condLast i)
    (x0 : Vec F S5000x64 .f32) (x1 : Vec F S5000x128 .f32) (x2 : Vec F S128x64 .f32) (x3 : Vec F S1x64 .f32) (x4 : Vec F S5000x1 .i32) (x5 : Vec F S64x1 .f32) (x6 : Vec F S64x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (k1_pay3 x0 x1 x2 x3 x4 (k1_pay2 (F := F)))) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton, k1_part1_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, Hk⟩
  subst hf0 hf1 hf2 hf3 hf4 hf5 hf6
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H8
  ipureintro
  rw [View.read_writes_eq_canon _ _ _ (fun y => ⟨_, List.mem_cons_self, View.mem_set_unit_zero zeroOff inb_S64x64_S64x64_0_0 y⟩)]
  sl_unfold_words
  rw [View.canon_cons_unit_zero (S := S64x64) zeroOff]
  simp only [View.readAt_eq_ld, View.readCov_unit_zero (S := S64x64) _ zeroOff,
    View.ld_unit_zero (S := S5000x64) zeroOff, View.ld_unit_zero (S := S5000x128) zeroOff, View.ld_unit_zero (S := S128x64) zeroOff,
    View.ld_unit_zero (S := S1x64) zeroOff, View.ld_unit_zero (S := S5000x1) zeroOff]

set_option maxHeartbeats 1000000 in
/-- A MIDDLE POINT. The same with the accumulator at what the point before left (`xs`): no reset, the update's one whole store
    leaves this block's sums over `xs`; the output's memref is handed back untouched. -/
theorem runMiddle (c : Dev nD) (E : Set ℕ) (i : grid1.Coords) (arg1 : Memref sig .tc .vmem S5000x64 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x1 .i32) (harg5 : arg5.IsWhole) (arg6 : Memref sig .tc .vmem S64x1 .f32) (harg6 : arg6.IsWhole) (arg7 : Memref sig .tc .vmem S64x64 .f32) (harg7 : arg7.IsWhole) (arg8 : Memref sig .tc .vmem S64x64 .f32) (harg8 : arg8.IsWhole)
    (hc0 : ¬condFirst i) (hc1 : ¬condLast i)
    (x0 : Vec F S5000x64 .f32) (x1 : Vec F S5000x128 .f32) (x2 : Vec F S128x64 .f32) (x3 : Vec F S1x64 .f32) (x4 : Vec F S5000x1 .i32) (x5 : Vec F S64x1 .f32) (x6 : Vec F S64x64 .f32)
    (xs : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (k1_pay3 x0 x1 x2 x3 x4 xs)) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton, k1_part1_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, H8⟩, Hk⟩
  subst hf0 hf1 hf2 hf3 hf4 hf5 hf6 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H8
  ipureintro
  rw [View.read_writes_eq_canon _ _ _ (fun y => ⟨_, List.mem_cons_self, View.mem_set_unit_zero zeroOff inb_S64x64_S64x64_0_0 y⟩)]
  rw [View.canon_unit_zero (S := S64x64) zeroOff]
  simp only [View.readAt_eq_ld,
    View.ld_unit_zero (S := S5000x64) zeroOff, View.ld_unit_zero (S := S5000x128) zeroOff, View.ld_unit_zero (S := S128x64) zeroOff,
    View.ld_unit_zero (S := S1x64) zeroOff, View.ld_unit_zero (S := S5000x1) zeroOff, View.ld_unit_zero (S := S64x64) zeroOff]

set_option maxHeartbeats 1000000 in
/-- THE LAST POINT. The accumulator at what the point before left (`xs`), the output's memref at anything: after the update the
    accumulator is read back (the update's payload) and the output's memref is stored whole with it times the inverse counts. -/
theorem runLast (c : Dev nD) (E : Set ℕ) (i : grid1.Coords) (arg1 : Memref sig .tc .vmem S5000x64 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x1 .i32) (harg5 : arg5.IsWhole) (arg6 : Memref sig .tc .vmem S64x1 .f32) (harg6 : arg6.IsWhole) (arg7 : Memref sig .tc .vmem S64x64 .f32) (harg7 : arg7.IsWhole) (arg8 : Memref sig .tc .vmem S64x64 .f32) (harg8 : arg8.IsWhole)
    (hc0 : ¬condFirst i) (hc1 : condLast i)
    (x0 : Vec F S5000x64 .f32) (x1 : Vec F S5000x128 .f32) (x2 : Vec F S128x64 .f32) (x3 : Vec F S1x64 .f32) (x4 : Vec F S5000x1 .i32) (x5 : Vec F S64x1 .f32)
    (xs : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k1_pay1 (k1_pay3 x0 x1 x2 x3 x4 xs) x5)
            ∗ owns (c : Thread nD τ) arg8 fullShare (k1_pay3 x0 x1 x2 x3 x4 xs)) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton, k1_part1_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, Hk⟩
  subst hf0 hf1 hf2 hf3 hf4 hf5 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H7]
  · iexists _; isplitr
    swap; · iexact H7
    ipureintro
    rw [View.read_writes_eq_canon _ _ _ (fun y => ⟨_, List.mem_cons_self, View.mem_set_unit_zero zeroOff inb_S64x64_S64x64_0_0 y⟩)]
    sl_unfold_words
    rw [View.canon_unit_zero (S := S64x64) zeroOff]
    simp only [View.readAt_eq_ld, View.readCov_unit_zero (S := S64x64) _ zeroOff,
      View.ld_unit_zero (S := S5000x64) zeroOff, View.ld_unit_zero (S := S5000x128) zeroOff, View.ld_unit_zero (S := S128x64) zeroOff,
      View.ld_unit_zero (S := S1x64) zeroOff, View.ld_unit_zero (S := S5000x1) zeroOff, View.ld_unit_zero (S := S64x64) zeroOff,
      View.ld_unit_zero (S := S64x1) zeroOff]
  iexists _; isplitr
  swap; · iexact H8
  ipureintro
  sl_unfold_words
  rw [View.read_writes_eq_canon _ _ _ (fun y => ⟨_, List.mem_cons_self, View.mem_set_unit_zero zeroOff inb_S64x64_S64x64_0_0 y⟩)]
  rw [View.canon_unit_zero (S := S64x64) zeroOff]
  simp only [View.readAt_eq_ld,
    View.ld_unit_zero (S := S5000x64) zeroOff, View.ld_unit_zero (S := S5000x128) zeroOff, View.ld_unit_zero (S := S128x64) zeroOff,
    View.ld_unit_zero (S := S1x64) zeroOff, View.ld_unit_zero (S := S5000x1) zeroOff, View.ld_unit_zero (S := S64x64) zeroOff]

/-! ## Where the windows are idle -/

/-- The six inputs are never idle. -/
theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
theorem liveAt_4 : ∀ t : Fin cfg1.N, cfg1.idle 4 (grid1.coords t) = false := by decide +kernel
theorem liveAt_5 : ∀ t : Fin cfg1.N, cfg1.idle 5 (grid1.coords t) = false := by decide +kernel
/-- Away from the last point the output's window is idle: the body stores nothing into it, -/
theorem idleAt_6 : ∀ t : Fin cfg1.N, ¬condLast (grid1.coords t) → cfg1.idle 6 (grid1.coords t) = true := by decide +kernel
/-- and the pipeline does not write its block back. -/
theorem noFlush_6 : ∀ t : Fin cfg1.N, ¬condLast (grid1.coords t) → (cfg1.win 6).flush t = false := by decide +kernel
/-- At the last point it is live. -/
theorem liveAt_6 : ∀ t : Fin cfg1.N, condLast (grid1.coords t) → cfg1.idle 6 (grid1.coords t) = false := by decide +kernel

/-! ## What the body finds in the inputs' buffers -/

/-- Each input's current staging buffer holds its block at every point, fetched there or not (the body leaves the block in place). -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The accumulation, point by point -/

/-- At the first point: the first block's sums over the zero block. -/
theorem accAt_first (c : Dev nD) (t : Fin cfg1.N) (h0 : t.val = 0) :
    accAt V c t.val t.isLt = step V c t (k1_pay2 (F := F)) := by
  obtain ⟨n, hn⟩ := t
  cases n with
  | zero => rfl
  | succ n => exact absurd h0 (Nat.succ_ne_zero n)

/-- At a later point: this block's sums over what the point before left. -/
theorem accAt_pos (c : Dev nD) (t : Fin cfg1.N) (h0 : t.val ≠ 0) :
    accAt V c t.val t.isLt = step V c t (accAt V c (t.val - 1) (Nat.lt_of_le_of_lt (Nat.sub_le _ _) t.isLt)) := by
  obtain ⟨n, hn⟩ := t
  cases n with
  | zero => exact absurd rfl h0
  | succ n => rfl

/-! ## The body obligation, at a generic point -/

/-- What the body is called with at point `t` (the obligation's precondition, the windows one by one), -/
def bodyPre (c : Dev nD) (t : Fin cfg1.N) : sProp 𝕄 :=
  iprop((dat V c).Φ t.castSucc ∗ (dat V c).owesAt () t.castSucc
    ∗ (∃ d, owns (c : Thread nD τ) (win1_0.stage (cfg1.slots t 0)) fullShare ((dat V c).before 0 t d))
    ∗ (∃ d, owns (c : Thread nD τ) (win1_1.stage (cfg1.slots t 1)) fullShare ((dat V c).before 1 t d))
    ∗ (∃ d, owns (c : Thread nD τ) (win1_2.stage (cfg1.slots t 2)) fullShare ((dat V c).before 2 t d))
    ∗ (∃ d, owns (c : Thread nD τ) (win1_3.stage (cfg1.slots t 3)) fullShare ((dat V c).before 3 t d))
    ∗ (∃ d, owns (c : Thread nD τ) (win1_4.stage (cfg1.slots t 4)) fullShare ((dat V c).before 4 t d))
    ∗ (∃ d, owns (c : Thread nD τ) (win1_5.stage (cfg1.slots t 5)) fullShare ((dat V c).before 5 t d))
    ∗ (∃ d, owns (c : Thread nD τ) (win1_6.stage (cfg1.slots t 6)) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4800000 in
/-- The body at any point: the inputs' memrefs hold their blocks; the point is the first, a middle one or the last, and
    that case's run applies. The invariant hands the body the accumulator (at anything at the first point, else at what the
    point before left) and takes it back at this point's sums; the other scoped buffers, the generator register and what
    the core owes pass through. Away from the last point the output's buffer is handed back as found; at the last it holds the pooled means. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hN : t.val < 20 := lt_of_lt_of_eq t.isLt (show cfg1.N = 20 from N_1)
  rw [show (dat V c).leavesExact 0 t = owns (c : Thread nD τ) (win1_0.stage (cfg1.slots t 0)) fullShare ((dat V c).after 0 t) from by
    unfold Dat.leavesExact; rw [liveAt_0 t], after_0]
  rw [show (dat V c).leavesExact 1 t = owns (c : Thread nD τ) (win1_1.stage (cfg1.slots t 1)) fullShare ((dat V c).after 1 t) from by
    unfold Dat.leavesExact; rw [liveAt_1 t], after_1]
  rw [show (dat V c).leavesExact 2 t = owns (c : Thread nD τ) (win1_2.stage (cfg1.slots t 2)) fullShare ((dat V c).after 2 t) from by
    unfold Dat.leavesExact; rw [liveAt_2 t], after_2]
  rw [show (dat V c).leavesExact 3 t = owns (c : Thread nD τ) (win1_3.stage (cfg1.slots t 3)) fullShare ((dat V c).after 3 t) from by
    unfold Dat.leavesExact; rw [liveAt_3 t], after_3]
  rw [show (dat V c).leavesExact 4 t = owns (c : Thread nD τ) (win1_4.stage (cfg1.slots t 4)) fullShare ((dat V c).after 4 t) from by
    unfold Dat.leavesExact; rw [liveAt_4 t], after_4]
  rw [show (dat V c).leavesExact 5 t = owns (c : Thread nD τ) (win1_5.stage (cfg1.slots t 5)) fullShare ((dat V c).after 5 t) from by
    unfold Dat.leavesExact; rw [liveAt_5 t], after_5]
  by_cases h0 : t.val = 0
  · have hc0 : condFirst (grid1.coords t) := (condFirst_iff t).mpr h0
    have hc1 : ¬condLast (grid1.coords t) := fun h => by have := (condLast_iff t).mp h; omega
    rw [Dat.leavesExact_idle (dat V c) 6 t (idleAt_6 t hc1) (noFlush_6 t hc1)]
    rw [PhiS_castSucc V c t, PhiS_zero V c _ _ h0, PhiA_eq, accAt_first V c t h0]
    iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩⟩
    iapply (runFirst c Set.univ (grid1.coords t) _ _ _ _ _ _ _ _ _ _ _ _ _ _ _ _ hc0 hc1 (iblk V c 0 t) (iblk V c 1 t) (iblk V c 2 t) (iblk V c 3 t) (iblk V c 4 t) (iblk V c 5 t) ((dat V c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hc0 : ¬condFirst (grid1.coords t) := fun h => h0 ((condFirst_iff t).mp h)
    rw [PhiS_castSucc V c t, PhiS_pos V c _ _ h0, accAt_pos V c t h0]
    by_cases h1 : t.val = 19
    · have hc1 : condLast (grid1.coords t) := (condLast_iff t).mpr h1
      rw [show (dat V c).leavesExact 6 t = owns (c : Thread nD τ) (win1_6.stage (cfg1.slots t 6)) fullShare ((dat V c).after 6 t) from by
        unfold Dat.leavesExact; rw [liveAt_6 t hc1], after_6]
      unfold outAt
      rw [accAt_pos V c t h0]
      iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩⟩
      iapply (runLast c Set.univ (grid1.coords t) _ _ _ _ _ _ _ _ _ _ _ _ _ _ _ _ hc0 hc1 (iblk V c 0 t) (iblk V c 1 t) (iblk V c 2 t) (iblk V c 3 t) (iblk V c 4 t) (iblk V c 5 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬condLast (grid1.coords t) := fun h => h1 ((condLast_iff t).mp h)
      rw [Dat.leavesExact_idle (dat V c) 6 t (idleAt_6 t hc1) (noFlush_6 t hc1)]
      iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩⟩
      iapply (runMiddle c Set.univ (grid1.coords t) _ _ _ _ _ _ _ _ _ _ _ _ _ _ _ _ hc0 hc1 (iblk V c 0 t) (iblk V c 1 t) (iblk V c 2 t) (iblk V c 3 t) (iblk V c 4 t) (iblk V c 5 t) ((dat V c).before 6 t d6) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of the second pipeline at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]

/-- After any point but the first the invariant gives the class's back: the scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨Ho, HS, Hg⟩
  isplitl [Ho]; · iexact Ho
  isplitl [HS]; · iexists _; iexact HS
  iexact Hg

/-- After the last point the invariant gives the class's back: the scratch's named contents are forgotten. -/
theorem hout (c : Dev nD) : (dat V c).Φ (Fin.last cfg1.N) ⊢ Pipeline.ΦA spec1 c :=
  Phi_out V c _ (by rw [Fin.val_last]; have : cfg1.N = 20 := N_1; omega)

end Cert.Kernel.R1

end
-- ==== Proof.K.Vals.lean ====
/-
  The word-level kernel program between its items. Between two items of @main a core holds every unscoped buffer at a
  valuation: the launch memory, then each stretch of host operations applied, then, after a pallas_call, its result
  arrays at what its write-backs leave. Here: what each pallas_call finds and what it leaves (the arrays its proof data
  compute from the entry contents).
-/
import proofs.«423418_j69827578298829_3_alg».proof.Proof.K.R0
import proofs.«423418_j69827578298829_3_alg».proof.Proof.K.R1
import proofs.«423418_j69827578298829_3_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the pallas_calls find and leave -/

/-- The first pallas_call's entry contents, read at the TensorCore's references. -/
abbrev E1 : (c : Dev nD) → (b : Ref sig .tc) → Buf (Elt F) ((c : Thread nD τ).loc b) := fun c b => Gen.V1 m c b

/-- After the first pallas_call: its arrays at what the pipeline leaves (the inputs as entered, h1 and p1 at their
    write-backs folded), every other buffer as entered. -/
def W2 (c : Dev nD) : Valuation τ sig (Elt F) :=
  Pipeline.withArrays spec0 c (Gen.V1 m c) fun w => (R0.dat (E1 m) c).arrAt w cfg0.N

/-- What the first pallas_call leaves, as the unknowns the valuations are written over. -/
def outs2 : Outs (F := F) := fun _ r c => W2 m c (Proc.devRef .tc r)

/-- The second pallas_call's entry contents. -/
abbrev E3 : (c : Dev nD) → (b : Ref sig .tc) → Buf (Elt F) ((c : Thread nD τ).loc b) := fun c b => Gen.V3 m (outs2 m) c b

/-- After the second pallas_call: the pooled means at their one write-back, every other buffer as entered. -/
def W4 (c : Dev nD) : Valuation τ sig (Elt F) :=
  Pipeline.withArrays spec1 c (Gen.V3 m (outs2 m) c) fun w => (R1.dat (E3 m) c).arrAt w cfg1.N

/-- What the two pallas_calls leave: after item 3 the second's, before that the first's. -/
def outs : Outs (F := F) := fun J r c => match J with
  | 4 => W4 m c (Proc.devRef .tc r)
  | _ => W2 m c (Proc.devRef .tc r)

theorem outs_h1 (c : Dev nD) : outs m 2 main_v18_0 c = (R0.dat (E1 m) c).arrAt 6 cfg0.N := by
  show W2 m c (Proc.devRef .tc main_v18_0) = _
  unfold W2; exact Pipeline.withArrays_arr spec0 launch0.win.arr_inj c _ _ 6
theorem outs_p1 (c : Dev nD) : outs m 2 main_v18_1 c = (R0.dat (E1 m) c).arrAt 7 cfg0.N := by
  show W2 m c (Proc.devRef .tc main_v18_1) = _
  unfold W2; exact Pipeline.withArrays_arr spec0 launch0.win.arr_inj c _ _ 7
theorem V3_eq (c : Dev nD) : Gen.V3 m (outs m) c = Gen.V3 m (outs2 m) c := rfl
theorem outs_h3 (c : Dev nD) : outs m 4 main_v41 c = (R1.dat (E3 m) c).arrAt 6 cfg1.N := by
  show W4 m c (Proc.devRef .tc main_v41) = _
  unfold W4; exact Pipeline.withArrays_arr spec1 launch1.win.arr_inj c _ _ 6

end Cert.Kernel.Run

end
-- ==== Proof.K.Run.lean ====
/-
  The word-level kernel program's run through its two pallas_calls: each pallas_call as a region entered from the
  valuation before it and left at the one after it, and from the two regions the program's frame (every argument array
  ends as launched) and its run to the final valuation (every unscoped buffer ends at what the items compute).
-/
import proofs.«423418_j69827578298829_3_alg».proof.Proof.K.Vals

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations at the pallas_calls' ends, read at the TensorCore's references -/

/-- After the first pallas_call. -/
abbrev E2 : (c : Dev nD) → (b : Ref sig .tc) → Buf (Elt F) ((c : Thread nD τ).loc b) := fun c b => Gen.V2 m (outs m) c b
/-- After the second. -/
abbrev E4 : (c : Dev nD) → (b : Ref sig .tc) → Buf (Elt F) ((c : Thread nD τ).loc b) := fun c b => Gen.V4 m (outs m) c b

/-- Every array of the first pipeline holds, in the valuation after it, what the pipeline leaves. -/
theorem left0 (c : Dev nD) (w : Fin cfg0.W) : (R0.dat (E1 m) c).arrAt w cfg0.N = E2 m c (Pipeline.arrRef spec0 w) := by
  have hin : ∀ (w : Fin cfg0.W) (hw : (cfg0.win w).isOut = false) (hne : Pipeline.arrRef spec0 w ∉ ([main_v18_0, main_v18_1] : List (Ref sig .tc))),
      (R0.dat (E1 m) c).arrAt w cfg0.N = E2 m c (Pipeline.arrRef spec0 w) := fun w hw hne =>
    (((R0.dat (E1 m) c).arrAt_in w hw _).trans (R0.A_eq (E1 m) c w)).trans (Gen.V2_of m (outs m) c _ hne).symm
  fin_cases w
  · exact hin 0 rfl (by decide)
  · exact hin 1 rfl (by decide)
  · exact hin 2 rfl (by decide)
  · exact hin 3 rfl (by decide)
  · exact hin 4 rfl (by decide)
  · exact hin 5 rfl (by decide)
  · refine (outs_h1 m c).symm.trans ?_
    show outs m 2 main_v18_0 c = Gen.V2 m (outs m) c (Proc.devRef .tc main_v18_0)
    unfold Gen.V2
    rw [Function.update_of_ne (StableHlo.devRef_ne_of_ne (by decide) : (Proc.devRef .tc main_v18_0 : DevRef τ sig) ≠ Proc.devRef .tc main_v18_1), Function.update_self]
  · refine (outs_p1 m c).symm.trans ?_
    show outs m 2 main_v18_1 c = Gen.V2 m (outs m) c (Proc.devRef .tc main_v18_1)
    unfold Gen.V2
    rw [Function.update_self]

/-- Every other buffer is as the first pallas_call found it. -/
theorem kept0 (c : Dev nD) : ∀ b, b ∉ Finset.univ.image (Pipeline.arrRef spec0) → E2 m c b = E1 m c b := by
  intro b hb
  refine Gen.V2_of m (outs m) c b ?_
  intro hmem
  rcases List.mem_cons.mp hmem with rfl | hmem
  · exact hb (Finset.mem_image.mpr ⟨6, Finset.mem_univ _, rfl⟩)
  · rcases List.mem_cons.mp hmem with rfl | hmem
    · exact hb (Finset.mem_image.mpr ⟨7, Finset.mem_univ _, rfl⟩)
    · exact absurd hmem List.not_mem_nil

theorem left1 (c : Dev nD) (w : Fin cfg1.W) : (R1.dat (E3 m) c).arrAt w cfg1.N = E4 m c (Pipeline.arrRef spec1 w) := by
  have hin : ∀ (w : Fin cfg1.W) (hw : (cfg1.win w).isOut = false) (hne : Pipeline.arrRef spec1 w ∉ ([main_v41] : List (Ref sig .tc))),
      (R1.dat (E3 m) c).arrAt w cfg1.N = E4 m c (Pipeline.arrRef spec1 w) := fun w hw hne =>
    (((R1.dat (E3 m) c).arrAt_in w hw _).trans (R1.A_eq (E3 m) c w)).trans (Gen.V4_of m (outs m) c _ hne).symm
  fin_cases w
  · exact hin 0 rfl (by decide)
  · exact hin 1 rfl (by decide)
  · exact hin 2 rfl (by decide)
  · exact hin 3 rfl (by decide)
  · exact hin 4 rfl (by decide)
  · exact hin 5 rfl (by decide)
  · refine (outs_h3 m c).symm.trans ?_
    show outs m 4 main_v41 c = Gen.V4 m (outs m) c (Proc.devRef .tc main_v41)
    unfold Gen.V4
    rw [Function.update_self]

theorem kept1 (c : Dev nD) : ∀ b, b ∉ Finset.univ.image (Pipeline.arrRef spec1) → E4 m c b = E3 m c b := by
  intro b hb
  refine Gen.V4_of m (outs m) c b ?_
  intro hmem
  rcases List.mem_cons.mp hmem with rfl | hmem
  · exact hb (Finset.mem_image.mpr ⟨6, Finset.mem_univ _, rfl⟩)
  · exact absurd hmem List.not_mem_nil

/-! ## The proof data family and the thread state -/

/-- No pipeline has a prefetched table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => R0.dat (E1 m) c
  | ⟨1, _⟩ => fun c => R1.dat (E3 m) c

abbrev 𝒱₀ : Variants := Variants.none
/-- No core owes another anything. -/
abbrev L : GSem nD τ sig → Finset Unit := fun _ => ∅
abbrev lv : GSem nD τ sig → Unit → ℕ := fun _ _ => 0

/-- What rides beside the buffers through every item: the core's generator register at some state and nothing owed. -/
abbrev R (c : Dev nD) : sProp 𝕄 := iprop((∃ r, prngReg c r) ∗ ∃ W, owes (c : Thread nD τ) (0 : CellTallies nD τ sig Unit) W)

/-! ## The pallas_calls as regions -/

-- a library lemma stated over `pin pcs a p` unifies with the pinned configuration only when unification may unfold
-- plain definitions in a metavariable's type
set_option backward.isDefEq.respectTransparency.types false in
/-- THE FIRST PALLAS_CALL over the thread state: entered from every unscoped buffer at the contents the first stretch
    of host operations leaves, left with h1's and p1's arrays at their write-backs. Its arrays are split out of the
    unscoped buffers and put back at the exit contents; the generator register goes into the invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND PALLAS_CALL over the thread state: entered from every unscoped buffer at the contents the second
    stretch of host operations leaves, left with the pooled means' array at its one write-back. The invariant carries
    the accumulator between the points; what the launch hands the region is its first value and its last gives the
    class's back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (E3 m) c).loose
  hwaits := Pipeline.hwaits_of_owed_zero _ _ _ _ L lv 1 fun _ _ => rfl
  pre c := iprop(StableHlo.held (c : Thread nD τ) (Pipeline.ucRefs τ sig) (Gen.V3 m (outs2 m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin (E3 m) c)
    unfold Pipeline.ΦA
    iintro ⟨Hp, -, Hr⟩
    isplitl [Hr]; · iexact Hr
    iexact Hp
  hout c := by
    rw [Pipeline.ownSems0_none]
    refine BIBase.Entails.trans (R1.hout (E3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.K.Frame.lean ====
/-
  The word-level kernel program's frame and run. From the two regions: every weakly fair execution of @main from a
  memory with zero counters terminates, nothing faulting, with every argument array as launched (the frame), and with
  every unscoped buffer at what @main's items compute from the launch memory (the run: the last valuation).
-/
import proofs.«423418_j69827578298829_3_alg».proof.Proof.K.Run

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost state: the pipelines' cells and launch tokens, nothing else. -/
abbrev u₀ : UR sig nD τ := initOf (Pipeline.cells cfgs cellOf_inj) (Pipeline.launchToks cfgs cellOf_inj)

theorem hu₀ : (ownU (u₀) : sProp 𝕄) ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch makes beside the buffers on every core: the generator register at its launch state, nothing owed. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
    ⊢ (|={Set.univ}=> bigSep Finset.univ (fun c : Dev nD => R (F := F) c) : sProp 𝕄) := by
  have hone : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄) ⊢ R (F := F) c := fun c => by
    iintro ⟨-, HO, -, Hp, -⟩
    isplitl [Hp]; · iexists _; iexact Hp
    iexists ∅; iexact HO
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
      ⊢ (bigSep Finset.univ (fun c : Dev nD => R (F := F) c) : sProp 𝕄) :=
    bigSep_mono fun c _ => hone c
  iintro ⟨H, -⟩
  imodintro
  iapply hmono
  iexact H

theorem hE2 (c : Dev nD) : R (F := F) c ⊢ (iprop(∃ W, owes (c : Thread nD τ) (0 : CellTallies nD τ sig Unit) W) : sProp 𝕄) := by
  iintro ⟨-, HO⟩
  iexact HO

set_option backward.isDefEq.respectTransparency.types false in
/-- THE FRAME of the word-level kernel program at any `F`: the generated conditional frame at the two regions. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Gen.frame_cond m emb₁ () 𝒱₀ L lv (fun _ _ => rfl) ρ (outs m) (pdats m) 0 (fun _ => iprop(emp)) u₀ (hu₀)
    (fun _ c => R c) (hE0 ρ) (hE2) (reg0 m) (fun _ => .rfl) (fun _ => .rfl) (reg1 m) (fun _ => .rfl) (fun _ => .rfl)

set_option backward.isDefEq.respectTransparency.types false in
/-- THE RUN of the word-level kernel program at any `F`: the launch theorem for a program of several regions called over
    the same segments, with the last thread state — every unscoped buffer held at the last valuation — read whole
    against the final state: every unscoped buffer of every core ends at what @main's items compute. -/
theorem run_vals : θ_run defs (onTc (τ := τ) (main (F := F))) ⟨m, fun _ => 0, ρ⟩ (fun r => ∀ c : Dev nD,
      ∀ b ∈ Pipeline.ucRefs τ sig, r.2.mem ((c : Thread nD τ).1, b) = Gen.V13 m (outs m) c b) := by
  refine Pipeline.θ_run_regions_kit_dev (pcfgs (F := F)) adm (pdats m) () cellOf_inj emb₁ defs₀ 𝒱₀ L lv m ρ main
    (Gen.segs m (outs m) 𝒱₀ L lv (fun _ c => R c) () (pdats m) (reg0 m) (reg1 m))
    (fun c Q => by
      rewrite [main_chain c, Seg.run_eq_chain,
        show (Gen.segs m (outs m) 𝒱₀ L lv (fun _ c => R c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8 ] from rfl]
      exact .rfl)
    (fun c => by simp only [Gen.segs, Seg.pipes_host, Seg.pipes_region, Seg.pipes_nil]; decide) 0 (fun _ _ => rfl) (fun _ => iprop(emp)) u₀ hu₀
    (T₀ := fun c => iprop(StableHlo.held (c : Thread nD τ) (Pipeline.ucRefs τ sig) (Gen.V0 m c) ∗ R c))
    (Tₙ := fun c => StableHlo.held (c : Thread nD τ) (Pipeline.ucRefs τ sig) (Gen.V13 m (outs m) c))
    (hch := fun c => ⟨.rfl, .rfl, .rfl, .rfl, .rfl, .rfl, .rfl, .rfl, .rfl, .rfl, .rfl, .rfl, .rfl, sep_mono .rfl (hE2 c)⟩)
    (hinit := ?_) (QY := fun c s => ∀ b ∈ Pipeline.ucRefs τ sig, s.mem ((c : Thread nD τ).1, b) = Gen.V13 m (outs m) c b)
    (hfin := fun c s' => ?_) (hQ := fun _ h => h)
  · -- the launch: the unscoped buffers are held at the launch memory; the rest makes the generator register and nothing owed
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (fun c : Dev nD => R (F := F) c)]
    isplitl [Hh]; · iexact Hh
    iexact HE
  · -- the end: every buffer read off the last valuation
    unfold StableHlo.held
    iintro ⟨Hh, HSI⟩
    ihave Hr := (pointsTo_read_all (Pipeline.ucRefs τ sig) (fun b => ((c : Thread nD τ).1, b)) (Gen.V13 m (outs m) c) s') $$ [Hh HSI]
    · isplitl [Hh] <;> iassumption
    icases Hr with ⟨%h, HSI⟩
    imodintro
    isplitr
    · ipureintro
      exact h
    · iexact HSI

end Cert.Kernel.Run

end
-- ==== Proof.KI.R0.lean ====
/-
  The first pallas_call (the dense layer h1 = max(agg·W_rel + x·W_root + b, 0) and p1 = h1·W2_rel, 20 row blocks of 5000) at the contents `V` its region is entered with.
-/
import proofs.«423418_j69827578298829_3_alg».proof.Proof.Gen.KernelIdeal.Launch
import proofs.«423418_j69827578298829_3_alg».proof.Proof.Gen.KernelIdeal.Skeleton
import proofs.«423418_j69827578298829_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- h1's block from the point's input blocks (aggregate, features, W_rel transposed, bias row, W_root transposed). -/
abbrev hBlk (c : Dev nD) (t : Fin cfg0.N) : Vec F S5000x128 .f32 :=
  k0_pay1 (iblk V c 0 t) (iblk V c 1 t) (iblk V c 2 t) (iblk V c 4 t) (iblk V c 3 t)
/-- p1's block: h1's block times W2_rel transposed. -/
abbrev pBlk (c : Dev nD) (t : Fin cfg0.N) : Vec F S5000x64 .f32 :=
  k0_pay2 (iblk V c 0 t) (iblk V c 1 t) (iblk V c 2 t) (iblk V c 4 t) (iblk V c 3 t) (iblk V c 5 t)

/-- The proof data of the first pipeline on core `c`: the arrays as the region finds them; after the body each input's
    buffer at its block, h1's at `hBlk`, p1's at `pBlk`; the invariant the scoped rest and the generator register;
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => hBlk V c t
    | ⟨7, _⟩ => pBlk V c t
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = hBlk V c t := by dsimp only [dat]
theorem after_7 (c : Dev nD) (t : Fin cfg0.N) : (dat V c).after 7 t = pBlk V c t := by dsimp only [dat]

/-! ## The inputs' buffers hold their blocks at every point -/

/-- Window 0 (the aggregate block) is an uncut input that is never idle and whose body leaves it in place, so its current
    buffer holds its block at every point, fetched there or not (unfetched, the block index has not moved). -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-- Window 1 (the feature block) is an uncut input that is never idle and whose body leaves it in place, so its current
    buffer holds its block at every point, fetched there or not (unfetched, the block index has not moved). -/
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- Window 2 (W_rel transposed) is an uncut input that is never idle and whose body leaves it in place, so its current
    buffer holds its block at every point, fetched there or not (unfetched, the block index has not moved). -/
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- Window 3 (the bias row) is an uncut input that is never idle and whose body leaves it in place, so its current
    buffer holds its block at every point, fetched there or not (unfetched, the block index has not moved). -/
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- Window 4 (W_root transposed) is an uncut input that is never idle and whose body leaves it in place, so its current
    buffer holds its block at every point, fetched there or not (unfetched, the block index has not moved). -/
theorem before_4 (c : Dev nD) (t : Fin cfg0.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- Window 5 (W2_rel transposed) is an uncut input that is never idle and whose body leaves it in place, so its current
    buffer holds its block at every point, fetched there or not (unfetched, the block index has not moved). -/
theorem before_5 (c : Dev nD) (t : Fin cfg0.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The body's run -/

/-- The offsets of every rectangle the body loads and stores through are zero. -/
theorem offsets_zero : (![0, 0] : Fin 2 → Nat) = fun _ => 0 := funext fun a => by fin_cases a <;> rfl

/-- One store through the whole-shape rectangle at zero offsets covers the buffer. -/
theorem whole_store_covers {S : Shape} {e : EltTy} {off : Fin S.rank → Nat} (h : off = fun _ => 0)
    (inb : ∀ a, off a + S.size a ≤ S.size a) (p : S.Idx → Elt F e) (y : S.Idx) :
    ∃ pc ∈ ([⟨Rect.unit off S.size inb, p⟩] : List (View.Piece (Elt F) S e)), y ∈ pc.1.set :=
  ⟨_, List.mem_singleton_self _, View.mem_set_unit_zero h inb y⟩

set_option maxHeartbeats 1000000 in
/-- The body on whole staging memrefs, the six inputs' at contents `x1 … x6` and the two outputs' at anything: it reads
    each input whole, and leaves h1's buffer at `k0_pay1` of the inputs and p1's at `k0_pay2` of them, the inputs as
    they were. Each output buffer is read once before it is stored whole, so what it held does not matter. -/
theorem dense_layer_run (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S64x128 .f32) (harg5 : arg5.IsWhole) (arg6 : Memref sig .tc .vmem S128x64 .f32) (harg6 : arg6.IsWhole) (arg7 : Memref sig .tc .vmem S5000x128 .f32) (harg7 : arg7.IsWhole) (arg8 : Memref sig .tc .vmem S5000x64 .f32) (harg8 : arg8.IsWhole)
    (x1 : Vec F S5000x64 .f32) (x2 : Vec F S5000x64 .f32) (x3 : Vec F S64x128 .f32) (x4 : Vec F S1x128 .f32) (x5 : Vec F S64x128 .f32) (x6 : Vec F S128x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (k0_pay1 x1 x2 x3 x5 x4)
            ∗ owns (c : Thread nD τ) arg8 fullShare (k0_pay2 x1 x2 x3 x5 x4 x6)) -∗ K ⟨⟩))
      ⊢ wp frame (wpE (defs₀ (F := F)) Variants.none c none) E (cc0_kernel i arg1 harg1 arg2 harg2 arg3 harg3 arg4 harg4 arg5 harg5 arg6 harg6 arg7 harg7 arg8 harg8) K := by
  simp only [cc0_kernel_eq_skeleton]; unfold cc0_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (whole_store_covers offsets_zero _ _), View.canon_unit_zero offsets_zero]
    simp only [View.readAt_eq_ld, View.ld_unit_zero (S := S5000x64) offsets_zero, View.ld_unit_zero (S := S64x128) offsets_zero,
      View.ld_unit_zero (S := S1x128) offsets_zero]
  iexists _; isplitr
  swap; · iexact H8
  ipureintro
  rw [View.read_writes_eq_canon _ _ _ (whole_store_covers offsets_zero _ _), View.canon_unit_zero offsets_zero]
  simp only [View.readAt_eq_ld, View.ld_unit_zero (S := S5000x64) offsets_zero, View.ld_unit_zero (S := S64x128) offsets_zero,
    View.ld_unit_zero (S := S1x128) offsets_zero, View.ld_unit_zero (S := S128x64) offsets_zero]

/-! ## The body obligation, at a generic point -/

/-- What the body is called with at point `t`: the invariant, what the core owes, and every window's current buffer. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- What it returns: the same invariant and debt, every buffer at what the body leaves. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the six inputs' buffers hold their blocks, so the run above applies at those blocks; the
    invariant and the core's debt pass through unread. -/
theorem body_at_point (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (dense_layer_run c Set.univ _ _ _ _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the first pipeline at every point. -/
theorem body_obligation (c : Dev nD) : BodyObligation (dat (F := F) V c) (defs₀ (F := F)) Variants.none () Set.univ := fun t => by
  rw [bigSep_W0, bigSep_W0]
  exact body_at_point V c t

end Cert.KernelIdeal.R0

end
-- ==== Proof.KI.R1.lean ====
/-
  The second pallas_call (h2 = max(agg2 + h1·W2_root + b2, 0) per block of 5000 rows, its one-hot pooled sums accumulated in a scratch over the 20 blocks, scaled by the inverse counts at the last) at the contents `V` its region is entered with.
-/
import proofs.«423418_j69827578298829_3_alg».proof.Proof.Gen.KernelIdeal.Launch
import proofs.«423418_j69827578298829_3_alg».proof.Proof.Gen.KernelIdeal.Skeleton
import proofs.«423418_j69827578298829_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator: a whole scoped buffer of the kernel's own, passed beside the windows. -/
abbrev scM : Memref sig .tc .vmem S64x64 .f32 := Memref.whole cc1_scratch0

/-- One more block's pooled sums on top of `a`: the third payload at the point's input blocks. -/
abbrev step (c : Dev nD) (t : Fin cfg1.N) (a : Vec F S64x64 .f32) : Vec F S64x64 .f32 :=
  k1_pay3 (iblk V c 0 t) (iblk V c 1 t) (iblk V c 2 t) (iblk V c 3 t) (iblk V c 4 t) a

/-- THE ACCUMULATION: what the scratch holds after the body at position `n` — the zero block then the first block's
    sums at the first point, one more block's sums over what the point before left afterwards. -/
def accAt (c : Dev nD) : (n : ℕ) → n < cfg1.N → Vec F S64x64 .f32
  | 0, hn => step V c ⟨0, hn⟩ (k1_pay2 (F := F))
  | n + 1, hn => step V c ⟨n + 1, hn⟩ (accAt c n (Nat.lt_of_succ_lt hn))

theorem accAt_zero (c : Dev nD) (hn : 0 < cfg1.N) : accAt V c 0 hn = step V c ⟨0, hn⟩ (k1_pay2 (F := F)) := rfl
theorem accAt_succ (c : Dev nD) (n : ℕ) (hn : n + 1 < cfg1.N) :
    accAt V c (n + 1) hn = step V c ⟨n + 1, hn⟩ (accAt V c n (Nat.lt_of_succ_lt hn)) := rfl

/-- What output window 6's buffer holds after the body at position `n`, where the body stores into it (the last point:
    the accumulated sums times the inverse counts); at the other points the window is idle and nothing consults this. -/
def outAt (c : Dev nD) (n : ℕ) (hn : n < cfg1.N) : Vec F S64x64 .f32 :=
  k1_pay1 (accAt V c n hn) (iblk V c 5 ⟨n, hn⟩)

/-- The scoped buffers of the core that this pipeline neither stages nor uses: the first pallas_call's staging buffers, each at anything. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- Two assertions that entail each other are equal. -/
theorem eq_of_entails {P Q : sProp 𝕄} (h₁ : P ⊢ Q) (h₂ : Q ⊢ P) : P = Q := BI.Entails.antisymm h₁ h₂

/-- The class invariant (every scoped buffer the pipeline does not stage at anything, the generator register at some
    state) with the scratch set apart as a memref owned at some contents. -/
theorem PhiA_eq (c : Dev nD) :
    (Pipeline.ΦA spec1 c : sProp 𝕄)
      = iprop(others (F := F) c ∗ (∃ d, owns (c : Thread nD τ) scM fullShare d) ∗ (∃ r, prngReg c r)) := by
  unfold Pipeline.ΦA; rw [scopedRest1_eq]; unfold others
  simp only [scM, owns_whole]
  refine eq_of_entails ?_ ?_
  · iintro ⟨⟨H1, H2, H3, H4, H5, H6, H7, H8, H9, H10, H11, H12, HS⟩, Hg⟩
    isplitr [HS Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [HS]; · iexact HS
    iexact Hg
  · iintro ⟨⟨H1, H2, H3, H4, H5, H6, H7, H8, H9, H10, H11, H12⟩, HS, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact HS
    iexact Hg

/-- The region invariant before position `n`: before the first point the class's; afterwards the same with the
    scratch at what the point before left in it. -/
def PhiS (c : Dev nD) : (n : ℕ) → n ≤ cfg1.N → sProp 𝕄
  | 0, _ => Pipeline.ΦA spec1 c
  | n + 1, hn => iprop(others (F := F) c ∗ owns (c : Thread nD τ) scM fullShare (accAt V c n hn) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(others (F := F) c ∗ owns (c : Thread nD τ) scM fullShare (accAt V c n hn) ∗ (∃ r, prngReg c r)) := rfl
theorem PhiS_pos (c : Dev nD) (n : ℕ) (h : n ≤ cfg1.N) (hz : n ≠ 0) :
    PhiS V c n h = iprop(others (F := F) c ∗ owns (c : Thread nD τ) scM fullShare (accAt V c (n - 1) (by omega)) ∗ (∃ r, prngReg c r)) := by
  cases n with
  | zero => exact absurd rfl hz
  | succ n => rfl

/-- The proof data of the second pipeline on core `c`: the arrays as the region finds them; after the body each
    input's buffer at its block and the output's at `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outAt V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = outAt V c t.val t.isLt := by dsimp only [dat]

theorem PhiS_castSucc (c : Dev nD) (t : Fin cfg1.N) :
    (dat V c).Φ t.castSucc = PhiS V c t.val (Nat.le_of_lt t.isLt) := by
  dsimp only [dat]; simp only [Fin.coe_castSucc]

/-! ## The body's branch conditions -/

/-- The reset's condition (the first `scf.if`, from the grid coordinate): it is the first point. -/
abbrev condFirst (i : grid1.Coords) : Prop := (Scalar.cmpi .ne (Scalar.extui (Scalar.cmpi .eq (BitVec.ofNat 32 (i 0).val) 0#32)) 0#32) = 1#1
/-- Decided over the grid. -/
theorem condFirst_iff : ∀ t : Fin cfg1.N, condFirst (grid1.coords t) ↔ t.val = 0 :=
  (by decide +kernel : ∀ t : Fin grid1.N, condFirst (grid1.coords t) ↔ t.val = 0)
/-- The condition under which the pooled means are stored (the second `scf.if`): it is the last point. -/
abbrev condLast (i : grid1.Coords) : Prop := k1_cond2 i = 1#1
/-- Decided over the grid. -/
theorem condLast_iff : ∀ t : Fin cfg1.N, condLast (grid1.coords t) ↔ t.val = 19 :=
  (by decide +kernel : ∀ t : Fin grid1.N, condLast (grid1.coords t) ↔ t.val = 19)

/-- The zero offsets of a whole-block access, as a constant function. -/
theorem zeroOff : (![0, 0] : Fin 2 → Nat) = fun _ => 0 := funext fun a => by fin_cases a <;> rfl

/-! ## The body's run, case by case -/

set_option maxHeartbeats 1000000 in
/-- THE FIRST POINT. On whole memrefs — the five inputs and the inverse counts at their contents, the output's at
    contents handed back untouched, the accumulator at anything — the body runs to the continuation holding them as
    they were and the accumulator at the first block's sums over the zero block: the reset stores the zero block whole,
    the load after it reads that, and the update's store, last and whole, leaves its payload. -/
theorem runFirst (c : Dev nD) (E : Set ℕ) (i : grid1.Coords) (arg1 : Memref sig .tc .vmem S5000x64 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x1 .i32) (harg5 : arg5.IsWhole) (arg6 : Memref sig .tc .vmem S64x1 .f32) (harg6 : arg6.IsWhole) (arg7 : Memref sig .tc .vmem S64x64 .f32) (harg7 : arg7.IsWhole) (arg8 : Memref sig .tc .vmem S64x64 .f32) (harg8 : arg8.IsWhole)
    (hc0 : condFirst i) (hc1 : ¬condLast i)
    (x0 : Vec F S5000x64 .f32) (x1 : Vec F S5000x128 .f32) (x2 : Vec F S128x64 .f32) (x3 : Vec F S1x64 .f32) (x4 : Vec F S5000x1 .i32) (x5 : Vec F S64x1 .f32) (x6 : Vec F S64x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (k1_pay3 x0 x1 x2 x3 x4 (k1_pay2 (F := F)))) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton, k1_part1_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, Hk⟩
  subst hf0 hf1 hf2 hf3 hf4 hf5 hf6
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H8
  ipureintro
  rw [View.read_writes_eq_canon _ _ _ (fun y => ⟨_, List.mem_cons_self, View.mem_set_unit_zero zeroOff inb_S64x64_S64x64_0_0 y⟩)]
  sl_unfold_words
  rw [View.canon_cons_unit_zero (S := S64x64) zeroOff]
  simp only [View.readAt_eq_ld, View.readCov_unit_zero (S := S64x64) _ zeroOff,
    View.ld_unit_zero (S := S5000x64) zeroOff, View.ld_unit_zero (S := S5000x128) zeroOff, View.ld_unit_zero (S := S128x64) zeroOff,
    View.ld_unit_zero (S := S1x64) zeroOff, View.ld_unit_zero (S := S5000x1) zeroOff]

set_option maxHeartbeats 1000000 in
/-- A MIDDLE POINT. The same with the accumulator at what the point before left (`xs`): no reset, the update's one whole store
    leaves this block's sums over `xs`; the output's memref is handed back untouched. -/
theorem runMiddle (c : Dev nD) (E : Set ℕ) (i : grid1.Coords) (arg1 : Memref sig .tc .vmem S5000x64 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x1 .i32) (harg5 : arg5.IsWhole) (arg6 : Memref sig .tc .vmem S64x1 .f32) (harg6 : arg6.IsWhole) (arg7 : Memref sig .tc .vmem S64x64 .f32) (harg7 : arg7.IsWhole) (arg8 : Memref sig .tc .vmem S64x64 .f32) (harg8 : arg8.IsWhole)
    (hc0 : ¬condFirst i) (hc1 : ¬condLast i)
    (x0 : Vec F S5000x64 .f32) (x1 : Vec F S5000x128 .f32) (x2 : Vec F S128x64 .f32) (x3 : Vec F S1x64 .f32) (x4 : Vec F S5000x1 .i32) (x5 : Vec F S64x1 .f32) (x6 : Vec F S64x64 .f32)
    (xs : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (k1_pay3 x0 x1 x2 x3 x4 xs)) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton, k1_part1_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, H8⟩, Hk⟩
  subst hf0 hf1 hf2 hf3 hf4 hf5 hf6 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H8
  ipureintro
  rw [View.read_writes_eq_canon _ _ _ (fun y => ⟨_, List.mem_cons_self, View.mem_set_unit_zero zeroOff inb_S64x64_S64x64_0_0 y⟩)]
  rw [View.canon_unit_zero (S := S64x64) zeroOff]
  simp only [View.readAt_eq_ld,
    View.ld_unit_zero (S := S5000x64) zeroOff, View.ld_unit_zero (S := S5000x128) zeroOff, View.ld_unit_zero (S := S128x64) zeroOff,
    View.ld_unit_zero (S := S1x64) zeroOff, View.ld_unit_zero (S := S5000x1) zeroOff, View.ld_unit_zero (S := S64x64) zeroOff]

set_option maxHeartbeats 1000000 in
/-- THE LAST POINT. The accumulator at what the point before left (`xs`), the output's memref at anything: after the update the
    accumulator is read back (the update's payload) and the output's memref is stored whole with it times the inverse counts. -/
theorem runLast (c : Dev nD) (E : Set ℕ) (i : grid1.Coords) (arg1 : Memref sig .tc .vmem S5000x64 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x1 .i32) (harg5 : arg5.IsWhole) (arg6 : Memref sig .tc .vmem S64x1 .f32) (harg6 : arg6.IsWhole) (arg7 : Memref sig .tc .vmem S64x64 .f32) (harg7 : arg7.IsWhole) (arg8 : Memref sig .tc .vmem S64x64 .f32) (harg8 : arg8.IsWhole)
    (hc0 : ¬condFirst i) (hc1 : condLast i)
    (x0 : Vec F S5000x64 .f32) (x1 : Vec F S5000x128 .f32) (x2 : Vec F S128x64 .f32) (x3 : Vec F S1x64 .f32) (x4 : Vec F S5000x1 .i32) (x5 : Vec F S64x1 .f32)
    (xs : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k1_pay1 (k1_pay3 x0 x1 x2 x3 x4 xs) x5)
            ∗ owns (c : Thread nD τ) arg8 fullShare (k1_pay3 x0 x1 x2 x3 x4 xs)) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton, k1_part1_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, Hk⟩
  subst hf0 hf1 hf2 hf3 hf4 hf5 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H7]
  · iexists _; isplitr
    swap; · iexact H7
    ipureintro
    rw [View.read_writes_eq_canon _ _ _ (fun y => ⟨_, List.mem_cons_self, View.mem_set_unit_zero zeroOff inb_S64x64_S64x64_0_0 y⟩)]
    sl_unfold_words
    rw [View.canon_unit_zero (S := S64x64) zeroOff]
    simp only [View.readAt_eq_ld, View.readCov_unit_zero (S := S64x64) _ zeroOff,
      View.ld_unit_zero (S := S5000x64) zeroOff, View.ld_unit_zero (S := S5000x128) zeroOff, View.ld_unit_zero (S := S128x64) zeroOff,
      View.ld_unit_zero (S := S1x64) zeroOff, View.ld_unit_zero (S := S5000x1) zeroOff, View.ld_unit_zero (S := S64x64) zeroOff,
      View.ld_unit_zero (S := S64x1) zeroOff]
  iexists _; isplitr
  swap; · iexact H8
  ipureintro
  sl_unfold_words
  rw [View.read_writes_eq_canon _ _ _ (fun y => ⟨_, List.mem_cons_self, View.mem_set_unit_zero zeroOff inb_S64x64_S64x64_0_0 y⟩)]
  rw [View.canon_unit_zero (S := S64x64) zeroOff]
  simp only [View.readAt_eq_ld,
    View.ld_unit_zero (S := S5000x64) zeroOff, View.ld_unit_zero (S := S5000x128) zeroOff, View.ld_unit_zero (S := S128x64) zeroOff,
    View.ld_unit_zero (S := S1x64) zeroOff, View.ld_unit_zero (S := S5000x1) zeroOff, View.ld_unit_zero (S := S64x64) zeroOff]

/-! ## Where the windows are idle -/

/-- The six inputs are never idle. -/
theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
theorem liveAt_4 : ∀ t : Fin cfg1.N, cfg1.idle 4 (grid1.coords t) = false := by decide +kernel
theorem liveAt_5 : ∀ t : Fin cfg1.N, cfg1.idle 5 (grid1.coords t) = false := by decide +kernel
/-- Away from the last point the output's window is idle: the body stores nothing into it, -/
theorem idleAt_6 : ∀ t : Fin cfg1.N, ¬condLast (grid1.coords t) → cfg1.idle 6 (grid1.coords t) = true := by decide +kernel
/-- and the pipeline does not write its block back. -/
theorem noFlush_6 : ∀ t : Fin cfg1.N, ¬condLast (grid1.coords t) → (cfg1.win 6).flush t = false := by decide +kernel
/-- At the last point it is live. -/
theorem liveAt_6 : ∀ t : Fin cfg1.N, condLast (grid1.coords t) → cfg1.idle 6 (grid1.coords t) = false := by decide +kernel

/-! ## What the body finds in the inputs' buffers -/

/-- Each input's current staging buffer holds its block at every point, fetched there or not (the body leaves the block in place). -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The accumulation, point by point -/

/-- At the first point: the first block's sums over the zero block. -/
theorem accAt_first (c : Dev nD) (t : Fin cfg1.N) (h0 : t.val = 0) :
    accAt V c t.val t.isLt = step V c t (k1_pay2 (F := F)) := by
  obtain ⟨n, hn⟩ := t
  cases n with
  | zero => rfl
  | succ n => exact absurd h0 (Nat.succ_ne_zero n)

/-- At a later point: this block's sums over what the point before left. -/
theorem accAt_pos (c : Dev nD) (t : Fin cfg1.N) (h0 : t.val ≠ 0) :
    accAt V c t.val t.isLt = step V c t (accAt V c (t.val - 1) (Nat.lt_of_le_of_lt (Nat.sub_le _ _) t.isLt)) := by
  obtain ⟨n, hn⟩ := t
  cases n with
  | zero => exact absurd rfl h0
  | succ n => rfl

/-! ## The body obligation, at a generic point -/

/-- What the body is called with at point `t` (the obligation's precondition, the windows one by one), -/
def bodyPre (c : Dev nD) (t : Fin cfg1.N) : sProp 𝕄 :=
  iprop((dat V c).Φ t.castSucc ∗ (dat V c).owesAt () t.castSucc
    ∗ (∃ d, owns (c : Thread nD τ) (win1_0.stage (cfg1.slots t 0)) fullShare ((dat V c).before 0 t d))
    ∗ (∃ d, owns (c : Thread nD τ) (win1_1.stage (cfg1.slots t 1)) fullShare ((dat V c).before 1 t d))
    ∗ (∃ d, owns (c : Thread nD τ) (win1_2.stage (cfg1.slots t 2)) fullShare ((dat V c).before 2 t d))
    ∗ (∃ d, owns (c : Thread nD τ) (win1_3.stage (cfg1.slots t 3)) fullShare ((dat V c).before 3 t d))
    ∗ (∃ d, owns (c : Thread nD τ) (win1_4.stage (cfg1.slots t 4)) fullShare ((dat V c).before 4 t d))
    ∗ (∃ d, owns (c : Thread nD τ) (win1_5.stage (cfg1.slots t 5)) fullShare ((dat V c).before 5 t d))
    ∗ (∃ d, owns (c : Thread nD τ) (win1_6.stage (cfg1.slots t 6)) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4800000 in
/-- The body at any point: the inputs' memrefs hold their blocks; the point is the first, a middle one or the last, and
    that case's run applies. The invariant hands the body the accumulator (at anything at the first point, else at what the
    point before left) and takes it back at this point's sums; the other scoped buffers, the generator register and what
    the core owes pass through. Away from the last point the output's buffer is handed back as found; at the last it holds the pooled means. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hN : t.val < 20 := lt_of_lt_of_eq t.isLt (show cfg1.N = 20 from N_1)
  rw [show (dat V c).leavesExact 0 t = owns (c : Thread nD τ) (win1_0.stage (cfg1.slots t 0)) fullShare ((dat V c).after 0 t) from by
    unfold Dat.leavesExact; rw [liveAt_0 t], after_0]
  rw [show (dat V c).leavesExact 1 t = owns (c : Thread nD τ) (win1_1.stage (cfg1.slots t 1)) fullShare ((dat V c).after 1 t) from by
    unfold Dat.leavesExact; rw [liveAt_1 t], after_1]
  rw [show (dat V c).leavesExact 2 t = owns (c : Thread nD τ) (win1_2.stage (cfg1.slots t 2)) fullShare ((dat V c).after 2 t) from by
    unfold Dat.leavesExact; rw [liveAt_2 t], after_2]
  rw [show (dat V c).leavesExact 3 t = owns (c : Thread nD τ) (win1_3.stage (cfg1.slots t 3)) fullShare ((dat V c).after 3 t) from by
    unfold Dat.leavesExact; rw [liveAt_3 t], after_3]
  rw [show (dat V c).leavesExact 4 t = owns (c : Thread nD τ) (win1_4.stage (cfg1.slots t 4)) fullShare ((dat V c).after 4 t) from by
    unfold Dat.leavesExact; rw [liveAt_4 t], after_4]
  rw [show (dat V c).leavesExact 5 t = owns (c : Thread nD τ) (win1_5.stage (cfg1.slots t 5)) fullShare ((dat V c).after 5 t) from by
    unfold Dat.leavesExact; rw [liveAt_5 t], after_5]
  by_cases h0 : t.val = 0
  · have hc0 : condFirst (grid1.coords t) := (condFirst_iff t).mpr h0
    have hc1 : ¬condLast (grid1.coords t) := fun h => by have := (condLast_iff t).mp h; omega
    rw [Dat.leavesExact_idle (dat V c) 6 t (idleAt_6 t hc1) (noFlush_6 t hc1)]
    rw [PhiS_castSucc V c t, PhiS_zero V c _ _ h0, PhiA_eq, accAt_first V c t h0]
    iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩⟩
    iapply (runFirst c Set.univ (grid1.coords t) _ _ _ _ _ _ _ _ _ _ _ _ _ _ _ _ hc0 hc1 (iblk V c 0 t) (iblk V c 1 t) (iblk V c 2 t) (iblk V c 3 t) (iblk V c 4 t) (iblk V c 5 t) ((dat V c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hc0 : ¬condFirst (grid1.coords t) := fun h => h0 ((condFirst_iff t).mp h)
    rw [PhiS_castSucc V c t, PhiS_pos V c _ _ h0, accAt_pos V c t h0]
    by_cases h1 : t.val = 19
    · have hc1 : condLast (grid1.coords t) := (condLast_iff t).mpr h1
      rw [show (dat V c).leavesExact 6 t = owns (c : Thread nD τ) (win1_6.stage (cfg1.slots t 6)) fullShare ((dat V c).after 6 t) from by
        unfold Dat.leavesExact; rw [liveAt_6 t hc1], after_6]
      unfold outAt
      rw [accAt_pos V c t h0]
      iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩⟩
      iapply (runLast c Set.univ (grid1.coords t) _ _ _ _ _ _ _ _ _ _ _ _ _ _ _ _ hc0 hc1 (iblk V c 0 t) (iblk V c 1 t) (iblk V c 2 t) (iblk V c 3 t) (iblk V c 4 t) (iblk V c 5 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬condLast (grid1.coords t) := fun h => h1 ((condLast_iff t).mp h)
      rw [Dat.leavesExact_idle (dat V c) 6 t (idleAt_6 t hc1) (noFlush_6 t hc1)]
      iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩⟩
      iapply (runMiddle c Set.univ (grid1.coords t) _ _ _ _ _ _ _ _ _ _ _ _ _ _ _ _ hc0 hc1 (iblk V c 0 t) (iblk V c 1 t) (iblk V c 2 t) (iblk V c 3 t) (iblk V c 4 t) (iblk V c 5 t) ((dat V c).before 6 t d6) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of the second pipeline at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]

/-- After any point but the first the invariant gives the class's back: the scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨Ho, HS, Hg⟩
  isplitl [Ho]; · iexact Ho
  isplitl [HS]; · iexists _; iexact HS
  iexact Hg

/-- After the last point the invariant gives the class's back: the scratch's named contents are forgotten. -/
theorem hout (c : Dev nD) : (dat V c).Φ (Fin.last cfg1.N) ⊢ Pipeline.ΦA spec1 c :=
  Phi_out V c _ (by rw [Fin.val_last]; have : cfg1.N = 20 := N_1; omega)

end Cert.KernelIdeal.R1

end
-- ==== Proof.KI.Vals.lean ====
/-
  The idealized kernel program between its items. Between two items of @main a core holds every unscoped buffer at a
  valuation: the launch memory, then each stretch of host operations applied, then, after a pallas_call, its result
  arrays at what its write-backs leave. Here: what each pallas_call finds and what it leaves (the arrays its proof data
  compute from the entry contents).
-/
import proofs.«423418_j69827578298829_3_alg».proof.Proof.KI.R0
import proofs.«423418_j69827578298829_3_alg».proof.Proof.KI.R1
import proofs.«423418_j69827578298829_3_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the pallas_calls find and leave -/

/-- The first pallas_call's entry contents, read at the TensorCore's references. -/
abbrev E1 : (c : Dev nD) → (b : Ref sig .tc) → Buf (Elt F) ((c : Thread nD τ).loc b) := fun c b => Gen.V1 m c b

/-- After the first pallas_call: its arrays at what the pipeline leaves (the inputs as entered, h1 and p1 at their
    write-backs folded), every other buffer as entered. -/
def W2 (c : Dev nD) : Valuation τ sig (Elt F) :=
  Pipeline.withArrays spec0 c (Gen.V1 m c) fun w => (R0.dat (E1 m) c).arrAt w cfg0.N

/-- What the first pallas_call leaves, as the unknowns the valuations are written over. -/
def outs2 : Outs (F := F) := fun _ r c => W2 m c (Proc.devRef .tc r)

/-- The second pallas_call's entry contents. -/
abbrev E3 : (c : Dev nD) → (b : Ref sig .tc) → Buf (Elt F) ((c : Thread nD τ).loc b) := fun c b => Gen.V3 m (outs2 m) c b

/-- After the second pallas_call: the pooled means at their one write-back, every other buffer as entered. -/
def W4 (c : Dev nD) : Valuation τ sig (Elt F) :=
  Pipeline.withArrays spec1 c (Gen.V3 m (outs2 m) c) fun w => (R1.dat (E3 m) c).arrAt w cfg1.N

/-- What the two pallas_calls leave: after item 3 the second's, before that the first's. -/
def outs : Outs (F := F) := fun J r c => match J with
  | 4 => W4 m c (Proc.devRef .tc r)
  | _ => W2 m c (Proc.devRef .tc r)

theorem outs_h1 (c : Dev nD) : outs m 2 main_v18_0 c = (R0.dat (E1 m) c).arrAt 6 cfg0.N := by
  show W2 m c (Proc.devRef .tc main_v18_0) = _
  unfold W2; exact Pipeline.withArrays_arr spec0 launch0.win.arr_inj c _ _ 6
theorem outs_p1 (c : Dev nD) : outs m 2 main_v18_1 c = (R0.dat (E1 m) c).arrAt 7 cfg0.N := by
  show W2 m c (Proc.devRef .tc main_v18_1) = _
  unfold W2; exact Pipeline.withArrays_arr spec0 launch0.win.arr_inj c _ _ 7
theorem V3_eq (c : Dev nD) : Gen.V3 m (outs m) c = Gen.V3 m (outs2 m) c := rfl
theorem outs_h3 (c : Dev nD) : outs m 4 main_v41 c = (R1.dat (E3 m) c).arrAt 6 cfg1.N := by
  show W4 m c (Proc.devRef .tc main_v41) = _
  unfold W4; exact Pipeline.withArrays_arr spec1 launch1.win.arr_inj c _ _ 6

end Cert.KernelIdeal.Run

end
-- ==== Proof.KI.Run.lean ====
/-
  The idealized kernel program's run through its two pallas_calls: each pallas_call as a region entered from the
  valuation before it and left at the one after it, and from the two regions the program's frame (every argument array
  ends as launched) and its run to the final valuation (every unscoped buffer ends at what the items compute).
-/
import proofs.«423418_j69827578298829_3_alg».proof.Proof.KI.Vals

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations at the pallas_calls' ends, read at the TensorCore's references -/

/-- After the first pallas_call. -/
abbrev E2 : (c : Dev nD) → (b : Ref sig .tc) → Buf (Elt F) ((c : Thread nD τ).loc b) := fun c b => Gen.V2 m (outs m) c b
/-- After the second. -/
abbrev E4 : (c : Dev nD) → (b : Ref sig .tc) → Buf (Elt F) ((c : Thread nD τ).loc b) := fun c b => Gen.V4 m (outs m) c b

/-- Every array of the first pipeline holds, in the valuation after it, what the pipeline leaves. -/
theorem left0 (c : Dev nD) (w : Fin cfg0.W) : (R0.dat (E1 m) c).arrAt w cfg0.N = E2 m c (Pipeline.arrRef spec0 w) := by
  have hin : ∀ (w : Fin cfg0.W) (hw : (cfg0.win w).isOut = false) (hne : Pipeline.arrRef spec0 w ∉ ([main_v18_0, main_v18_1] : List (Ref sig .tc))),
      (R0.dat (E1 m) c).arrAt w cfg0.N = E2 m c (Pipeline.arrRef spec0 w) := fun w hw hne =>
    (((R0.dat (E1 m) c).arrAt_in w hw _).trans (R0.A_eq (E1 m) c w)).trans (Gen.V2_of m (outs m) c _ hne).symm
  fin_cases w
  · exact hin 0 rfl (by decide)
  · exact hin 1 rfl (by decide)
  · exact hin 2 rfl (by decide)
  · exact hin 3 rfl (by decide)
  · exact hin 4 rfl (by decide)
  · exact hin 5 rfl (by decide)
  · refine (outs_h1 m c).symm.trans ?_
    show outs m 2 main_v18_0 c = Gen.V2 m (outs m) c (Proc.devRef .tc main_v18_0)
    unfold Gen.V2
    rw [Function.update_of_ne (StableHlo.devRef_ne_of_ne (by decide) : (Proc.devRef .tc main_v18_0 : DevRef τ sig) ≠ Proc.devRef .tc main_v18_1), Function.update_self]
  · refine (outs_p1 m c).symm.trans ?_
    show outs m 2 main_v18_1 c = Gen.V2 m (outs m) c (Proc.devRef .tc main_v18_1)
    unfold Gen.V2
    rw [Function.update_self]

/-- Every other buffer is as the first pallas_call found it. -/
theorem kept0 (c : Dev nD) : ∀ b, b ∉ Finset.univ.image (Pipeline.arrRef spec0) → E2 m c b = E1 m c b := by
  intro b hb
  refine Gen.V2_of m (outs m) c b ?_
  intro hmem
  rcases List.mem_cons.mp hmem with rfl | hmem
  · exact hb (Finset.mem_image.mpr ⟨6, Finset.mem_univ _, rfl⟩)
  · rcases List.mem_cons.mp hmem with rfl | hmem
    · exact hb (Finset.mem_image.mpr ⟨7, Finset.mem_univ _, rfl⟩)
    · exact absurd hmem List.not_mem_nil

theorem left1 (c : Dev nD) (w : Fin cfg1.W) : (R1.dat (E3 m) c).arrAt w cfg1.N = E4 m c (Pipeline.arrRef spec1 w) := by
  have hin : ∀ (w : Fin cfg1.W) (hw : (cfg1.win w).isOut = false) (hne : Pipeline.arrRef spec1 w ∉ ([main_v41] : List (Ref sig .tc))),
      (R1.dat (E3 m) c).arrAt w cfg1.N = E4 m c (Pipeline.arrRef spec1 w) := fun w hw hne =>
    (((R1.dat (E3 m) c).arrAt_in w hw _).trans (R1.A_eq (E3 m) c w)).trans (Gen.V4_of m (outs m) c _ hne).symm
  fin_cases w
  · exact hin 0 rfl (by decide)
  · exact hin 1 rfl (by decide)
  · exact hin 2 rfl (by decide)
  · exact hin 3 rfl (by decide)
  · exact hin 4 rfl (by decide)
  · exact hin 5 rfl (by decide)
  · refine (outs_h3 m c).symm.trans ?_
    show outs m 4 main_v41 c = Gen.V4 m (outs m) c (Proc.devRef .tc main_v41)
    unfold Gen.V4
    rw [Function.update_self]

theorem kept1 (c : Dev nD) : ∀ b, b ∉ Finset.univ.image (Pipeline.arrRef spec1) → E4 m c b = E3 m c b := by
  intro b hb
  refine Gen.V4_of m (outs m) c b ?_
  intro hmem
  rcases List.mem_cons.mp hmem with rfl | hmem
  · exact hb (Finset.mem_image.mpr ⟨6, Finset.mem_univ _, rfl⟩)
  · exact absurd hmem List.not_mem_nil

/-! ## The proof data family and the thread state -/

/-- No pipeline has a prefetched table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => R0.dat (E1 m) c
  | ⟨1, _⟩ => fun c => R1.dat (E3 m) c

abbrev 𝒱₀ : Variants := Variants.none
/-- No core owes another anything. -/
abbrev L : GSem nD τ sig → Finset Unit := fun _ => ∅
abbrev lv : GSem nD τ sig → Unit → ℕ := fun _ _ => 0

/-- What rides beside the buffers through every item: the core's generator register at some state and nothing owed. -/
abbrev R (c : Dev nD) : sProp 𝕄 := iprop((∃ r, prngReg c r) ∗ ∃ W, owes (c : Thread nD τ) (0 : CellTallies nD τ sig Unit) W)

/-! ## The pallas_calls as regions -/

-- a library lemma stated over `pin pcs a p` unifies with the pinned configuration only when unification may unfold
-- plain definitions in a metavariable's type
set_option backward.isDefEq.respectTransparency.types false in
/-- THE FIRST PALLAS_CALL over the thread state: entered from every unscoped buffer at the contents the first stretch
    of host operations leaves, left with h1's and p1's arrays at their write-backs. Its arrays are split out of the
    unscoped buffers and put back at the exit contents; the generator register goes into the invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND PALLAS_CALL over the thread state: entered from every unscoped buffer at the contents the second
    stretch of host operations leaves, left with the pooled means' array at its one write-back. The invariant carries
    the accumulator between the points; what the launch hands the region is its first value and its last gives the
    class's back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (E3 m) c).loose
  hwaits := Pipeline.hwaits_of_owed_zero _ _ _ _ L lv 1 fun _ _ => rfl
  pre c := iprop(StableHlo.held (c : Thread nD τ) (Pipeline.ucRefs τ sig) (Gen.V3 m (outs2 m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin (E3 m) c)
    unfold Pipeline.ΦA
    iintro ⟨Hp, -, Hr⟩
    isplitl [Hr]; · iexact Hr
    iexact Hp
  hout c := by
    rw [Pipeline.ownSems0_none]
    refine BIBase.Entails.trans (R1.hout (E3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KI.Frame.lean ====
/-
  The idealized kernel program's frame and run. From the two regions: every weakly fair execution of @main from a
  memory with zero counters terminates, nothing faulting, with every argument array as launched (the frame), and with
  every unscoped buffer at what @main's items compute from the launch memory (the run: the last valuation).
-/
import proofs.«423418_j69827578298829_3_alg».proof.Proof.KI.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost state: the pipelines' cells and launch tokens, nothing else. -/
abbrev u₀ : UR sig nD τ := initOf (Pipeline.cells cfgs cellOf_inj) (Pipeline.launchToks cfgs cellOf_inj)

theorem hu₀ : (ownU (u₀) : sProp 𝕄) ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch makes beside the buffers on every core: the generator register at its launch state, nothing owed. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
    ⊢ (|={Set.univ}=> bigSep Finset.univ (fun c : Dev nD => R (F := F) c) : sProp 𝕄) := by
  have hone : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄) ⊢ R (F := F) c := fun c => by
    iintro ⟨-, HO, -, Hp, -⟩
    isplitl [Hp]; · iexists _; iexact Hp
    iexists ∅; iexact HO
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
      ⊢ (bigSep Finset.univ (fun c : Dev nD => R (F := F) c) : sProp 𝕄) :=
    bigSep_mono fun c _ => hone c
  iintro ⟨H, -⟩
  imodintro
  iapply hmono
  iexact H

theorem hE2 (c : Dev nD) : R (F := F) c ⊢ (iprop(∃ W, owes (c : Thread nD τ) (0 : CellTallies nD τ sig Unit) W) : sProp 𝕄) := by
  iintro ⟨-, HO⟩
  iexact HO

set_option backward.isDefEq.respectTransparency.types false in
/-- THE FRAME of the idealized kernel program at any `F`: the generated conditional frame at the two regions. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Gen.frame_cond m emb₁ () 𝒱₀ L lv (fun _ _ => rfl) ρ (outs m) (pdats m) 0 (fun _ => iprop(emp)) u₀ (hu₀)
    (fun _ c => R c) (hE0 ρ) (hE2) (reg0 m) (fun _ => .rfl) (fun _ => .rfl) (reg1 m) (fun _ => .rfl) (fun _ => .rfl)

set_option backward.isDefEq.respectTransparency.types false in
/-- THE RUN of the idealized kernel program at any `F`: the launch theorem for a program of several regions called over
    the same segments, with the last thread state — every unscoped buffer held at the last valuation — read whole
    against the final state: every unscoped buffer of every core ends at what @main's items compute. -/
theorem run_vals : θ_run defs (onTc (τ := τ) (main (F := F))) ⟨m, fun _ => 0, ρ⟩ (fun r => ∀ c : Dev nD,
      ∀ b ∈ Pipeline.ucRefs τ sig, r.2.mem ((c : Thread nD τ).1, b) = Gen.V13 m (outs m) c b) := by
  refine Pipeline.θ_run_regions_kit_dev (pcfgs (F := F)) adm (pdats m) () cellOf_inj emb₁ defs₀ 𝒱₀ L lv m ρ main
    (Gen.segs m (outs m) 𝒱₀ L lv (fun _ c => R c) () (pdats m) (reg0 m) (reg1 m))
    (fun c Q => by
      rewrite [main_chain c, Seg.run_eq_chain,
        show (Gen.segs m (outs m) 𝒱₀ L lv (fun _ c => R c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8 ] from rfl]
      exact .rfl)
    (fun c => by simp only [Gen.segs, Seg.pipes_host, Seg.pipes_region, Seg.pipes_nil]; decide) 0 (fun _ _ => rfl) (fun _ => iprop(emp)) u₀ hu₀
    (T₀ := fun c => iprop(StableHlo.held (c : Thread nD τ) (Pipeline.ucRefs τ sig) (Gen.V0 m c) ∗ R c))
    (Tₙ := fun c => StableHlo.held (c : Thread nD τ) (Pipeline.ucRefs τ sig) (Gen.V13 m (outs m) c))
    (hch := fun c => ⟨.rfl, .rfl, .rfl, .rfl, .rfl, .rfl, .rfl, .rfl, .rfl, .rfl, .rfl, .rfl, .rfl, sep_mono .rfl (hE2 c)⟩)
    (hinit := ?_) (QY := fun c s => ∀ b ∈ Pipeline.ucRefs τ sig, s.mem ((c : Thread nD τ).1, b) = Gen.V13 m (outs m) c b)
    (hfin := fun c s' => ?_) (hQ := fun _ h => h)
  · -- the launch: the unscoped buffers are held at the launch memory; the rest makes the generator register and nothing owed
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (fun c : Dev nD => R (F := F) c)]
    isplitl [Hh]; · iexact Hh
    iexact HE
  · -- the end: every buffer read off the last valuation
    unfold StableHlo.held
    iintro ⟨Hh, HSI⟩
    ihave Hr := (pointsTo_read_all (Pipeline.ucRefs τ sig) (fun b => ((c : Thread nD τ).1, b)) (Gen.V13 m (outs m) c) s') $$ [Hh HSI]
    · isplitl [Hh] <;> iassumption
    icases Hr with ⟨%h, HSI⟩
    imodintro
    isplitr
    · ipureintro
      exact h
    · iexact HSI

end Cert.KernelIdeal.Run

end
-- ==== Proof.LibContract.lean ====
/-
  Two reads at an index over the extended reals, for matrices laid out as [rows, columns]: a matrix-unit product
  into a zero accumulator, and the host's contraction.
-/
import Idealize.ShloMosaic.PureOps.Ideal.Laws
import Idealize.ShloMosaic.Lib.ValueIdx

noncomputable section

namespace Cert.LibContract

open Idealize.ShloMosaic Idealize.ShloMosaic.ValueIdx
open scoped BigOperators

/-- The dimension numbers `[1] × [0]`, kept axes `[0]` and `[1]`, no batch axes, over any proof that they are
    well formed. -/
private abbrev lit {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

section Axes
variable {M K N : ℕ} (wf : DotDims.WF ⟨2, ![M, K]⟩ ⟨2, ![K, N]⟩ ⟨2, ![M, N]⟩ [1] [0] [0] [1] [] [])

/-- The left operand's kept axis reads the result's row. -/
private theorem lhs_0 (i : (⟨2, ![M, N]⟩ : Shape).Idx) (q : (lit wf).contr.Idx) :
    ((lit wf).lhsIdx i q 0).val = (i 0).val := by
  unfold DotDims.lhsIdx
  rw [dif_neg (show ¬(0 : Fin (⟨2, ![M, K]⟩ : Shape).rank) ∈ (lit wf).lhsBatch from List.not_mem_nil),
    dif_pos (show (0 : Fin (⟨2, ![M, K]⟩ : Shape).rank) ∈ (lit wf).lhsNonContracting from List.mem_singleton.mpr rfl)]
  rfl

/-- The left operand's contracted axis reads the contraction position. -/
private theorem lhs_1 (i : (⟨2, ![M, N]⟩ : Shape).Idx) (q : (lit wf).contr.Idx) :
    ((lit wf).lhsIdx i q 1).val = (q ⟨0, Nat.one_pos⟩).val :=
  (lit wf).lhsIdx_val_of_single rfl i q

/-- The right operand's contracted axis reads the contraction position. -/
private theorem rhs_0 (i : (⟨2, ![M, N]⟩ : Shape).Idx) (q : (lit wf).contr.Idx) :
    ((lit wf).rhsIdx i q 0).val = (q ⟨0, Nat.one_pos⟩).val :=
  (lit wf).rhsIdx_val_of_single rfl i q

/-- The right operand's kept axis reads the result's column. -/
private theorem rhs_1 (i : (⟨2, ![M, N]⟩ : Shape).Idx) (q : (lit wf).contr.Idx) :
    ((lit wf).rhsIdx i q 1).val = (i 1).val := by
  unfold DotDims.rhsIdx
  rw [dif_neg (show ¬(1 : Fin (⟨2, ![K, N]⟩ : Shape).rank) ∈ (lit wf).rhsBatch from List.not_mem_nil),
    dif_pos (show (1 : Fin (⟨2, ![K, N]⟩ : Shape).rank) ∈ (lit wf).rhsNonContracting from List.mem_singleton.mpr rfl)]
  rfl

/-- The contraction's sum over its one-axis index set is the sum over `Fin K`, the operands read at (r, k) and
    (k, j): re-index through the bijection of the one-axis index set with `Fin K`, then compare the operand
    indices axis by axis. -/
private theorem contr_lit {φ₁ φ₂ : FTy} (lhs : FVec Ideal ⟨2, ![M, K]⟩ φ₁) (rhs : FVec Ideal ⟨2, ![K, N]⟩ φ₂)
    (r : Fin M) (j : Fin N) :
    ∑ k : (lit wf).contr.Idx, lhs ((lit wf).lhsIdx (ix2 r j) k) * rhs ((lit wf).rhsIdx (ix2 r j) k)
      = ∑ k : Fin K, lhs (ix2 r k) * rhs (ix2 k j) := by
  rw [← Equiv.sum_comp (ValueIdx.contrEquiv1 (lit wf) K rfl rfl).symm]
  refine Finset.sum_congr rfl fun k _ => ?_
  have hk := ValueIdx.contrEquiv1_symm_val (lit wf) K rfl rfl k
  have el : (lit wf).lhsIdx (ix2 r j) ((ValueIdx.contrEquiv1 (lit wf) K rfl rfl).symm k) = ix2 r k :=
    funext fun a => Fin.ext (by
      match a with
      | ⟨0, _⟩ => exact lhs_0 wf _ _
      | ⟨1, _⟩ => exact (lhs_1 wf _ _).trans hk)
  have er : (lit wf).rhsIdx (ix2 r j) ((ValueIdx.contrEquiv1 (lit wf) K rfl rfl).symm k) = ix2 k j :=
    funext fun a => Fin.ext (by
      match a with
      | ⟨0, _⟩ => exact (rhs_0 wf _ _).trans hk
      | ⟨1, _⟩ => exact rhs_1 wf _ _)
  rw [el, er]

end Axes

/-- The same for any dimension numbers whose six lists are those: the record is then that literal one. -/
private theorem contr_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ φ₁) (rhs : FVec Ideal ⟨2, ![K, N]⟩ φ₂) (r : Fin M) (j : Fin N) :
    ∑ k : d.contr.Idx, lhs (d.lhsIdx (ix2 r j) k) * rhs (d.rhsIdx (ix2 r j) k)
      = ∑ k : Fin K, lhs (ix2 r k) * rhs (ix2 k j) := by
  obtain ⟨lc, rc, ln, rn, lb, rb, wf⟩ := d
  simp only at hlc hrc hln hrn hlb hrb
  subst hlc hrc hln hrn hlb hrb
  exact contr_lit wf lhs rhs r j

/-- The product of an [M, K] by a [K, N] matrix (contraction of the left operand's axis 1 with the right
    operand's axis 0, no batch axes), accumulated into zeros and read at (r, j): `∑ k, lhs (r, k) · rhs (k, j)`. -/
theorem matmul_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    matmul d prec lhs rhs (constant ⟨2, ![M, N]⟩ .f32 0x00000000#32) (ix2 r j)
      = ∑ k : Fin K, lhs (ix2 r k) * rhs (ix2 k j) := by
  simp only [matmul]
  rw [Ideal.matmul_constant_zero_apply]
  exact contr_plain d hlc hrc hln hrn hlb hrb lhs rhs r j

/-- The host's contraction of the same layout, read at (r, j): the same sum. -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    Host.dotGeneral d prec lhs rhs (ix2 r j) = ∑ k : Fin K, lhs (ix2 r k) * rhs (ix2 k j) := by
  simp only [Host.dotGeneral]
  rw [Ideal.dotGeneral_apply]
  exact contr_plain d hlc hrc hln hrn hlb hrb lhs rhs r j

end Cert.LibContract

end
-- ==== Proof.KI.ValR0.lean ====
/-
  What the first kernel (the dense layer) leaves in its two result arrays, index by index, from the arrays it finds: row n of h1 is
  max (aggregate n · W_rel + features n · W_root + bias, 0) (the weights as the region finds them, already
  transposed: [64, 128]), and row n of p1 is row n of h1 times W2_rel (transposed: [128, 64]).

  The body's two stored values are read at an index: a product into zeros is the sum over the contracted axis, the
  bias row is broadcast along the rows, format changes are the identity on extended reals. Each input block at point t
  is rows 5000·t … 5000·t + 4999 of its array (the weight and bias windows are their whole arrays), so what point t
  writes back is block t of ONE function of the arrays; the 20 blocks cover the 100000 rows.
-/
import proofs.«423418_j69827578298829_3_alg».proof.Proof.KI.R0
import proofs.«423418_j69827578298829_3_alg».proof.Proof.LibContract
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ValR0

open Cert.KernelIdeal Cert.KernelIdeal.Gen
open Idealize.ShloMosaic Idealize.ShloMosaic.TcCoe Idealize.ShloMosaic.ValueIdx
open Idealize.ShloMosaic.Pipeline (Dat)
open scoped BigOperators

/-! ## The body's two stored values at an index -/

/-- The bias row broadcast along the 5000 rows reads, at (r, j), the row's entry j. -/
theorem bias_row_at (x3 : Vec Ideal S1x128 .f32) (r : Fin 5000) (j : Fin 128) :
    broadcastTo S5000x128 (shapeCast S1x128 x3 shapeCasts_S1x128_S1x128) broadcasts_S1x128_S5000x128 (ix2 r j)
      = x3 (ix2 0 j) := by
  rw [shapeCast_self]
  refine broadcastTo_apply _ _ (ix2 r j) (ix2 0 j) ?_
  intro a
  match a with
  | ⟨0, _⟩ => rfl
  | ⟨1, _⟩ => rfl

/-- h1's block at (r, j): the maximum with 0 of (aggregate row r · W_rel column j + feature row r · W_root column j)
    + bias j. -/
theorem dense_at (x0 x1 : Vec Ideal S5000x64 .f32) (x2 x4 : Vec Ideal S64x128 .f32) (x3 : Vec Ideal S1x128 .f32)
    (r : Fin 5000) (j : Fin 128) :
    k0_pay1 x0 x1 x2 x4 x3 (ix2 r j)
      = max ((∑ k : Fin 64, x0 (ix2 r k) * x2 (ix2 k j) + ∑ k : Fin 64, x1 (ix2 r k) * x4 (ix2 k j)) + x3 (ix2 0 j)) 0 := by
  unfold k0_pay1
  rw [maximumf_apply, addf_apply, addf_apply, broadcast_apply, bias_row_at,
    LibContract.matmul_plain _ rfl rfl rfl rfl rfl rfl, LibContract.matmul_plain _ rfl rfl rfl rfl rfl rfl]
  simp only [shapeCast_self, truncf_apply]
  show max _ (Ideal.ofBits .f32 0x00000000#32) = _
  rw [Ideal.ofBits_zero_f32]

/-- p1's block at (r, q): h1's block row r times W2_rel column q. -/
theorem proj_at (x0 x1 : Vec Ideal S5000x64 .f32) (x2 x4 : Vec Ideal S64x128 .f32) (x3 : Vec Ideal S1x128 .f32)
    (x5 : Vec Ideal S128x64 .f32) (r : Fin 5000) (q : Fin 64) :
    k0_pay2 x0 x1 x2 x4 x3 x5 (ix2 r q) = ∑ k : Fin 128, k0_pay1 x0 x1 x2 x4 x3 (ix2 r k) * x5 (ix2 k q) := by
  unfold k0_pay2
  rw [LibContract.matmul_plain _ rfl rfl rfl rfl rfl rfl]
  simp only [shapeCast_self, truncf_apply]

/-! ## The blocks as rows of the arrays the region finds -/

variable (V : (c : Dev nD) → (b : Ref sig .tc) → Buf (Elt Ideal) ((c : Thread nD τ).loc b))

/-- The arrays the region finds, each at its literal type: the aggregate, the features, W_rel and W_root transposed
    ([64, 128]), the bias row ([1, 128]), W2_rel transposed ([128, 64]). -/
abbrev agg (c : Dev nD) : Vec Ideal S100000x64 .f32 := V c main_v13
abbrev feat (c : Dev nD) : Vec Ideal S100000x64 .f32 := V c main_arg0
abbrev wrel (c : Dev nD) : Vec Ideal S64x128 .f32 := V c main_v14
abbrev bias (c : Dev nD) : Vec Ideal S1x128 .f32 := V c main_v17
abbrev wroot (c : Dev nD) : Vec Ideal S64x128 .f32 := V c main_v15
abbrev w2rel (c : Dev nD) : Vec Ideal S128x64 .f32 := V c main_v16

/-- The six input windows' blocks at point t, each at its literal type. -/
abbrev aggBlk (c : Dev nD) (t : Fin cfg0.N) : Vec Ideal S5000x64 .f32 := R0.iblk V c 0 t
abbrev featBlk (c : Dev nD) (t : Fin cfg0.N) : Vec Ideal S5000x64 .f32 := R0.iblk V c 1 t
abbrev wrelBlk (c : Dev nD) (t : Fin cfg0.N) : Vec Ideal S64x128 .f32 := R0.iblk V c 2 t
abbrev biasBlk (c : Dev nD) (t : Fin cfg0.N) : Vec Ideal S1x128 .f32 := R0.iblk V c 3 t
abbrev wrootBlk (c : Dev nD) (t : Fin cfg0.N) : Vec Ideal S64x128 .f32 := R0.iblk V c 4 t
abbrev w2relBlk (c : Dev nD) (t : Fin cfg0.N) : Vec Ideal S128x64 .f32 := R0.iblk V c 5 t

/-- The two result arrays after the last point, each at its literal type. -/
abbrev h1Out (c : Dev nD) : Vec Ideal S100000x128 .f32 := (R0.dat V c).arrAt 6 cfg0.N
abbrev p1Out (c : Dev nD) : Vec Ideal S100000x64 .f32 := (R0.dat V c).arrAt 7 cfg0.N

/-- The printed index maps, decided over the 20 points: the row-blocked windows (aggregate, features, h1, p1) sit at
    block (t, 0), the weight and bias windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The aggregate's block at point t is rows 5000·t … 5000·t + 4999 of the aggregate. -/
theorem agg_block_at (c : Dev nD) (t : Fin cfg0.N) (r : Fin 5000) (k : Fin 64) (n : Fin 100000)
    (hn : n.val = 5000 * t.val + r.val) :
    aggBlk V c t (ix2 r k) = agg V c (ix2 n k) := by
  have e := idx_facts t
  show R0.iblk V c 0 t (ix2 r k) = _
  unfold R0.iblk
  rw [View.read_apply]
  show agg V c _ = _
  congr 1
  funext a
  apply Fin.ext
  match a with
  | ⟨0, _⟩ => show win0_0.index t (0 : Fin 2) * 5000 + 1 * r.val = n.val; omega
  | ⟨1, _⟩ => show win0_0.index t (1 : Fin 2) * 64 + 1 * k.val = k.val; omega

/-- The features' block at point t is rows 5000·t … 5000·t + 4999 of the features. -/
theorem feat_block_at (c : Dev nD) (t : Fin cfg0.N) (r : Fin 5000) (k : Fin 64) (n : Fin 100000)
    (hn : n.val = 5000 * t.val + r.val) :
    featBlk V c t (ix2 r k) = feat V c (ix2 n k) := by
  have e := idx_facts t
  show R0.iblk V c 1 t (ix2 r k) = _
  unfold R0.iblk
  rw [View.read_apply]
  show feat V c _ = _
  congr 1
  funext a
  apply Fin.ext
  match a with
  | ⟨0, _⟩ => show win0_1.index t (0 : Fin 2) * 5000 + 1 * r.val = n.val; omega
  | ⟨1, _⟩ => show win0_1.index t (1 : Fin 2) * 64 + 1 * k.val = k.val; omega

/-- W_rel's window is its whole array at every point. -/
theorem wrel_block_at (c : Dev nD) (t : Fin cfg0.N) (p : Fin 64) (q : Fin 128) :
    wrelBlk V c t (ix2 p q) = wrel V c (ix2 p q) := by
  have e := idx_facts t
  show R0.iblk V c 2 t (ix2 p q) = _
  unfold R0.iblk
  rw [View.read_apply]
  show wrel V c _ = _
  congr 1
  funext a
  apply Fin.ext
  match a with
  | ⟨0, _⟩ => show win0_2.index t (0 : Fin 2) * 64 + 1 * p.val = p.val; omega
  | ⟨1, _⟩ => show win0_2.index t (1 : Fin 2) * 128 + 1 * q.val = q.val; omega

/-- The bias row's window is its whole array at every point. -/
theorem bias_block_at (c : Dev nD) (t : Fin cfg0.N) (p : Fin 1) (q : Fin 128) :
    biasBlk V c t (ix2 p q) = bias V c (ix2 p q) := by
  have e := idx_facts t
  show R0.iblk V c 3 t (ix2 p q) = _
  unfold R0.iblk
  rw [View.read_apply]
  show bias V c _ = _
  congr 1
  funext a
  apply Fin.ext
  match a with
  | ⟨0, _⟩ => show win0_3.index t (0 : Fin 2) * 1 + 1 * p.val = p.val; omega
  | ⟨1, _⟩ => show win0_3.index t (1 : Fin 2) * 128 + 1 * q.val = q.val; omega

/-- W_root's window is its whole array at every point. -/
theorem wroot_block_at (c : Dev nD) (t : Fin cfg0.N) (p : Fin 64) (q : Fin 128) :
    wrootBlk V c t (ix2 p q) = wroot V c (ix2 p q) := by
  have e := idx_facts t
  show R0.iblk V c 4 t (ix2 p q) = _
  unfold R0.iblk
  rw [View.read_apply]
  show wroot V c _ = _
  congr 1
  funext a
  apply Fin.ext
  match a with
  | ⟨0, _⟩ => show win0_4.index t (0 : Fin 2) * 64 + 1 * p.val = p.val; omega
  | ⟨1, _⟩ => show win0_4.index t (1 : Fin 2) * 128 + 1 * q.val = q.val; omega

/-- W2_rel's window is its whole array at every point. -/
theorem w2rel_block_at (c : Dev nD) (t : Fin cfg0.N) (p : Fin 128) (q : Fin 64) :
    w2relBlk V c t (ix2 p q) = w2rel V c (ix2 p q) := by
  have e := idx_facts t
  show R0.iblk V c 5 t (ix2 p q) = _
  unfold R0.iblk
  rw [View.read_apply]
  show w2rel V c _ = _
  congr 1
  funext a
  apply Fin.ext
  match a with
  | ⟨0, _⟩ => show win0_5.index t (0 : Fin 2) * 128 + 1 * p.val = p.val; omega
  | ⟨1, _⟩ => show win0_5.index t (1 : Fin 2) * 64 + 1 * q.val = q.val; omega

/-! ## The two result arrays as functions of the arrays the region finds -/

/-- h1, index by index. -/
def h1Arr (c : Dev nD) : Vec Ideal S100000x128 .f32 := fun i =>
  max ((∑ k : Fin 64, agg V c (ix2 (i 0) k) * wrel V c (ix2 k (i 1))
      + ∑ k : Fin 64, feat V c (ix2 (i 0) k) * wroot V c (ix2 k (i 1))) + bias V c (ix2 0 (i 1))) 0

/-- p1, index by index: h1 times W2_rel. -/
def p1Arr (c : Dev nD) : Vec Ideal S100000x64 .f32 := fun i =>
  ∑ k : Fin 128, h1Arr V c (ix2 (i 0) k) * w2rel V c (ix2 k (i 1))

/-- h1's block at point t, at (r, j), is h1 at row 5000·t + r. -/
theorem hBlk_at (c : Dev nD) (t : Fin cfg0.N) (r : Fin 5000) (j : Fin 128) (n : Fin 100000)
    (hn : n.val = 5000 * t.val + r.val) :
    (R0.hBlk V c t) (ix2 r j) = h1Arr V c (ix2 n j) := by
  refine (dense_at (aggBlk V c t) (featBlk V c t) (wrelBlk V c t) (wrootBlk V c t) (biasBlk V c t) r j).trans ?_
  show _ = max ((∑ k : Fin 64, agg V c (ix2 n k) * wrel V c (ix2 k j)
      + ∑ k : Fin 64, feat V c (ix2 n k) * wroot V c (ix2 k j)) + bias V c (ix2 0 j)) 0
  rw [bias_block_at V c t 0 j,
    Finset.sum_congr rfl fun k _ => congrArg₂ (· * ·) (agg_block_at V c t r k n hn) (wrel_block_at V c t k j),
    Finset.sum_congr rfl fun k _ => congrArg₂ (· * ·) (feat_block_at V c t r k n hn) (wroot_block_at V c t k j)]

/-- p1's block at point t, at (r, q), is p1 at row 5000·t + r. -/
theorem pBlk_at (c : Dev nD) (t : Fin cfg0.N) (r : Fin 5000) (q : Fin 64) (n : Fin 100000)
    (hn : n.val = 5000 * t.val + r.val) :
    (R0.pBlk V c t) (ix2 r q) = p1Arr V c (ix2 n q) := by
  refine (proj_at (aggBlk V c t) (featBlk V c t) (wrelBlk V c t) (wrootBlk V c t) (biasBlk V c t)
    (w2relBlk V c t) r q).trans ?_
  show _ = ∑ k : Fin 128, h1Arr V c (ix2 n k) * w2rel V c (ix2 k q)
  exact Finset.sum_congr rfl fun k _ => congrArg₂ (· * ·) (hBlk_at V c t r k n hn) (w2rel_block_at V c t k q)

/-! ## From blocks to the arrays -/

/-- What point t writes back to h1's array is block t of `h1Arr`. -/
theorem flushed_h1 (c : Dev nD) (t : Fin cfg0.N) :
    (R0.dat V c).flushed 6 t = ((cfg0.win 6).blk t).view.read (Elt Ideal) (h1Arr V c) := by
  show (cfg0.win 6).cut (grid0.coords t) ((R0.dat V c).after 6 t) = _
  rw [R0.after_6]
  have e := idx_facts t
  funext y
  have hy0 : (y 0).val < 5000 := (y 0).isLt
  have hy1 : (y 1).val < 128 := (y 1).isLt
  have hl : (cfg0.win 6).xinj (grid0.coords t) y = ix2 (⟨(y 0).val, hy0⟩ : Fin 5000) (⟨(y 1).val, hy1⟩ : Fin 128) := by
    funext a
    match a with
    | ⟨0, _⟩ => rfl
    | ⟨1, _⟩ => rfl
  have hr : ((cfg0.win 6).blk t).view.emb y
      = ix2 (⟨5000 * t.val + (y 0).val, by have := t.isLt; have : cfg0.N = 20 := N_0; omega⟩ : Fin 100000) (⟨(y 1).val, hy1⟩ : Fin 128) := by
    funext a
    apply Fin.ext
    match a with
    | ⟨0, _⟩ => show win0_6.index t (0 : Fin 2) * 5000 + 1 * (y 0).val = 5000 * t.val + (y 0).val; omega
    | ⟨1, _⟩ => show win0_6.index t (1 : Fin 2) * 128 + 1 * (y 1).val = (y 1).val; omega
  show R0.hBlk V c t ((cfg0.win 6).xinj (grid0.coords t) y) = h1Arr V c (((cfg0.win 6).blk t).view.emb y)
  rw [hl, hr]
  exact hBlk_at V c t _ _ _ rfl

/-- What point t writes back to p1's array is block t of `p1Arr`. -/
theorem flushed_p1 (c : Dev nD) (t : Fin cfg0.N) :
    (R0.dat V c).flushed 7 t = ((cfg0.win 7).blk t).view.read (Elt Ideal) (p1Arr V c) := by
  show (cfg0.win 7).cut (grid0.coords t) ((R0.dat V c).after 7 t) = _
  rw [R0.after_7]
  have e := idx_facts t
  funext y
  have hy0 : (y 0).val < 5000 := (y 0).isLt
  have hy1 : (y 1).val < 64 := (y 1).isLt
  have hl : (cfg0.win 7).xinj (grid0.coords t) y = ix2 (⟨(y 0).val, hy0⟩ : Fin 5000) (⟨(y 1).val, hy1⟩ : Fin 64) := by
    funext a
    match a with
    | ⟨0, _⟩ => rfl
    | ⟨1, _⟩ => rfl
  have hr : ((cfg0.win 7).blk t).view.emb y
      = ix2 (⟨5000 * t.val + (y 0).val, by have := t.isLt; have : cfg0.N = 20 := N_0; omega⟩ : Fin 100000) (⟨(y 1).val, hy1⟩ : Fin 64) := by
    funext a
    apply Fin.ext
    match a with
    | ⟨0, _⟩ => show win0_7.index t (0 : Fin 2) * 5000 + 1 * (y 0).val = 5000 * t.val + (y 0).val; omega
    | ⟨1, _⟩ => show win0_7.index t (1 : Fin 2) * 64 + 1 * (y 1).val = (y 1).val; omega
  show R0.pBlk V c t ((cfg0.win 7).xinj (grid0.coords t) y) = p1Arr V c (((cfg0.win 7).blk t).view.emb y)
  rw [hl, hr]
  exact pBlk_at V c t _ _ _ rfl

/-- An index of h1's array is in point t's block iff each coordinate is in the block's range on its axis. -/
theorem mem_blk_h1 (t : Fin cfg0.N) (i : S100000x128.Idx) :
    i ∈ ((cfg0.win 6).blk t).view.set
      ↔ ∀ a : Fin 2, win0_6.index t a * S5000x128.size a ≤ (i a).val ∧ (i a).val < win0_6.index t a * S5000x128.size a + S5000x128.size a := by
  show i ∈ ((View.whole main_v18_0).slice (win0_6.rect t)).set ↔ _
  rw [View.set_slice_whole, Rect.mem_set_unit]
  exact Iff.rfl

/-- An index of p1's array is in point t's block iff each coordinate is in the block's range on its axis. -/
theorem mem_blk_p1 (t : Fin cfg0.N) (i : S100000x64.Idx) :
    i ∈ ((cfg0.win 7).blk t).view.set
      ↔ ∀ a : Fin 2, win0_7.index t a * S5000x64.size a ≤ (i a).val ∧ (i a).val < win0_7.index t a * S5000x64.size a + S5000x64.size a := by
  show i ∈ ((View.whole main_v18_1).slice (win0_7.rect t)).set ↔ _
  rw [View.set_slice_whole, Rect.mem_set_unit]
  exact Iff.rfl

/-- Row n of h1's array is in the block of point n / 5000, which writes back. -/
theorem cover_h1 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  refine ⟨⟨(i 0).val / 5000, by omega⟩, flush0_6 _, ?_⟩
  rw [mem_blk_h1]
  obtain ⟨-, -, -, -, -, -, -, -, -, -, -, -, e0, e1, -⟩ := idx_facts ⟨(i 0).val / 5000, by omega⟩
  intro a
  match a with
  | ⟨0, _⟩ =>
    show win0_6.index ⟨(i 0).val / 5000, _⟩ (0 : Fin 2) * 5000 ≤ (i 0).val
      ∧ (i 0).val < win0_6.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, _⟩ (1 : Fin 2) * 128 ≤ (i 1).val
      ∧ (i 1).val < win0_6.index ⟨(i 0).val / 5000, _⟩ (1 : Fin 2) * 128 + 128
    rw [e1]; omega

/-- Row n of p1's array is in the block of point n / 5000, which writes back. -/
theorem cover_p1 (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 20 := N_0
  refine ⟨⟨(i 0).val / 5000, by omega⟩, flush0_7 _, ?_⟩
  rw [mem_blk_p1]
  obtain ⟨-, -, -, -, -, -, -, -, -, -, -, -, -, -, e0, e1⟩ := idx_facts ⟨(i 0).val / 5000, by omega⟩
  intro a
  match a with
  | ⟨0, _⟩ =>
    show win0_7.index ⟨(i 0).val / 5000, _⟩ (0 : Fin 2) * 5000 ≤ (i 0).val
      ∧ (i 0).val < win0_7.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, _⟩ (1 : Fin 2) * 64 ≤ (i 1).val
      ∧ (i 1).val < win0_7.index ⟨(i 0).val / 5000, _⟩ (1 : Fin 2) * 64 + 64
    rw [e1]; omega

/-- h1's array after the last point is `h1Arr`. -/
theorem h1Out_eq (c : Dev nD) : h1Out V c = h1Arr V c :=
  (R0.dat V c).arrAt_eq_of_cover 6 (h1Arr V c) (fun t _ => flushed_h1 V c t) cover_h1

/-- p1's array after the last point is `p1Arr`. -/
theorem p1Out_eq (c : Dev nD) : p1Out V c = p1Arr V c :=
  (R0.dat V c).arrAt_eq_of_cover 7 (p1Arr V c) (fun t _ => flushed_p1 V c t) cover_p1

/-! ## The two results, index by index -/

/-- Row n of h1: max (aggregate n · W_rel + features n · W_root + bias, 0). -/
theorem h1_at (c : Dev nD) (n : Fin 100000) (j : Fin 128) :
    h1Out V c (ix2 n j)
      = max ((∑ k : Fin 64, agg V c (ix2 n k) * wrel V c (ix2 k j)
          + ∑ k : Fin 64, feat V c (ix2 n k) * wroot V c (ix2 k j)) + bias V c (ix2 0 j)) 0 := by
  rw [h1Out_eq]; rfl

/-- Row n of p1: row n of h1 times W2_rel. -/
theorem p1_at (c : Dev nD) (n : Fin 100000) (q : Fin 64) :
    p1Out V c (ix2 n q) = ∑ k : Fin 128, h1Out V c (ix2 n k) * w2rel V c (ix2 k q) := by
  rw [p1Out_eq, h1Out_eq]; rfl

end Cert.KernelIdeal.ValR0
end
-- ==== Proof.KI.ValR1.lean ====
/-
  What the second pallas_call leaves in its result array, index by index, over the extended reals: at (g, q) the sum,
  over all 100000 rows, of the indicator that the row's graph id is g times the row's second-layer activation at
  column q (the second aggregate plus the hidden features times the transposed root weights plus the bias, clamped below
  at zero), times the inverse count of g. The three payloads are read at an index (the last product contracts the ROWS
  of both its operands: the transposed indicator matrix times the activations); the windows' blocks are read element
  by element off the arrays; the accumulator after point n is the sum of the first 5000 (n + 1) rows' terms, by
  induction on the point; the one write-back, at the last point, covers the result array.
-/
import proofs.«423418_j69827578298829_3_alg».proof.Proof.KI.R1
import proofs.«423418_j69827578298829_3_alg».proof.Proof.LibContract
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ValR1

open Cert.KernelIdeal Cert.KernelIdeal.Gen
open Idealize.ShloMosaic Idealize.ShloMosaic.TcCoe Idealize.ShloMosaic.ValueIdx
open Idealize.ShloMosaic.Pipeline (Dat)
open scoped BigOperators

/-! ## Layout and words at an index -/

/-- A `[a, 1]` column broadcast to `[a, b]` reads, at `(p, q)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The indicator of two equal words, as the extended real the conversion of the widened comparison bit gives. -/
theorem indicator_word (x y : BitVec 32) :
    (FloatOps.sitofp (F := Ideal) .f32 ((IntOp.cmpi .eq x y).setWidth 32) : EReal) = if x = y then (1 : EReal) else 0 := by
  show (((((IntOp.cmpi .eq x y).setWidth 32).toInt : ℤ) : ℝ) : EReal) = _
  by_cases h : x = y
  · have e : IntOp.cmpi .eq x y = 1#1 := by simp [IntOp.cmpi, h]
    rw [e, if_pos h]
    have e1 : ((1#1 : BitVec 1).setWidth 32).toInt = 1 := by decide
    rw [e1]; simp
  · have e : IntOp.cmpi .eq x y = 0#1 := by
      show BitVec.ofBool (x == y) = 0#1
      rw [beq_eq_false_iff_ne.mpr h]; rfl
    rw [e, if_neg h]
    have e0 : ((0#1 : BitVec 1).setWidth 32).toInt = 0 := by decide
    rw [e0]; simp

/-! ## A product contracted over the ROWS of both operands -/

/-- The dimension numbers `[0] × [0]`, kept axes `[1]` and `[1]`, no batch axes, over any proof that they are well formed. -/
private abbrev rowsLit {M K N : ℕ} (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ :=
  ⟨[0], [0], [1], [1], [], [], wf⟩

section Axes
variable {M K N : ℕ} (wf : DotDims.WF ⟨2, ![K, M]⟩ ⟨2, ![K, N]⟩ ⟨2, ![M, N]⟩ [0] [0] [1] [1] [] [])

/-- The left operand's contracted axis (its rows) reads the contraction position. -/
private theorem rowsL_0 (i : (⟨2, ![M, N]⟩ : Shape).Idx) (q : (rowsLit wf).contr.Idx) :
    ((rowsLit wf).lhsIdx i q 0).val = (q ⟨0, Nat.one_pos⟩).val :=
  (rowsLit wf).lhsIdx_val_of_single rfl i q

/-- The left operand's kept axis (its columns) reads the result's row. -/
private theorem rowsL_1 (i : (⟨2, ![M, N]⟩ : Shape).Idx) (q : (rowsLit wf).contr.Idx) :
    ((rowsLit wf).lhsIdx i q 1).val = (i 0).val := by
  unfold DotDims.lhsIdx
  rw [dif_neg (show ¬(1 : Fin (⟨2, ![K, M]⟩ : Shape).rank) ∈ (rowsLit wf).lhsBatch from List.not_mem_nil),
    dif_pos (show (1 : Fin (⟨2, ![K, M]⟩ : Shape).rank) ∈ (rowsLit wf).lhsNonContracting from List.mem_singleton.mpr rfl)]
  rfl

/-- The right operand's contracted axis (its rows) reads the contraction position. -/
private theorem rowsR_0 (i : (⟨2, ![M, N]⟩ : Shape).Idx) (q : (rowsLit wf).contr.Idx) :
    ((rowsLit wf).rhsIdx i q 0).val = (q ⟨0, Nat.one_pos⟩).val :=
  (rowsLit wf).rhsIdx_val_of_single rfl i q

/-- The right operand's kept axis (its columns) reads the result's column. -/
private theorem rowsR_1 (i : (⟨2, ![M, N]⟩ : Shape).Idx) (q : (rowsLit wf).contr.Idx) :
    ((rowsLit wf).rhsIdx i q 1).val = (i 1).val := by
  unfold DotDims.rhsIdx
  rw [dif_neg (show ¬(1 : Fin (⟨2, ![K, N]⟩ : Shape).rank) ∈ (rowsLit wf).rhsBatch from List.not_mem_nil),
    dif_pos (show (1 : Fin (⟨2, ![K, N]⟩ : Shape).rank) ∈ (rowsLit wf).rhsNonContracting from List.mem_singleton.mpr rfl)]
  rfl

/-- The contraction's sum is the sum over the rows, the operands read at (k, g) and (k, j). -/
private theorem contr_rowsLit {φ₁ φ₂ : FTy} (lhs : FVec Ideal ⟨2, ![K, M]⟩ φ₁) (rhs : FVec Ideal ⟨2, ![K, N]⟩ φ₂)
    (g : Fin M) (j : Fin N) :
    ∑ k : (rowsLit wf).contr.Idx, lhs ((rowsLit wf).lhsIdx (ix2 g j) k) * rhs ((rowsLit wf).rhsIdx (ix2 g j) k)
      = ∑ k : Fin K, lhs (ix2 k g) * rhs (ix2 k j) := by
  rw [← Equiv.sum_comp (ValueIdx.contrEquiv1 (rowsLit wf) K rfl rfl).symm]
  refine Finset.sum_congr rfl fun k _ => ?_
  have hk := ValueIdx.contrEquiv1_symm_val (rowsLit wf) K rfl rfl k
  have el : (rowsLit wf).lhsIdx (ix2 g j) ((ValueIdx.contrEquiv1 (rowsLit wf) K rfl rfl).symm k) = ix2 k g :=
    funext fun a => Fin.ext (by
      match a with
      | ⟨0, _⟩ => exact (rowsL_0 wf _ _).trans hk
      | ⟨1, _⟩ => exact rowsL_1 wf _ _)
  have er : (rowsLit wf).rhsIdx (ix2 g j) ((ValueIdx.contrEquiv1 (rowsLit wf) K rfl rfl).symm k) = ix2 k j :=
    funext fun a => Fin.ext (by
      match a with
      | ⟨0, _⟩ => exact (rowsR_0 wf _ _).trans hk
      | ⟨1, _⟩ => exact rowsR_1 wf _ _)
  rw [el, er]

end Axes

/-- The same for any dimension numbers whose six lists are those. -/
private theorem contr_rows {M K N : ℕ} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (lhs : FVec Ideal ⟨2, ![K, M]⟩ φ₁) (rhs : FVec Ideal ⟨2, ![K, N]⟩ φ₂) (g : Fin M) (j : Fin N) :
    ∑ k : d.contr.Idx, lhs (d.lhsIdx (ix2 g j) k) * rhs (d.rhsIdx (ix2 g j) k)
      = ∑ k : Fin K, lhs (ix2 k g) * rhs (ix2 k j) := by
  obtain ⟨lc, rc, ln, rn, lb, rb, wf⟩ := d
  simp only at hlc hrc hln hrn hlb hrb
  subst hlc hrc hln hrn hlb hrb
  exact contr_rowsLit wf lhs rhs g j

/-- The product of the transpose of a [K, M] matrix by a [K, N] matrix (both operands' rows contracted, no batch axes),
    accumulated into zeros and read at (g, j): `∑ k, lhs (k, g) · rhs (k, j)`. -/
theorem matmul_rows {M K N : ℕ} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![K, M]⟩ φ₁) (rhs : FVec Ideal ⟨2, ![K, N]⟩ φ₂)
    (g : Fin M) (j : Fin N) :
    matmul d prec lhs rhs (constant ⟨2, ![M, N]⟩ .f32 0x00000000#32) (ix2 g j)
      = ∑ k : Fin K, lhs (ix2 k g) * rhs (ix2 k j) := by
  simp only [matmul]
  rw [Ideal.matmul_constant_zero_apply]
  exact contr_rows d hlc hrc hln hrn hlb hrb lhs rhs g j

/-! ## The three payloads at an index -/

/-- The zero block the accumulator is reset to reads the extended real `0`. -/
theorem pay2_apply (i : S64x64.Idx) : k1_pay2 (F := Ideal) i = 0 := by
  unfold k1_pay2
  simp only [shapeCast_self]
  show Ideal.ofBits .f32 0x00000000#32 = 0
  exact Ideal.ofBits_zero_f32

/-- The stored means at (g, q): the accumulated sum there times the inverse count of row `g`. -/
theorem pay1_apply (a : Vec Ideal S64x64 .f32) (v : Vec Ideal S64x1 .f32) (g q : Fin 64) :
    k1_pay1 a v (ix2 g q) = a (ix2 g q) * v (ix2 g (0 : Fin 1)) := by
  unfold k1_pay1
  simp only [shapeCast_self]
  rw [mulf_apply, broadcastTo_a1_ab_apply]

/-- One block's update at (g, q): what the accumulator held there plus, over the block's 5000 rows, the indicator that the
    row's id is `g` times the row's activation at column `q` (the aggregate plus the product with the weights plus the bias,
    clamped below at zero). -/
theorem pay3_apply (x0 : Vec Ideal S5000x64 .f32) (x1 : Vec Ideal S5000x128 .f32) (x2 : Vec Ideal S128x64 .f32)
    (x3 : Vec Ideal S1x64 .f32) (x4 : Vec Ideal S5000x1 .i32) (a : Vec Ideal S64x64 .f32) (g q : Fin 64) :
    k1_pay3 x0 x1 x2 x3 x4 a (ix2 g q)
      = a (ix2 g q) + ∑ r : Fin 5000, (if x4 (ix2 r (0 : Fin 1)) = BitVec.ofNat 32 g.val then (1 : EReal) else 0)
          * max ((x0 (ix2 r q) + ∑ k : Fin 128, x1 (ix2 r k) * x2 (ix2 k q)) + x3 (ix2 (0 : Fin 1) q)) 0 := by
  unfold k1_pay3
  simp only [shapeCast_self]
  rw [addf_apply]
  refine congrArg (a (ix2 g q) + ·) ?_
  refine (matmul_rows dot_S5000x64_S5000x64_S64x64_0_0_1_1_n_n rfl rfl rfl rfl rfl rfl none _ _ g q).trans ?_
  refine Finset.sum_congr rfl fun r _ => ?_
  rw [truncf_apply, truncf_apply, sitofp_apply, extui_apply]
  show FloatOps.sitofp (F := Ideal) .f32 ((IntOp.cmpi .eq (broadcastTo S5000x64 x4 broadcasts_S5000x1_S5000x64 (ix2 r g)) (iota .tc S5000x64 32 [1] iota_S5000x64_d1_w32 (ix2 r g))).setWidth 32) * _ = _
  rw [broadcastTo_a1_ab_apply, iota_single_apply, indicator_word]
  refine congrArg ((if x4 (ix2 r (0 : Fin 1)) = BitVec.ofNat 32 g.val then (1 : EReal) else 0) * ·) ?_
  rw [maximumf_apply, addf_apply, addf_apply, broadcastTo_1b_ab_apply, broadcast_apply]
  rw [LibContract.matmul_plain dot_S5000x128_S128x64_S5000x64_1_0_0_1_n_n rfl rfl rfl rfl rfl rfl]
  simp only [truncf_apply]
  show max _ (Ideal.ofBits .f32 0x00000000#32) = _
  rw [Ideal.ofBits_zero_f32]

/-! ## The windows' blocks, element by element -/

-- the TensorCore's buffer contents when the region is entered
variable (V : (c : Dev nD) → (b : Ref sig .tc) → Buf (Elt Ideal) ((c : Thread nD τ).loc b))

/-- The six arrays the second call reads, as vectors over their literal shapes. -/
abbrev arr28 (c : Dev nD) : Vec Ideal S100000x64 .f32 := V c main_v28
abbrev arr18 (c : Dev nD) : Vec Ideal S100000x128 .f32 := V c main_v18_0
abbrev arr37 (c : Dev nD) : Vec Ideal S128x64 .f32 := V c main_v37
abbrev arr38 (c : Dev nD) : Vec Ideal S1x64 .f32 := V c main_v38
abbrev arr39 (c : Dev nD) : Vec Ideal S100000x1 .i32 := V c main_v39
abbrev arr40 (c : Dev nD) : Vec Ideal S64x1 .f32 := V c main_v40

/-- Their blocks at point `t`, as vectors over the blocks' literal shapes. -/
abbrev blk0 (c : Dev nD) (t : Fin cfg1.N) : Vec Ideal S5000x64 .f32 := R1.iblk V c 0 t
abbrev blk1 (c : Dev nD) (t : Fin cfg1.N) : Vec Ideal S5000x128 .f32 := R1.iblk V c 1 t
abbrev blk2 (c : Dev nD) (t : Fin cfg1.N) : Vec Ideal S128x64 .f32 := R1.iblk V c 2 t
abbrev blk3 (c : Dev nD) (t : Fin cfg1.N) : Vec Ideal S1x64 .f32 := R1.iblk V c 3 t
abbrev blk4 (c : Dev nD) (t : Fin cfg1.N) : Vec Ideal S5000x1 .i32 := R1.iblk V c 4 t
abbrev blk5 (c : Dev nD) (t : Fin cfg1.N) : Vec Ideal S64x1 .f32 := R1.iblk V c 5 t

/-- The printed index maps, decided over the grid: the three row-blocked inputs are at block (t, 0) at point `t`, the
    other windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0 :=
  (by decide +kernel : ∀ t : Fin grid1.N, _)

/-- The grid has 20 points. -/
theorem lt_20 (t : Fin cfg1.N) : t.val < 20 := lt_of_lt_of_eq t.isLt (show cfg1.N = 20 from N_1)

/-- The aggregate's block at point `t`, row `r`: row `5000 t + r` of the array. -/
theorem iblk0_apply (c : Dev nD) (t : Fin cfg1.N) (r : Fin 5000) (k : Fin 64) (h : 5000 * t.val + r.val < 100000) :
    blk0 V c t (ix2 r k) = arr28 V c (ix2 (⟨5000 * t.val + r.val, h⟩ : Fin 100000) k) := by
  obtain ⟨e0, e1, -⟩ := idx_facts t
  show V c main_v28 (((cfg1.win 0).blk t).view.emb (ix2 r k)) = _
  congr 1
  funext a; apply Fin.ext
  match a with
  | ⟨0, _⟩ => show win1_0.index t (0 : Fin 2) * 5000 + 1 * r.val = 5000 * t.val + r.val; rw [e0]; omega
  | ⟨1, _⟩ => show win1_0.index t (1 : Fin 2) * 64 + 1 * k.val = k.val; rw [e1]; omega

/-- The hidden features' block at point `t`, row `r`: row `5000 t + r` of the array. -/
theorem iblk1_apply (c : Dev nD) (t : Fin cfg1.N) (r : Fin 5000) (k : Fin 128) (h : 5000 * t.val + r.val < 100000) :
    blk1 V c t (ix2 r k) = arr18 V c (ix2 (⟨5000 * t.val + r.val, h⟩ : Fin 100000) k) := by
  obtain ⟨-, -, e0, e1, -⟩ := idx_facts t
  show V c main_v18_0 (((cfg1.win 1).blk t).view.emb (ix2 r k)) = _
  congr 1
  funext a; apply Fin.ext
  match a with
  | ⟨0, _⟩ => show win1_1.index t (0 : Fin 2) * 5000 + 1 * r.val = 5000 * t.val + r.val; rw [e0]; omega
  | ⟨1, _⟩ => show win1_1.index t (1 : Fin 2) * 128 + 1 * k.val = k.val; rw [e1]; omega

/-- The weights' window is the whole array at every point. -/
theorem iblk2_apply (c : Dev nD) (t : Fin cfg1.N) (k : Fin 128) (q : Fin 64) :
    blk2 V c t (ix2 k q) = arr37 V c (ix2 k q) := by
  obtain ⟨-, -, -, -, e0, e1, -⟩ := idx_facts t
  show V c main_v37 (((cfg1.win 2).blk t).view.emb (ix2 k q)) = _
  congr 1
  funext a; apply Fin.ext
  match a with
  | ⟨0, _⟩ => show win1_2.index t (0 : Fin 2) * 128 + 1 * k.val = k.val; rw [e0]; omega
  | ⟨1, _⟩ => show win1_2.index t (1 : Fin 2) * 64 + 1 * q.val = q.val; rw [e1]; omega

/-- The bias row's window is the whole array at every point. -/
theorem iblk3_apply (c : Dev nD) (t : Fin cfg1.N) (z : Fin 1) (q : Fin 64) :
    blk3 V c t (ix2 z q) = arr38 V c (ix2 z q) := by
  obtain ⟨-, -, -, -, -, -, e0, e1, -⟩ := idx_facts t
  show V c main_v38 (((cfg1.win 3).blk t).view.emb (ix2 z q)) = _
  congr 1
  funext a; apply Fin.ext
  match a with
  | ⟨0, _⟩ => show win1_3.index t (0 : Fin 2) * 1 + 1 * z.val = z.val; rw [e0]; omega
  | ⟨1, _⟩ => show win1_3.index t (1 : Fin 2) * 64 + 1 * q.val = q.val; rw [e1]; omega

/-- The graph ids' block at point `t`, row `r`: row `5000 t + r` of the column. -/
theorem iblk4_apply (c : Dev nD) (t : Fin cfg1.N) (r : Fin 5000) (z : Fin 1) (h : 5000 * t.val + r.val < 100000) :
    blk4 V c t (ix2 r z) = arr39 V c (ix2 (⟨5000 * t.val + r.val, h⟩ : Fin 100000) z) := by
  obtain ⟨-, -, -, -, -, -, -, -, e0, e1, -⟩ := idx_facts t
  show V c main_v39 (((cfg1.win 4).blk t).view.emb (ix2 r z)) = _
  congr 1
  funext a; apply Fin.ext
  match a with
  | ⟨0, _⟩ => show win1_4.index t (0 : Fin 2) * 5000 + 1 * r.val = 5000 * t.val + r.val; rw [e0]; omega
  | ⟨1, _⟩ => show win1_4.index t (1 : Fin 2) * 1 + 1 * z.val = z.val; rw [e1]; omega

/-- The inverse counts' window is the whole column at every point. -/
theorem iblk5_apply (c : Dev nD) (t : Fin cfg1.N) (g : Fin 64) (z : Fin 1) :
    blk5 V c t (ix2 g z) = arr40 V c (ix2 g z) := by
  obtain ⟨-, -, -, -, -, -, -, -, -, -, e0, e1⟩ := idx_facts t
  show V c main_v40 (((cfg1.win 5).blk t).view.emb (ix2 g z)) = _
  congr 1
  funext a; apply Fin.ext
  match a with
  | ⟨0, _⟩ => show win1_5.index t (0 : Fin 2) * 64 + 1 * g.val = g.val; rw [e0]; omega
  | ⟨1, _⟩ => show win1_5.index t (1 : Fin 2) * 1 + 1 * z.val = z.val; rw [e1]; omega

/-! ## The accumulation as one sum over the rows -/

/-- Row `n`'s term of the pooled sum at (g, q): the indicator that the row's graph id is `g` times the row's activation at
    column `q`; `0` past the array's 100000 rows. -/
def rowTerm (c : Dev nD) (g q : Fin 64) (n : ℕ) : EReal :=
  if h : n < 100000 then
    (if arr39 V c (ix2 (⟨n, h⟩ : Fin 100000) (0 : Fin 1)) = BitVec.ofNat 32 g.val then (1 : EReal) else 0)
      * max ((arr28 V c (ix2 (⟨n, h⟩ : Fin 100000) q)
          + ∑ k : Fin 128, arr18 V c (ix2 (⟨n, h⟩ : Fin 100000) k) * arr37 V c (ix2 k q))
        + arr38 V c (ix2 (0 : Fin 1) q)) 0
  else 0

/-- Row `r` of point `t`'s blocks gives row `5000 t + r`'s term. -/
theorem blockTerm_eq (c : Dev nD) (g q : Fin 64) (t : Fin cfg1.N) (r : Fin 5000) :
    (if blk4 V c t (ix2 r (0 : Fin 1)) = BitVec.ofNat 32 g.val then (1 : EReal) else 0)
      * max ((blk0 V c t (ix2 r q) + ∑ k : Fin 128, blk1 V c t (ix2 r k) * blk2 V c t (ix2 k q)) + blk3 V c t (ix2 (0 : Fin 1) q)) 0
      = rowTerm V c g q (5000 * t.val + r.val) := by
  have ht := lt_20 t
  have h : 5000 * t.val + r.val < 100000 := by have := r.isLt; omega
  unfold rowTerm
  rw [dif_pos h, iblk4_apply V c t r 0 h, iblk0_apply V c t r q h, iblk3_apply V c t 0 q]
  have hs : ∑ k : Fin 128, blk1 V c t (ix2 r k) * blk2 V c t (ix2 k q)
      = ∑ k : Fin 128, arr18 V c (ix2 (⟨5000 * t.val + r.val, h⟩ : Fin 100000) k) * arr37 V c (ix2 k q) :=
    Finset.sum_congr rfl fun k _ => by rw [iblk1_apply V c t r k h, iblk2_apply V c t k q]
  rw [hs]

/-- One point's 5000 terms are the next 5000 rows' terms. -/
theorem blockSum_eq (c : Dev nD) (g q : Fin 64) (t : Fin cfg1.N) :
    (∑ r : Fin 5000, (if blk4 V c t (ix2 r (0 : Fin 1)) = BitVec.ofNat 32 g.val then (1 : EReal) else 0)
      * max ((blk0 V c t (ix2 r q) + ∑ k : Fin 128, blk1 V c t (ix2 r k) * blk2 V c t (ix2 k q)) + blk3 V c t (ix2 (0 : Fin 1) q)) 0)
      = ∑ x ∈ Finset.range 5000, rowTerm V c g q (5000 * t.val + x) := by
  rw [Finset.sum_range]
  exact Finset.sum_congr rfl fun r _ => blockTerm_eq V c g q t r

/-- THE ACCUMULATOR after point `n`, at (g, q): the terms of the first `5000 (n + 1)` rows — by induction on the point. -/
theorem accAt_apply (c : Dev nD) (g q : Fin 64) : ∀ (n : ℕ) (hn : n < cfg1.N),
    (R1.accAt V c n hn : Vec Ideal S64x64 .f32) (ix2 g q) = ∑ x ∈ Finset.range (5000 * (n + 1)), rowTerm V c g q x
  | 0, hn => by
    rw [R1.accAt_zero]
    refine (pay3_apply (blk0 V c ⟨0, hn⟩) (blk1 V c ⟨0, hn⟩) (blk2 V c ⟨0, hn⟩) (blk3 V c ⟨0, hn⟩) (blk4 V c ⟨0, hn⟩) (k1_pay2 (F := Ideal)) g q).trans ?_
    rw [pay2_apply, zero_add, blockSum_eq V c g q ⟨0, hn⟩]
    simp only [Nat.mul_zero, Nat.zero_add, Nat.mul_one]
  | n + 1, hn => by
    rw [R1.accAt_succ]
    refine (pay3_apply (blk0 V c ⟨n + 1, hn⟩) (blk1 V c ⟨n + 1, hn⟩) (blk2 V c ⟨n + 1, hn⟩) (blk3 V c ⟨n + 1, hn⟩) (blk4 V c ⟨n + 1, hn⟩)
      (R1.accAt V c n (Nat.lt_of_succ_lt hn)) g q).trans ?_
    rw [accAt_apply c g q n (Nat.lt_of_succ_lt hn), blockSum_eq V c g q ⟨n + 1, hn⟩]
    rw [show 5000 * (n + 1 + 1) = 5000 * (n + 1) + 5000 from by ring, Finset.sum_range_add]

/-! ## The result array -/

/-- The last point. -/
theorem last_lt : 19 < cfg1.N := by rw [show cfg1.N = 20 from N_1]; decide
abbrev tLast : Fin cfg1.N := ⟨19, last_lt⟩

/-- The one write-back, at the last point, writes the stored means: block (0, 0) of the [64, 64] array read through zero
    offsets is the array. -/
theorem flushed_eq (c : Dev nD) (t : Fin cfg1.N) (hf : (cfg1.win 6).flush t = true) :
    (R1.dat V c).flushed 6 t = ((cfg1.win 6).blk t).view.read (Elt Ideal) (R1.outAt V c 19 last_lt) := by
  have h19 : t.val = 19 := by have := (flush1_6 t).mp hf; have := lt_20 t; omega
  obtain rfl : t = tLast := Fin.ext h19
  show (cfg1.win 6).cut (grid1.coords tLast) ((R1.dat V c).after 6 tLast) = _
  rw [R1.after_6]
  have hz' : (fun a => win1_6.index tLast a * main_v41.ty.shape.size a) = fun _ => 0 := funext fun a => by fin_cases a <;> decide +kernel
  exact (Memref.read_access_unit_zero (Elt Ideal) main_v41 hz' (fun a => by rw [congrFun hz' a]; simp) (R1.outAt V c 19 last_lt)).symm

/-- So the result array ends holding the stored means of the last point. -/
theorem final_pooled (c : Dev nD) : (R1.dat V c).arrAt 6 cfg1.N = R1.outAt V c 19 last_lt :=
  (R1.dat V c).arrAt_eq_of_cover 6 (R1.outAt V c 19 last_lt) (flushed_eq V c) fun i =>
    ⟨tLast, (flush1_6 tLast).mpr rfl, by
      show i ∈ ((View.whole main_v41).slice (win1_6.rect tLast)).set
      rw [View.set_slice_whole, Rect.mem_set_unit]
      intro a
      have h0 : (i 0 : Nat) < 64 := (i 0).isLt
      have h1 : (i 1 : Nat) < 64 := (i 1).isLt
      match a with
      | ⟨0, _⟩ => show win1_6.index tLast 0 * win1_6.size 0 ≤ (i 0 : Nat) ∧ (i 0 : Nat) < win1_6.index tLast 0 * win1_6.size 0 + win1_6.xsize (grid1.coords tLast) 0
                  rw [show win1_6.index tLast 0 * win1_6.size 0 = 0 from by decide +kernel, show win1_6.xsize (grid1.coords tLast) 0 = 64 from by decide +kernel]; omega
      | ⟨1, _⟩ => show win1_6.index tLast 1 * win1_6.size 1 ≤ (i 1 : Nat) ∧ (i 1 : Nat) < win1_6.index tLast 1 * win1_6.size 1 + win1_6.xsize (grid1.coords tLast) 1
                  rw [show win1_6.index tLast 1 * win1_6.size 1 = 0 from by decide +kernel, show win1_6.xsize (grid1.coords tLast) 1 = 64 from by decide +kernel]; omega⟩

/-- WHAT THE SECOND CALL LEAVES in its result array at (g, q): over all 100000 rows, the indicator that the row's graph id
    is `g` times the row's activation at column `q` (the second aggregate plus the hidden features times the transposed
    weights plus the bias, clamped below at zero), summed, times the inverse count of `g`. -/
theorem h3_at (c : Dev nD) (g c' : Fin 64) :
    ((R1.dat V c).arrAt 6 cfg1.N : Vec Ideal S64x64 .f32) (ix2 g c')
      = (∑ n : Fin 100000, (if arr39 V c (ix2 n (0 : Fin 1)) = BitVec.ofNat 32 g.val then (1 : EReal) else 0)
          * max ((arr28 V c (ix2 n c') + ∑ k : Fin 128, arr18 V c (ix2 n k) * arr37 V c (ix2 k c'))
            + arr38 V c (ix2 (0 : Fin 1) c')) 0)
        * arr40 V c (ix2 g (0 : Fin 1)) := by
  rw [final_pooled]
  unfold R1.outAt
  refine (pay1_apply (R1.accAt V c 19 last_lt) (blk5 V c ⟨19, last_lt⟩) g c').trans ?_
  rw [accAt_apply V c g c' 19 last_lt, iblk5_apply V c ⟨19, last_lt⟩ g 0]
  refine congrArg (· * arr40 V c (ix2 g (0 : Fin 1))) ?_
  rw [show 5000 * (19 + 1) = 100000 from rfl, Finset.sum_range]
  refine Finset.sum_congr rfl fun n _ => ?_
  unfold rowTerm
  rw [dif_pos n.isLt]

end Cert.KernelIdeal.ValR1

end
-- ==== Proof.Inputs.lean ====
/-
  The arguments of both programs as plain functions of row and column, over the extended reals: the feature matrix, the
  weights and biases, and, from the edge list, the row each edge reads (its source word with a negative value wrapped by
  the number of nodes, read signed and clamped into the table) and the word naming the node it lands on; from the graph
  ids, each node's graph word.
-/
import proofs.«423418_j69827578298829_3_alg».proof.Proof.Gen.ReferenceIdeal.Read
import Idealize.ShloMosaic.Lib.ValueIdx

noncomputable section

namespace Cert.Inputs

open Cert.ReferenceIdeal Idealize.ShloMosaic Idealize.ShloMosaic.ValueIdx

/-- The node features. -/
def X (x0 : (⟨S100000x64, .f32⟩ : BufTy).Contents (Elt Ideal)) (n : Fin 100000) (k : Fin 64) : EReal := x0 (ix2 n k)

/-- The word of edge `e`'s source position after jnp's wrap of a negative index (the reference's own stage). -/
def srcWord (x1 : (⟨S2x1250000, .i32⟩ : BufTy).Contents (Elt Ideal)) (e : Fin 1250000) : BitVec 32 :=
  Read.val_main_v9 (F := Ideal) x1 (ix2 e (0 : Fin 1))

/-- The row edge `e` reads: its source word read signed and clamped into [0, 99999]. -/
def SR (x1 : (⟨S2x1250000, .i32⟩ : BufTy).Contents (Elt Ideal)) (e : Fin 1250000) : Fin 100000 :=
  ⟨min (srcWord x1 e).toInt.toNat (100000 - 1), by omega⟩

/-- The word naming the node edge `e` lands on. -/
def DW (x1 : (⟨S2x1250000, .i32⟩ : BufTy).Contents (Elt Ideal)) (e : Fin 1250000) : BitVec 32 :=
  Read.val_main_v12 (F := Ideal) x1 (ix2 e (0 : Fin 1))

/-- Node `n`'s graph word. -/
def BW (x2 : (⟨S100000, .i32⟩ : BufTy).Contents (Elt Ideal)) (n : Fin 100000) : BitVec 32 := x2 (ix1 n)

/-- A [128, 64] weight (W_rel, W_root of layer 1), stored [out, in]. -/
def W1 (x : (⟨S128x64, .f32⟩ : BufTy).Contents (Elt Ideal)) (j : Fin 128) (k : Fin 64) : EReal := x (ix2 j k)
/-- A [64, 128] weight (W_rel, W_root of layer 2), stored [out, in]. -/
def W2 (x : (⟨S64x128, .f32⟩ : BufTy).Contents (Elt Ideal)) (c : Fin 64) (k : Fin 128) : EReal := x (ix2 c k)
/-- Layer 1's bias. -/
def B1 (x : (⟨S128, .f32⟩ : BufTy).Contents (Elt Ideal)) (j : Fin 128) : EReal := x (ix1 j)
/-- Layer 2's bias. -/
def B2 (x : (⟨S64, .f32⟩ : BufTy).Contents (Elt Ideal)) (c : Fin 64) : EReal := x (ix1 c)

end Cert.Inputs

end
-- ==== Proof.Tail.lean ====
/-
  The two small multilayer perceptrons both programs end with, as ONE function of the pooled means h3 [64, 64] and the
  twelve weight and bias arrays: 64 → 8 → 4 → 1 (a maximum with 0 after the first two layers), then 1 → 4 → 8 → 64
  (a maximum with 0 after the first two). Every layer is h · Wᵀ + b with W stored [out, in] and b broadcast over the
  64 rows.
-/
import proofs.«423418_j69827578298829_3_alg».proof.ReferenceIdeal
import proofs.«423418_j69827578298829_3_alg».proof.Proof.Gen.ReferenceIdeal

noncomputable section

namespace Cert.Tail

open Cert.ReferenceIdeal Cert.ReferenceIdeal.Gen Idealize.ShloMosaic Idealize.ShloMosaic.TcCoe

variable {F : FTy → Type} [FloatOps F]

set_option maxRecDepth 8192 in
/-- The decoder's output from the pooled means. -/
def tail (h3 : (⟨S64x64, .f32⟩ : BufTy).Contents (Elt F))
    (x9 : (⟨S8x64, .f32⟩ : BufTy).Contents (Elt F)) (x10 : (⟨S8, .f32⟩ : BufTy).Contents (Elt F))
    (x11 : (⟨S4x8, .f32⟩ : BufTy).Contents (Elt F)) (x12 : (⟨S4, .f32⟩ : BufTy).Contents (Elt F))
    (x13 : (⟨S1x4, .f32⟩ : BufTy).Contents (Elt F)) (x14 : (⟨S1, .f32⟩ : BufTy).Contents (Elt F))
    (x15 : (⟨S4x1, .f32⟩ : BufTy).Contents (Elt F)) (x16 : (⟨S4, .f32⟩ : BufTy).Contents (Elt F))
    (x17 : (⟨S8x4, .f32⟩ : BufTy).Contents (Elt F)) (x18 : (⟨S8, .f32⟩ : BufTy).Contents (Elt F))
    (x19 : (⟨S64x8, .f32⟩ : BufTy).Contents (Elt F)) (x20 : (⟨S64, .f32⟩ : BufTy).Contents (Elt F)) :
    (⟨S64x64, .f32⟩ : BufTy).Contents (Elt F) :=
  addf (Host.dotGeneral dot_S64x8_S8x64_S64x64_1_0_0_1_n_n none (maximumf (addf (Host.dotGeneral dot_S64x4_S4x8_S64x8_1_0_0_1_n_n none (maximumf (addf (Host.dotGeneral dot_S64x1_S1x4_S64x4_1_0_0_1_n_n none (addf (Host.dotGeneral dot_S64x4_S4x1_S64x1_1_0_0_1_n_n none (maximumf (addf (Host.dotGeneral dot_S64x8_S8x4_S64x4_1_0_0_1_n_n none (maximumf (addf (Host.dotGeneral dot_S64x64_S64x8_S64x8_1_0_0_1_n_n none (h3) (transpose S64x8 [1, 0] x9 transposes_S8x64_S64x8_1_0)) (broadcastInDim S64x8 ![0, 1] bcast_S1x8_S64x8_0_1 (broadcastInDim S1x8 ![1] bcast_S8_S1x8_1 x10))) (broadcastInDim S64x8 ![] bcast_S_S64x8 (constant S_ .f32 0x00000000#32))) (transpose S8x4 [1, 0] x11 transposes_S4x8_S8x4_1_0)) (broadcastInDim S64x4 ![0, 1] bcast_S1x4_S64x4_0_1 (broadcastInDim S1x4 ![1] bcast_S4_S1x4_1 x12))) (broadcastInDim S64x4 ![] bcast_S_S64x4 (constant S_ .f32 0x00000000#32))) (transpose S4x1 [1, 0] x13 transposes_S1x4_S4x1_1_0)) (broadcastInDim S64x1 ![0, 1] bcast_S1x1_S64x1_0_1 (broadcastInDim S1x1 ![1] bcast_S1_S1x1_1 x14))) (transpose S1x4 [1, 0] x15 transposes_S4x1_S1x4_1_0)) (broadcastInDim S64x4 ![0, 1] bcast_S1x4_S64x4_0_1 (broadcastInDim S1x4 ![1] bcast_S4_S1x4_1 x16))) (broadcastInDim S64x4 ![] bcast_S_S64x4 (constant S_ .f32 0x00000000#32))) (transpose S4x8 [1, 0] x17 transposes_S8x4_S4x8_1_0)) (broadcastInDim S64x8 ![0, 1] bcast_S1x8_S64x8_0_1 (broadcastInDim S1x8 ![1] bcast_S8_S1x8_1 x18))) (broadcastInDim S64x8 ![] bcast_S_S64x8 (constant S_ .f32 0x00000000#32))) (transpose S8x64 [1, 0] x19 transposes_S64x8_S8x64_1_0)) (broadcastInDim S64x64 ![0, 1] bcast_S1x64_S64x64_0_1 (broadcastInDim S1x64 ![1] bcast_S64_S1x64_1 x20))

end Cert.Tail

end
-- ==== Proof.KI.ValHost.lean ====
/-
  What the operations outside the two pallas_calls compute, at the extended reals.

  Before the first call: the first aggregation (the same chain of slices, wrap of negative positions, gather of the
  source rows and accumulating scatter into zeros that the reference runs, on the same two arguments), the feature
  matrix untouched, the layer-1 weights and layer 2's relation weight transposed, layer 1's bias as a one-row matrix.

  After the second call: the pooled means stay what the call left, and the nine stretches of operations that follow
  are the two small perceptrons applied to them, with the twelve weight and bias arguments as launched. The
  contents the two calls leave are an arbitrary `outs` here; the statements hold for every choice of it.
-/
import proofs.«423418_j69827578298829_3_alg».proof.Proof.Gen.KernelIdeal.Regions
import proofs.«423418_j69827578298829_3_alg».proof.Proof.Gen.ReferenceIdeal.Read
import proofs.«423418_j69827578298829_3_alg».proof.Proof.Inputs
import proofs.«423418_j69827578298829_3_alg».proof.Proof.Tail
import Idealize.ShloMosaic.Lib.StableHlo.Run
import Idealize.ShloMosaic.Lib.ValueIdx
import Idealize.ShloMosaic.Lib.ValueLayout

set_option maxRecDepth 16384
set_option pp.maxSteps 5000
set_option pp.deepTerms false

noncomputable section

namespace Cert.KernelIdeal.ValHost

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (c : Dev nD)

/-! ## What the first pallas_call finds -/

/-- The feature matrix is as launched: no operation before the first call writes it. -/
theorem v1_x : Gen.V1 m c main_arg0 = m ((c : Thread nD τ).loc main_arg0) :=
  (Gen.V1_of m c main_arg0 (by decide)).trans rfl

/-- Layer 1's relation weight, transposed: entry (k, j) is W (j, k). -/
theorem v1_wrel (k : Fin 64) (j : Fin 128) :
    (Gen.V1 m c main_v14 : S64x128.Idx → EReal) (ix2 k j) = Inputs.W1 (m ((c : Thread nD τ).loc main_arg3)) j k := by
  have e : (Gen.V1 m c main_v14 : S64x128.Idx → EReal)
      = transpose S64x128 [1, 0] (m ((c : Thread nD τ).loc main_arg3)) transposes_S128x64_S64x128_1_0 := by
    show StableHlo.after hostOps0 _ (Proc.devRef .tc main_v14) = _
    after_results
  rw [e]; exact transpose_ix2_apply _ _ k j

/-- Layer 1's bias as a one-row matrix. -/
theorem v1_b1 (j : Fin 128) :
    (Gen.V1 m c main_v17 : S1x128.Idx → EReal) (ix2 0 j) = Inputs.B1 (m ((c : Thread nD τ).loc main_arg4)) j := by
  have e : (Gen.V1 m c main_v17 : S1x128.Idx → EReal)
      = shapeCast S1x128 (m ((c : Thread nD τ).loc main_arg4)) shapeCasts_S128_S1x128 := by
    show StableHlo.after hostOps0 _ (Proc.devRef .tc main_v17) = _
    after_results
    rfl
  rw [e]; exact shapeCast_a_1a_apply _ _ 0 j

/-- Layer 1's root weight, transposed. -/
theorem v1_wroot (k : Fin 64) (j : Fin 128) :
    (Gen.V1 m c main_v15 : S64x128.Idx → EReal) (ix2 k j) = Inputs.W1 (m ((c : Thread nD τ).loc main_arg5)) j k := by
  have e : (Gen.V1 m c main_v15 : S64x128.Idx → EReal)
      = transpose S64x128 [1, 0] (m ((c : Thread nD τ).loc main_arg5)) transposes_S128x64_S64x128_1_0 := by
    show StableHlo.after hostOps0 _ (Proc.devRef .tc main_v15) = _
    after_results
  rw [e]; exact transpose_ix2_apply _ _ k j

/-- Layer 2's relation weight, transposed: entry (k, c') is W (c', k). -/
theorem v1_w2rel (k : Fin 128) (c' : Fin 64) :
    (Gen.V1 m c main_v16 : S128x64.Idx → EReal) (ix2 k c') = Inputs.W2 (m ((c : Thread nD τ).loc main_arg6)) c' k := by
  have e : (Gen.V1 m c main_v16 : S128x64.Idx → EReal)
      = transpose S128x64 [1, 0] (m ((c : Thread nD τ).loc main_arg6)) transposes_S64x128_S128x64_1_0 := by
    show StableHlo.after hostOps0 _ (Proc.devRef .tc main_v16) = _
    after_results
  rw [e]; exact transpose_ix2_apply _ _ k c'

/-- The first aggregation is the reference's own: the same slices, wrap of negative positions, gather of source
    rows and accumulating scatter into zeros, applied to the same two arguments. -/
theorem v1_agg :
    (Gen.V1 m c main_v13 : S100000x64.Idx → EReal)
      = Cert.ReferenceIdeal.Read.val_main_v13 (F := Ideal) (m ((c : Thread nD τ).loc main_arg0))
          (m ((c : Thread nD τ).loc main_arg1)) := by
  show StableHlo.after hostOps0 _ (Proc.devRef .tc main_v13) = _
  after_results_simp
  rfl

/-! ## After the second pallas_call -/

variable (outs : Gen.Outs (F := Ideal))

/-- The pooled means stay what the second call left: no later operation writes them. -/
theorem v13_h3 : Gen.V13 m outs c main_v41 = outs 4 main_v41 c :=
  (Gen.V13_of m outs c main_v41 (by decide)).trans <| (Gen.V12_of m outs c main_v41 (by decide)).trans <|
  (Gen.V11_of m outs c main_v41 (by decide)).trans <| (Gen.V10_of m outs c main_v41 (by decide)).trans <|
  (Gen.V9_of m outs c main_v41 (by decide)).trans <| (Gen.V8_of m outs c main_v41 (by decide)).trans <|
  (Gen.V7_of m outs c main_v41 (by decide)).trans <| (Gen.V6_of m outs c main_v41 (by decide)).trans <|
  (Gen.V5_of m outs c main_v41 (by decide)).trans (Function.update_self _ _ _)

/-- An array no operation up to the second call writes is, after that call, as launched. -/
theorem v4_keep (r : Ref sig .tc) (h0 : r ∉ hostOps0_W) (h1 : r ∉ ([main_v18_0, main_v18_1] : List (Ref sig .tc)))
    (h2 : r ∉ hostOps1_W) (h3 : r ∉ ([main_v41] : List (Ref sig .tc))) :
    Gen.V4 m outs c (Proc.devRef .tc r) = m ((c : Thread nD τ).loc r) :=
  (Gen.V4_of m outs c r h3).trans <| (Gen.V3_of m outs c r h2).trans <| (Gen.V2_of m outs c r h1).trans <|
  (Gen.V1_of m c r h0).trans rfl

/-- The nine stretches of operations after the second call, run from any contents: the result array holds the two
    small perceptrons applied to what `main_v41` held, with the twelve weight and bias arguments as they were. -/
theorem tail_chain (V : Valuation τ sig (Elt Ideal)) :
    (StableHlo.after hostOps2_8 (StableHlo.after hostOps2_7 (StableHlo.after hostOps2_6 (StableHlo.after hostOps2_5
      (StableHlo.after hostOps2_4 (StableHlo.after hostOps2_3 (StableHlo.after hostOps2_2 (StableHlo.after hostOps2_1
      (StableHlo.after hostOps2 V)))))))) (Proc.devRef .tc main_v75) : S64x64.Idx → EReal)
      = Cert.Tail.tail (V (Proc.devRef .tc main_v41)) (V (Proc.devRef .tc main_arg9)) (V (Proc.devRef .tc main_arg10))
          (V (Proc.devRef .tc main_arg11)) (V (Proc.devRef .tc main_arg12)) (V (Proc.devRef .tc main_arg13))
          (V (Proc.devRef .tc main_arg14)) (V (Proc.devRef .tc main_arg15)) (V (Proc.devRef .tc main_arg16))
          (V (Proc.devRef .tc main_arg17)) (V (Proc.devRef .tc main_arg18)) (V (Proc.devRef .tc main_arg19))
          (V (Proc.devRef .tc main_arg20)) := by
  after_results_simp
  rfl

/-- After the last operation the result array holds the two small perceptrons applied to the pooled means. -/
theorem v13_tail :
    (Gen.V13 m outs c main_v75 : S64x64.Idx → EReal)
      = Cert.Tail.tail (Gen.V13 m outs c main_v41) (m ((c : Thread nD τ).loc main_arg9))
          (m ((c : Thread nD τ).loc main_arg10)) (m ((c : Thread nD τ).loc main_arg11))
          (m ((c : Thread nD τ).loc main_arg12)) (m ((c : Thread nD τ).loc main_arg13))
          (m ((c : Thread nD τ).loc main_arg14)) (m ((c : Thread nD τ).loc main_arg15))
          (m ((c : Thread nD τ).loc main_arg16)) (m ((c : Thread nD τ).loc main_arg17))
          (m ((c : Thread nD τ).loc main_arg18)) (m ((c : Thread nD τ).loc main_arg19))
          (m ((c : Thread nD τ).loc main_arg20)) := by
  rw [v13_h3 m c outs]
  have h := tail_chain (Gen.V4 m outs c)
  rw [v4_keep m c outs main_arg9 (by decide) (by decide) (by decide) (by decide),
    v4_keep m c outs main_arg10 (by decide) (by decide) (by decide) (by decide),
    v4_keep m c outs main_arg11 (by decide) (by decide) (by decide) (by decide),
    v4_keep m c outs main_arg12 (by decide) (by decide) (by decide) (by decide),
    v4_keep m c outs main_arg13 (by decide) (by decide) (by decide) (by decide),
    v4_keep m c outs main_arg14 (by decide) (by decide) (by decide) (by decide),
    v4_keep m c outs main_arg15 (by decide) (by decide) (by decide) (by decide),
    v4_keep m c outs main_arg16 (by decide) (by decide) (by decide) (by decide),
    v4_keep m c outs main_arg17 (by decide) (by decide) (by decide) (by decide),
    v4_keep m c outs main_arg18 (by decide) (by decide) (by decide) (by decide),
    v4_keep m c outs main_arg19 (by decide) (by decide) (by decide) (by decide),
    v4_keep m c outs main_arg20 (by decide) (by decide) (by decide) (by decide),
    show Gen.V4 m outs c (Proc.devRef .tc main_v41) = outs 4 main_v41 c from Function.update_self _ _ _] at h
  exact h

end Cert.KernelIdeal.ValHost

end
-- ==== Proof.SpecDefs.lean ====
/-
  A two-layer graph convolution with mean pooling, written twice over the extended reals (the law that the two
  writings agree is proved in the module that imports this one).

  Nodes n < N carry feature rows x n; every edge e reads the row `sr e` and lands on the node its word `dw e` names
  (read signed; an edge whose word names no node is dropped); every node carries a graph word `bw n`.
    layer 1:  h1 n = max (agg1 n · W_rel + b1 + x n · W_root, 0),  agg1 n = the sum of x (sr e) over the edges landing on n
    layer 2:  h2 n = max (agg2 n · W2_rel + b2 + h1 n · W2_root, 0),  agg2 n = the sum of h1 (sr e) over the edges landing on n
    pooling:  h3 g = (the sum of h2 n over the nodes of graph g) / max (the number of those nodes, 1)
  The first writing multiplies h1 by W2_rel BEFORE summing over the edges (64 columns travel instead of 128), pools
  with a 0/1 indicator of "the graph word is g" and multiplies by the reciprocal of the count; the second sums first,
  pools by selection and divides. They agree at every extended real: sums commute, h1 is nonnegative (a maximum with
  0), and multiplication distributes over a sum of nonnegative terms; the count is a natural number, so the divisor
  is a real ≥ 1.
-/
import Idealize.ShloMosaic.PureOps.Ideal
import Mathlib.Algebra.BigOperators.Group.Finset.Basic
import Mathlib.Data.EReal.Basic

noncomputable section

namespace Cert.Spec

open Idealize.ShloMosaic
open scoped BigOperators

variable {N E G C H : ℕ}

/-- The sum, over the edges whose word names node `n` (read signed), of `u e`. -/
def seg (dw : Fin E → BitVec 32) (u : Fin E → EReal) (n : Fin N) : EReal :=
  ∑ e : Fin E, if (dw e).toInt = (n.val : ℤ) then u e else 0

section Layers

variable (x : Fin N → Fin C → EReal) (sr : Fin E → Fin N) (dw : Fin E → BitVec 32) (bw : Fin N → BitVec 32)
  (w1rel : Fin H → Fin C → EReal) (b1 : Fin H → EReal) (w1root : Fin H → Fin C → EReal)
  (w2rel : Fin C → Fin H → EReal) (b2 : Fin C → EReal) (w2root : Fin C → Fin H → EReal)

/-- The first aggregation: the source rows summed into their destination nodes. -/
def agg1 (n : Fin N) (k : Fin C) : EReal := seg dw (fun e => x (sr e) k) n

/-- How many nodes carry graph word `g`. -/
def cnt (g : Fin G) : EReal := seg bw (fun _ => (1 : EReal)) g

/-! ### The first writing -/

def h1K (n : Fin N) (j : Fin H) : EReal :=
  max ((∑ k : Fin C, agg1 x sr dw n k * w1rel j k + ∑ k : Fin C, x n k * w1root j k) + b1 j) 0

/-- h1 already multiplied by W2_rel: 64 columns. -/
def p1K (n : Fin N) (c : Fin C) : EReal := ∑ k : Fin H, h1K x sr dw w1rel b1 w1root n k * w2rel c k

def agg2K (n : Fin N) (c : Fin C) : EReal := seg dw (fun e => p1K x sr dw w1rel b1 w1root w2rel (sr e) c) n

def h2K (n : Fin N) (c : Fin C) : EReal :=
  max ((agg2K x sr dw w1rel b1 w1root w2rel n c + ∑ k : Fin H, h1K x sr dw w1rel b1 w1root n k * w2root c k) + b2 c) 0

/-- Pooling with the 0/1 indicator of "node n's graph word is g". -/
def poolK (g : Fin G) (c : Fin C) : EReal :=
  ∑ n : Fin N, (if bw n = BitVec.ofNat 32 g.val then (1 : EReal) else 0) * h2K x sr dw w1rel b1 w1root w2rel b2 w2root n c

def h3K (g : Fin G) (c : Fin C) : EReal :=
  poolK (G := G) x sr dw bw w1rel b1 w1root w2rel b2 w2root g c * Ideal.div 1 (max (cnt (G := G) bw g) 1)

/-! ### The second writing -/

def h1R (n : Fin N) (j : Fin H) : EReal :=
  max ((∑ k : Fin C, agg1 x sr dw n k * w1rel j k + b1 j) + ∑ k : Fin C, x n k * w1root j k) 0

def agg2R (n : Fin N) (k : Fin H) : EReal := seg dw (fun e => h1R x sr dw w1rel b1 w1root (sr e) k) n

def h2R (n : Fin N) (c : Fin C) : EReal :=
  max ((∑ k : Fin H, agg2R x sr dw w1rel b1 w1root n k * w2rel c k + b2 c) + ∑ k : Fin H, h1R x sr dw w1rel b1 w1root n k * w2root c k) 0

def poolR (g : Fin G) (c : Fin C) : EReal := seg bw (fun n => h2R x sr dw w1rel b1 w1root w2rel b2 w2root n c) g

def h3R (g : Fin G) (c : Fin C) : EReal :=
  Ideal.div (poolR (G := G) x sr dw bw w1rel b1 w1root w2rel b2 w2root g c) (max (cnt (G := G) bw g) 1)

end Layers

end Cert.Spec

end
-- ==== Proof.LibGatherRows.lean ====
/-
  The host's gather that selects ROWS of a matrix by a column of positions, read at an index.
-/
import Idealize.ShloMosaic.PureOps
import Idealize.ShloMosaic.Lib.ValueIdx

set_option maxRecDepth 16384

noncomputable section

namespace Cert.LibGatherRows

open Idealize.ShloMosaic Idealize.ShloMosaic.ValueIdx

/-- An entry of a one-element list is that element, whatever the position. -/
private theorem getElem_of_eq_singleton {β : Type} {l : List β} {x : β} (hl : l = [x]) (k : Nat) (hk : k < l.length) :
    l[k]'hk = x := by
  subst hl
  have hk0 : k = 0 := by simpa using hk
  subst hk0
  rfl

/-- SELECTING ROWS. A gather over an [N, C] matrix whose start indices are an [E, 1] column of positions, the
    columns kept whole (axis 1 an offset axis of slice size C) and axis 0 collapsed and start-indexed: entry (e, j)
    is the matrix at the row position e's start index names, read signed and clamped into [0, N - 1], and column j. -/
theorem gather_rows {α : Type} {N C E w : ℕ} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![E, 1]⟩ w) (e : Fin E) (j : Fin C) (hN : 0 < N) :
    Host.gather d x idx (ix2 e j)
      = x (ix2 ⟨min (idx (ix2 e (0 : Fin 1))).toInt.toNat (N - 1), by omega⟩ j) := by
  -- the axes kept on each side: the operand's one offset axis is 1, the result's one batch axis is 0
  have hsK : d.sKept = [1] := by
    show (List.finRange 2).filter (· ∉ d.collapsedSliceDims ++ d.operandBatchingDims) = [1]
    rw [hcoll, hob]; rfl
  have hbD : d.batchDims = [0] := by
    show (List.finRange 2).filter (· ∉ d.offsetDims) = [0]
    rw [hoff]; rfl
  have hlen : d.startIndexMap.length = 1 := by rw [hsim]; rfl
  -- the start-index entry result position (e, j) reads is row e of the column of positions
  have hsi : ∀ c, d.siIdx (ix2 e j) c = ix2 e (0 : Fin 1) := by
    intro c
    funext b
    match b with
    | ⟨0, _⟩ =>
      unfold GatherDims.siIdx
      rw [dif_neg (by rw [hivd]; simp)]
      unfold GatherDims.siCoord
      apply Fin.ext
      simp only [Fin.val_cast]
      rw [getElem_of_eq_singleton hbD]
      rfl
    | ⟨1, _⟩ =>
      unfold GatherDims.siIdx
      rw [dif_pos (by rw [hivd])]
      apply Fin.ext
      show c.val = 0
      have := c.isLt
      omega
  unfold Host.gather
  congr 1
  funext ax
  apply Fin.ext
  match ax with
  | ⟨0, h0⟩ =>
    -- axis 0, collapsed and start-indexed: the clamped start index alone
    have hb : (⟨0, h0⟩ : Fin 2) ∉ d.operandBatchingDims := by rw [hob]; exact List.not_mem_nil
    have hk : (⟨0, h0⟩ : Fin 2) ∉ d.sKept := by
      rw [hsK, List.mem_singleton]; intro e; exact Nat.zero_ne_one (congrArg Fin.val e)
    have hm : (⟨0, h0⟩ : Fin 2) ∈ d.startIndexMap := by rw [hsim]; exact List.mem_singleton.mpr rfl
    have hsl : d.sliceSizes ⟨0, h0⟩ = 1 := d.slice_collapsed _ (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    rw [hsi, hsl]
    rfl
  | ⟨1, h1⟩ =>
    -- axis 1, the offset axis: no start index, no batch coordinate, the result's column
    have hb : (⟨1, h1⟩ : Fin 2) ∉ d.operandBatchingDims := by rw [hob]; exact List.not_mem_nil
    have hm : (⟨1, h1⟩ : Fin 2) ∉ d.startIndexMap := by
      rw [hsim, List.mem_singleton]; intro e; exact Nat.one_ne_zero (congrArg Fin.val e)
    have hk : (⟨1, h1⟩ : Fin 2) ∈ d.sKept := by rw [hsK]; exact List.mem_singleton.mpr rfl
    simp only [GatherDims.operandIdx, GatherDims.batchCoord_eq_zero _ _ _ hb, GatherDims.start, dif_neg hm,
      GatherDims.offCoord, dif_pos hk, Nat.zero_add, Nat.add_zero]
    rw [getElem_of_eq_singleton hoff]
    rfl

end Cert.LibGatherRows

end
-- ==== Proof.LibScatterRows.lean ====
/-
  The host's accumulating scatter over the extended reals, read at an index, for the two layouts a segment sum
  prints as: a vector of N sums fed by E scalars, and an N x C table of sums fed by E rows of C entries; in both
  the scatter indices are an E x 1 column naming, per update, the operand's position on axis 0. An update lands at
  the position its index names, read signed; an index outside [0, N) drops its update.
-/
import Idealize.ShloMosaic.PureOps.Ideal
import Idealize.ShloMosaic.PureOps.Contract
import Idealize.ShloMosaic.Lib.ValueIdx

set_option maxRecDepth 16384

noncomputable section

namespace Cert.LibScatterRows

open Idealize.ShloMosaic Idealize.ShloMosaic.ValueIdx
open scoped BigOperators

/-- An accumulating scatter's update lands at operand index `i` exactly when, on every axis, the window's start plus
    the window coordinate is `i`'s coordinate. -/
private theorem resultIdx?_eq_some_iff {s si u : Shape} {w : ℕ} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have := h a
      omega
    · intro hf
      funext a
      apply Fin.ext
      have := hf a
      show (d.start j idx a + (d.window j a : ℤ)).toNat = (i a).val
      omega
  · rename_i h
    constructor
    · intro hf
      exact absurd hf (by simp)
    · intro hf
      exfalso
      apply h
      intro a
      have := hf a
      have := (i a).isLt
      omega

/-- A rank-1 index set is its one coordinate's range. -/
private def idxEquiv1 {n : ℕ} : (⟨1, ![n]⟩ : Shape).Idx ≃ Fin n where
  toFun i := i 0
  invFun a := ix1 a
  left_inv i := (eq_ix1 i).symm
  right_inv _ := rfl

/-- A sum over a rank-1 index set is the sum over the coordinate. -/
private theorem sum_idx1 {M : Type*} [AddCommMonoid M] {n : ℕ} (f : (⟨1, ![n]⟩ : Shape).Idx → M) :
    ∑ i, f i = ∑ a : Fin n, f (ix1 a) :=
  (Equiv.sum_comp (idxEquiv1 (n := n)).symm f).symm

/-! ### The vector layout -/

/-- The vector layout's dimension numbers as a literal record, over any proof that they are well formed. -/
private abbrev litV {N E : ℕ} (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  ⟨[], [0], [0], 1, wf⟩

section Vec
variable {N E w : ℕ} (wf : ScatterDims.WF ⟨1, ![N]⟩ ⟨2, ![E, 1]⟩ ⟨1, ![E]⟩ [] [0] [0] 1)

/-- Update e reads row e of the column of indices. -/
private theorem siIdx_V (j : (⟨1, ![E]⟩ : Shape).Idx) (c : Fin (litV wf).scatterDimsToOperandDims.length) :
    (litV wf).siIdx j c = ix2 (j 0) (0 : Fin 1) := by
  funext b
  match b with
  | ⟨0, _⟩ =>
    unfold ScatterDims.siIdx
    rw [dif_neg (by exact Nat.zero_ne_one)]
    unfold ScatterDims.siCoord
    apply Fin.ext
    simp only [Fin.val_cast]
    rfl
  | ⟨1, _⟩ =>
    unfold ScatterDims.siIdx
    rw [dif_pos rfl]
    apply Fin.ext
    show c.val = 0
    have : c.val < 1 := c.isLt
    omega

/-- On axis 0 the window starts at the index word, read signed. -/
private theorem start_V0 (j : (⟨1, ![E]⟩ : Shape).Idx) (idx : IVec ⟨2, ![E, 1]⟩ w) :
    (litV wf).start j idx 0 = (idx (ix2 (j 0) (0 : Fin 1))).toInt := by
  unfold ScatterDims.start
  rw [dif_pos (show (0 : Fin (⟨1, ![N]⟩ : Shape).rank) ∈ (litV wf).scatterDimsToOperandDims from List.mem_singleton.mpr rfl)]
  rw [siIdx_V]
  rfl

/-- Axis 0 is inserted: no window coordinate. -/
private theorem window_V0 (j : (⟨1, ![E]⟩ : Shape).Idx) : (litV wf).window j 0 = 0 := by
  unfold ScatterDims.window
  rw [dif_neg (show ¬(0 : Fin (⟨1, ![N]⟩ : Shape).rank) ∈ (litV wf).sKept from List.not_mem_nil)]

/-- Update j lands at position r exactly when its index word, read signed, is r. -/
private theorem lands_V (j : (⟨1, ![E]⟩ : Shape).Idx) (idx : IVec ⟨2, ![E, 1]⟩ w) (r : Fin N) :
    (litV wf).resultIdx? j idx = some (ix1 r) ↔ (idx (ix2 (j 0) (0 : Fin 1))).toInt = (r.val : ℤ) := by
  rw [resultIdx?_eq_some_iff]
  constructor
  · intro h
    have h0 := h 0
    rw [start_V0, window_V0] at h0
    simp only [Nat.cast_zero, add_zero] at h0
    exact h0
  · intro h a
    match a with
    | ⟨0, _⟩ =>
      have e1 := start_V0 wf j idx
      have e2 := window_V0 wf j
      show (litV wf).start j idx 0 + (((litV wf).window j 0 : ℕ) : ℤ) = (r.val : ℤ)
      rw [e1, e2, h]
      simp

end Vec

/-! ### The table layout -/

/-- The table layout's dimension numbers as a literal record, over any proof that they are well formed. -/
private abbrev litT {N C E : ℕ} (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  ⟨[1], [0], [0], 1, wf⟩

section Tab
variable {N C E w : ℕ} (wf : ScatterDims.WF ⟨2, ![N, C]⟩ ⟨2, ![E, 1]⟩ ⟨2, ![E, C]⟩ [1] [0] [0] 1)

/-- The row (e, ·) of updates reads row e of the column of indices. -/
private theorem siIdx_T (j : (⟨2, ![E, C]⟩ : Shape).Idx) (c : Fin (litT wf).scatterDimsToOperandDims.length) :
    (litT wf).siIdx j c = ix2 (j 0) (0 : Fin 1) := by
  funext b
  match b with
  | ⟨0, _⟩ =>
    unfold ScatterDims.siIdx
    rw [dif_neg (by exact Nat.zero_ne_one)]
    unfold ScatterDims.siCoord
    apply Fin.ext
    simp only [Fin.val_cast]
    rfl
  | ⟨1, _⟩ =>
    unfold ScatterDims.siIdx
    rw [dif_pos rfl]
    apply Fin.ext
    show c.val = 0
    have : c.val < 1 := c.isLt
    omega

/-- The operand's one axis that is not inserted is axis 1. -/
private theorem sKept_T : (litT wf).sKept = [1] := rfl

/-- On axis 0 the window starts at the index word, read signed. -/
private theorem start_T0 (j : (⟨2, ![E, C]⟩ : Shape).Idx) (idx : IVec ⟨2, ![E, 1]⟩ w) :
    (litT wf).start j idx 0 = (idx (ix2 (j 0) (0 : Fin 1))).toInt := by
  unfold ScatterDims.start
  rw [dif_pos (show (0 : Fin (⟨2, ![N, C]⟩ : Shape).rank) ∈ (litT wf).scatterDimsToOperandDims from List.mem_singleton.mpr rfl)]
  rw [siIdx_T]
  rfl

/-- Axis 1 is named by no index: its window starts at 0. -/
private theorem start_T1 (j : (⟨2, ![E, C]⟩ : Shape).Idx) (idx : IVec ⟨2, ![E, 1]⟩ w) :
    (litT wf).start j idx 1 = 0 := by
  unfold ScatterDims.start
  rw [dif_neg (show ¬(1 : Fin (⟨2, ![N, C]⟩ : Shape).rank) ∈ (litT wf).scatterDimsToOperandDims by
    rw [List.mem_singleton]; intro e; exact Nat.one_ne_zero (congrArg Fin.val e))]

/-- Axis 0 is inserted: no window coordinate. -/
private theorem window_T0 (j : (⟨2, ![E, C]⟩ : Shape).Idx) : (litT wf).window j 0 = 0 := by
  unfold ScatterDims.window
  rw [dif_neg (show ¬(0 : Fin (⟨2, ![N, C]⟩ : Shape).rank) ∈ (litT wf).sKept by
    rw [sKept_T, List.mem_singleton]; intro e; exact Nat.zero_ne_one (congrArg Fin.val e))]

/-- Axis 1 is the window axis: its window coordinate is the update's column. -/
private theorem window_T1 (j : (⟨2, ![E, C]⟩ : Shape).Idx) : (litT wf).window j 1 = (j 1).val := by
  unfold ScatterDims.window
  rw [dif_pos (show (1 : Fin (⟨2, ![N, C]⟩ : Shape).rank) ∈ (litT wf).sKept by
    rw [sKept_T]; exact List.mem_singleton.mpr rfl)]
  rfl

/-- Update (e, c') lands at (r, c) exactly when e's index word, read signed, is r and c' is c. -/
private theorem lands_T (j : (⟨2, ![E, C]⟩ : Shape).Idx) (idx : IVec ⟨2, ![E, 1]⟩ w) (r : Fin N) (c : Fin C) :
    (litT wf).resultIdx? j idx = some (ix2 r c)
      ↔ (idx (ix2 (j 0) (0 : Fin 1))).toInt = (r.val : ℤ) ∧ (j 1).val = c.val := by
  rw [resultIdx?_eq_some_iff]
  constructor
  · intro h
    have h0 := h 0
    have h1 := h 1
    rw [start_T0, window_T0] at h0
    rw [start_T1, window_T1] at h1
    simp only [Nat.cast_zero, add_zero] at h0
    have h1' : ((j 1).val : ℤ) = (c.val : ℤ) := by
      simp only [zero_add] at h1
      exact h1
    exact ⟨h0, by exact_mod_cast h1'⟩
  · intro h a
    match a with
    | ⟨0, _⟩ =>
      have e1 := start_T0 wf j idx
      have e2 := window_T0 wf j
      show (litT wf).start j idx 0 + (((litT wf).window j 0 : ℕ) : ℤ) = (r.val : ℤ)
      rw [e1, e2, h.1]
      simp
    | ⟨1, _⟩ =>
      have e1 := start_T1 wf j idx
      have e2 := window_T1 wf j
      show (litT wf).start j idx 1 + (((litT wf).window j 1 : ℕ) : ℤ) = (c.val : ℤ)
      rw [e1, e2, h.2]
      simp

end Tab

/-- A VECTOR of sums. Operand [N], scatter indices [E, 1], updates [E]; no window axis, axis 0 inserted and named by
    the index vector's one component. Entry r is the operand's entry plus the sum of the updates whose index is r. -/
theorem scatterAdd_vec_apply {N E w : ℕ} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ w) (upd : FVec Ideal ⟨1, ![E]⟩ .f32) (r : Fin N) :
    Host.scatterAdd (F := Ideal) d x idx upd (ix1 r)
      = x (ix1 r) + ∑ e : Fin E, if (idx (ix2 e (0 : Fin 1))).toInt = (r.val : ℤ) then upd (ix1 e) else 0 := by
  obtain ⟨uw, iw, sd, iv, wf⟩ := d
  simp only at huw hiw hsd hiv
  subst huw hiw hsd hiv
  simp only [Host.scatterAdd, Ideal.hostScatterAdd_def, Ideal.hostScatterAdd]
  congr 1
  rw [Finset.sum_filter, sum_idx1]
  refine Finset.sum_congr rfl fun e _ => ?_
  exact if_congr (lands_V wf (ix1 e) idx r) rfl rfl

/-- A TABLE of row sums. Operand [N, C], scatter indices [E, 1], updates [E, C]; the updates' axis 1 is the window
    axis, the operand's axis 0 is inserted and named by the index vector's one component. Entry (r, j) is the
    operand's entry plus the sum, over the updates whose index is r, of their entry j. -/
theorem scatterAdd_rows_apply {N C E w : ℕ} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ .f32) (idx : IVec ⟨2, ![E, 1]⟩ w) (upd : FVec Ideal ⟨2, ![E, C]⟩ .f32) (r : Fin N) (j : Fin C) :
    Host.scatterAdd (F := Ideal) d x idx upd (ix2 r j)
      = x (ix2 r j) + ∑ e : Fin E, if (idx (ix2 e (0 : Fin 1))).toInt = (r.val : ℤ) then upd (ix2 e j) else 0 := by
  obtain ⟨uw, iw, sd, iv, wf⟩ := d
  simp only at huw hiw hsd hiv
  subst huw hiw hsd hiv
  simp only [Host.scatterAdd, Ideal.hostScatterAdd_def, Ideal.hostScatterAdd]
  congr 1
  rw [Finset.sum_filter, sum_idx2]
  refine Finset.sum_congr rfl fun e _ => ?_
  -- the inner sum over the update's column keeps the one column j
  by_cases he : (idx (ix2 e (0 : Fin 1))).toInt = (r.val : ℤ)
  · rw [if_pos he]
    rw [Finset.sum_eq_single j]
    · exact if_pos ((lands_T wf (ix2 e j) idx r j).mpr ⟨he, rfl⟩)
    · intro c' _ hc'
      exact if_neg fun h => hc' (Fin.ext ((lands_T wf (ix2 e c') idx r j).mp h).2)
    · intro h
      exact absurd (Finset.mem_univ j) h
  · rw [if_neg he]
    refine Finset.sum_eq_zero fun c' _ => ?_
    exact if_neg fun h => he ((lands_T wf (ix2 e c') idx r j).mp h).1

end Cert.LibScatterRows

end
-- ==== Proof.RefValue.lean ====
/-
  What the reference program computes, in the shape of the shared specification: its pooled means are the second
  writing `Spec.h3R` of the two-layer graph convolution at the arguments read as plain functions, and its output is
  the decoder `Tail.tail` of those means.
-/
import proofs.«423418_j69827578298829_3_alg».proof.Proof.Gen.ReferenceIdeal.Read
import proofs.«423418_j69827578298829_3_alg».proof.Proof.SpecDefs
import proofs.«423418_j69827578298829_3_alg».proof.Proof.Inputs
import proofs.«423418_j69827578298829_3_alg».proof.Proof.Tail
import Idealize.ShloMosaic.Lib.IdealHost
import proofs.«423418_j69827578298829_3_alg».proof.Proof.LibContract
import proofs.«423418_j69827578298829_3_alg».proof.Proof.LibGatherRows
import proofs.«423418_j69827578298829_3_alg».proof.Proof.LibScatterRows

set_option maxRecDepth 16384

noncomputable section

namespace Cert.RefValue

open Cert.ReferenceIdeal Cert.ReferenceIdeal.Gen Cert.ReferenceIdeal.Read
open Idealize.ShloMosaic Idealize.ShloMosaic.TcCoe Idealize.ShloMosaic.ValueIdx Idealize.ShloMosaic.StableHlo
open Cert.Inputs
open scoped BigOperators

variable (x0 : (⟨S100000x64, .f32⟩ : BufTy).Contents (Elt Ideal)) (x1 : (⟨S2x1250000, .i32⟩ : BufTy).Contents (Elt Ideal))
  (x2 : (⟨S100000, .i32⟩ : BufTy).Contents (Elt Ideal)) (x3 : (⟨S128x64, .f32⟩ : BufTy).Contents (Elt Ideal))
  (x4 : (⟨S128, .f32⟩ : BufTy).Contents (Elt Ideal)) (x5 : (⟨S128x64, .f32⟩ : BufTy).Contents (Elt Ideal))
  (x6 : (⟨S64x128, .f32⟩ : BufTy).Contents (Elt Ideal)) (x7 : (⟨S64, .f32⟩ : BufTy).Contents (Elt Ideal))
  (x8 : (⟨S64x128, .f32⟩ : BufTy).Contents (Elt Ideal))

/-! ## Layer 1 -/

/-- The gathered source rows: entry (e, k) is the feature row edge `e` reads, at column `k`. -/
theorem ref_src_rows (e : Fin 1250000) (k : Fin 64) :
    val_main_v10 (F := Ideal) x0 x1 (ix2 e k) = X x0 (SR x1 e) k := by
  unfold val_main_v10
  rw [LibGatherRows.gather_rows _ rfl rfl rfl rfl rfl rfl x0 (val_main_v9 (F := Ideal) x1) e k (by decide)]
  rfl

/-- The first aggregation: the source rows summed into the nodes their edges land on. -/
theorem ref_agg1 (n : Fin 100000) (k : Fin 64) :
    val_main_v13 (F := Ideal) x0 x1 (ix2 n k) = Spec.agg1 (X x0) (SR x1) (DW x1) n k := by
  unfold val_main_v13
  rw [LibScatterRows.scatterAdd_rows_apply _ rfl rfl rfl rfl]
  rw [val_main_v11_apply, val_main_cst_apply]
  show Ideal.ofBits .f32 0x00000000#32 + _ = _
  rw [Ideal.ofBits_zero_f32, zero_add]
  unfold Spec.agg1 Spec.seg
  refine Finset.sum_congr rfl fun e _ => ?_
  rw [ref_src_rows]
  rfl

/-- The transposed weight read at (k, j) is the stored weight at (j, k). -/
theorem transposed_w1rel_idx (k : Fin 64) (j : Fin 128) : idx_main_v14 (ix2 k j) = ix2 j k := by
  funext a; match a with | ⟨0, _⟩ => rfl | ⟨1, _⟩ => rfl
theorem transposed_w1root_idx (k : Fin 64) (j : Fin 128) : idx_main_v19 (ix2 k j) = ix2 j k := by
  funext a; match a with | ⟨0, _⟩ => rfl | ⟨1, _⟩ => rfl
/-- The bias broadcast over the rows reads the bias at the column. -/
theorem bias1_idx (n : Fin 100000) (j : Fin 128) : idx_main_v16 (idx_main_v17 (ix2 n j)) = ix1 j := by
  funext a; match a with | ⟨0, _⟩ => rfl

/-- agg1 · W_relᵀ at (n, j). -/
theorem ref_agg1_w (n : Fin 100000) (j : Fin 128) :
    val_main_v15 (F := Ideal) x0 x1 x3 (ix2 n j) = ∑ k : Fin 64, Spec.agg1 (X x0) (SR x1) (DW x1) n k * W1 x3 j k := by
  unfold val_main_v15
  rw [LibContract.dotGeneral_plain _ rfl rfl rfl rfl rfl rfl]
  refine Finset.sum_congr rfl fun k _ => ?_
  rw [ref_agg1, val_main_v14_apply, transposed_w1rel_idx]
  rfl

/-- x · W_rootᵀ at (n, j). -/
theorem ref_x_w (n : Fin 100000) (j : Fin 128) :
    val_main_v20 (F := Ideal) x0 x5 (ix2 n j) = ∑ k : Fin 64, X x0 n k * W1 x5 j k := by
  unfold val_main_v20
  rw [LibContract.dotGeneral_plain _ rfl rfl rfl rfl rfl rfl]
  refine Finset.sum_congr rfl fun k _ => ?_
  rw [val_main_v19_apply, transposed_w1root_idx]
  rfl

/-- The first layer's activations. -/
theorem ref_h1 (n : Fin 100000) (j : Fin 128) :
    val_main_v22 (F := Ideal) x0 x1 x3 x4 x5 (ix2 n j)
      = Spec.h1R (X x0) (SR x1) (DW x1) (W1 x3) (B1 x4) (W1 x5) n j := by
  rw [val_main_v22_apply, val_main_v21_apply, val_main_v18_apply, val_main_call0_v0_apply, val_main_call0_cst_apply,
    val_main_v17_apply, val_main_v16_apply, bias1_idx, ref_agg1_w, ref_x_w]
  show max ((_ + _) + _) (Ideal.ofBits .f32 0x00000000#32) = _
  rw [Ideal.ofBits_zero_f32]
  rfl

/-! ## Layer 2 -/

/-- The second gather reads its rows by the same column of source words as the first: the same stages of the edge list. -/
theorem src_column_again : val_main_v28 (F := Ideal) x1 = val_main_v9 (F := Ideal) x1 := rfl
/-- The second scatter lands by the same column of destination words as the first. -/
theorem dst_column_again : val_main_v31 (F := Ideal) x1 = val_main_v12 (F := Ideal) x1 := rfl

/-- The gathered activations: entry (e, k) is h1 at the row edge `e` reads. -/
theorem ref_src_h1 (e : Fin 1250000) (k : Fin 128) :
    val_main_v29 (F := Ideal) x0 x1 x3 x4 x5 (ix2 e k)
      = Spec.h1R (X x0) (SR x1) (DW x1) (W1 x3) (B1 x4) (W1 x5) (SR x1 e) k := by
  unfold val_main_v29
  rw [LibGatherRows.gather_rows _ rfl rfl rfl rfl rfl rfl (val_main_v22 (F := Ideal) x0 x1 x3 x4 x5)
    (val_main_v28 (F := Ideal) x1) e k (by decide), src_column_again]
  exact ref_h1 x0 x1 x3 x4 x5 (SR x1 e) k

/-- The second aggregation: h1's source rows summed into the nodes their edges land on. -/
theorem ref_agg2 (n : Fin 100000) (k : Fin 128) :
    val_main_v32 (F := Ideal) x0 x1 x3 x4 x5 (ix2 n k)
      = Spec.agg2R (X x0) (SR x1) (DW x1) (W1 x3) (B1 x4) (W1 x5) n k := by
  unfold val_main_v32
  rw [LibScatterRows.scatterAdd_rows_apply _ rfl rfl rfl rfl]
  rw [val_main_v30_apply, val_main_cst_3_apply, dst_column_again]
  show Ideal.ofBits .f32 0x00000000#32 + _ = _
  rw [Ideal.ofBits_zero_f32, zero_add]
  unfold Spec.agg2R Spec.seg
  refine Finset.sum_congr rfl fun e _ => ?_
  rw [ref_src_h1]
  rfl

theorem transposed_w2rel_idx (k : Fin 128) (c : Fin 64) : idx_main_v33 (ix2 k c) = ix2 c k := by
  funext a; match a with | ⟨0, _⟩ => rfl | ⟨1, _⟩ => rfl
theorem transposed_w2root_idx (k : Fin 128) (c : Fin 64) : idx_main_v38 (ix2 k c) = ix2 c k := by
  funext a; match a with | ⟨0, _⟩ => rfl | ⟨1, _⟩ => rfl
theorem bias2_idx (n : Fin 100000) (c : Fin 64) : idx_main_v35 (idx_main_v36 (ix2 n c)) = ix1 c := by
  funext a; match a with | ⟨0, _⟩ => rfl

/-- agg2 · W2_relᵀ at (n, c). -/
theorem ref_agg2_w (n : Fin 100000) (c : Fin 64) :
    val_main_v34 (F := Ideal) x0 x1 x3 x4 x5 x6 (ix2 n c)
      = ∑ k : Fin 128, Spec.agg2R (X x0) (SR x1) (DW x1) (W1 x3) (B1 x4) (W1 x5) n k * W2 x6 c k := by
  unfold val_main_v34
  rw [LibContract.dotGeneral_plain _ rfl rfl rfl rfl rfl rfl]
  refine Finset.sum_congr rfl fun k _ => ?_
  rw [ref_agg2, val_main_v33_apply, transposed_w2rel_idx]
  rfl

/-- h1 · W2_rootᵀ at (n, c). -/
theorem ref_h1_w (n : Fin 100000) (c : Fin 64) :
    val_main_v39 (F := Ideal) x0 x1 x3 x4 x5 x8 (ix2 n c)
      = ∑ k : Fin 128, Spec.h1R (X x0) (SR x1) (DW x1) (W1 x3) (B1 x4) (W1 x5) n k * W2 x8 c k := by
  unfold val_main_v39
  rw [LibContract.dotGeneral_plain _ rfl rfl rfl rfl rfl rfl]
  refine Finset.sum_congr rfl fun k _ => ?_
  rw [ref_h1, val_main_v38_apply, transposed_w2root_idx]
  rfl

/-- The second layer's activations. -/
theorem ref_h2 (n : Fin 100000) (c : Fin 64) :
    val_main_v41 (F := Ideal) x0 x1 x3 x4 x5 x6 x7 x8 (ix2 n c)
      = Spec.h2R (X x0) (SR x1) (DW x1) (W1 x3) (B1 x4) (W1 x5) (W2 x6) (B2 x7) (W2 x8) n c := by
  rw [val_main_v41_apply, val_main_v40_apply, val_main_v37_apply, val_main_call1_v0_apply, val_main_call1_cst_apply,
    val_main_v36_apply, val_main_v35_apply, bias2_idx, ref_agg2_w, ref_h1_w]
  show max ((_ + _) + _) (Ideal.ofBits .f32 0x00000000#32) = _
  rw [Ideal.ofBits_zero_f32]
  rfl

/-! ## Pooling -/

/-- The word 0x3F800000 is the real 1. -/
theorem one_word : Ideal.ofBits .f32 0x3F800000#32 = 1 := Ideal.ofBits_one_f32

theorem graph_column_idx (n : Fin 100000) : idx_main_v44 (ix2 n (0 : Fin 1)) = ix1 n := by
  funext a; match a with | ⟨0, _⟩ => rfl
theorem graph_column_idx' (n : Fin 100000) : idx_main_v47 (ix2 n (0 : Fin 1)) = ix1 n := by
  funext a; match a with | ⟨0, _⟩ => rfl

/-- How many nodes each graph has. -/
theorem ref_cnt (g : Fin 64) : val_main_v45 (F := Ideal) x2 (ix1 g) = Spec.cnt (G := 64) (BW x2) g := by
  unfold val_main_v45
  rw [LibScatterRows.scatterAdd_vec_apply _ rfl rfl rfl rfl]
  rw [val_main_v43_apply, val_main_cst_5_apply]
  show Ideal.ofBits .f32 0x00000000#32 + _ = _
  rw [Ideal.ofBits_zero_f32, zero_add]
  unfold Spec.cnt Spec.seg
  refine Finset.sum_congr rfl fun n _ => ?_
  rw [val_main_v44_apply, graph_column_idx, val_main_v42_apply, val_main_cst_4_apply]
  show (if _ then Ideal.ofBits .f32 0x3F800000#32 else 0) = _
  rw [one_word]
  rfl

/-- The sum of h2 over each graph's nodes. -/
theorem ref_pool (g : Fin 64) (c : Fin 64) :
    val_main_v48 (F := Ideal) x0 x1 x2 x3 x4 x5 x6 x7 x8 (ix2 g c)
      = Spec.poolR (G := 64) (X x0) (SR x1) (DW x1) (BW x2) (W1 x3) (B1 x4) (W1 x5) (W2 x6) (B2 x7) (W2 x8) g c := by
  unfold val_main_v48
  rw [LibScatterRows.scatterAdd_rows_apply _ rfl rfl rfl rfl]
  rw [val_main_v46_apply, val_main_cst_6_apply]
  show Ideal.ofBits .f32 0x00000000#32 + _ = _
  rw [Ideal.ofBits_zero_f32, zero_add]
  unfold Spec.poolR Spec.seg
  refine Finset.sum_congr rfl fun n _ => ?_
  rw [val_main_v47_apply, graph_column_idx', ref_h2]
  rfl

theorem divisor_idx (g : Fin 64) (c : Fin 64) : idx_main_v51 (idx_main_v52 (ix2 g c)) = ix1 g := by
  funext a; match a with | ⟨0, _⟩ => rfl

/-- The divisor: the node count, at least 1, the same along a row. -/
theorem ref_divisor (g : Fin 64) (c : Fin 64) :
    val_main_v52 (F := Ideal) x2 (ix2 g c) = max (Spec.cnt (G := 64) (BW x2) g) 1 := by
  rw [val_main_v52_apply, val_main_v51_apply, divisor_idx, val_main_v50_apply, ref_cnt, val_main_v49_apply,
    val_main_cst_7_apply]
  show max _ (Ideal.ofBits .f32 0x3F800000#32) = _
  rw [one_word]

/-- The reference's pooled means are the second writing of the specification. -/
theorem ref_h3 :
    val_main_v53 (F := Ideal) x0 x1 x2 x3 x4 x5 x6 x7 x8
      = fun i => Spec.h3R (G := 64) (X x0) (SR x1) (DW x1) (BW x2) (W1 x3) (B1 x4) (W1 x5) (W2 x6) (B2 x7) (W2 x8) (i 0) (i 1) := by
  funext i
  obtain ⟨g, c, rfl⟩ : ∃ g c, i = ix2 g c := ⟨i 0, i 1, eq_ix2 i⟩
  rw [val_main_v53_apply, ref_pool, ref_divisor]
  rfl

/-! ## The decoder -/

/-- The reference's output is the decoder of its pooled means: the remaining stages are the decoder's own term, the
    pooled means in the place of its variable. -/
theorem ref_tail
    (x9 : (⟨S8x64, .f32⟩ : BufTy).Contents (Elt Ideal)) (x10 : (⟨S8, .f32⟩ : BufTy).Contents (Elt Ideal))
    (x11 : (⟨S4x8, .f32⟩ : BufTy).Contents (Elt Ideal)) (x12 : (⟨S4, .f32⟩ : BufTy).Contents (Elt Ideal))
    (x13 : (⟨S1x4, .f32⟩ : BufTy).Contents (Elt Ideal)) (x14 : (⟨S1, .f32⟩ : BufTy).Contents (Elt Ideal))
    (x15 : (⟨S4x1, .f32⟩ : BufTy).Contents (Elt Ideal)) (x16 : (⟨S4, .f32⟩ : BufTy).Contents (Elt Ideal))
    (x17 : (⟨S8x4, .f32⟩ : BufTy).Contents (Elt Ideal)) (x18 : (⟨S8, .f32⟩ : BufTy).Contents (Elt Ideal))
    (x19 : (⟨S64x8, .f32⟩ : BufTy).Contents (Elt Ideal)) (x20 : (⟨S64, .f32⟩ : BufTy).Contents (Elt Ideal)) :
    val_main_v87 (F := Ideal) x0 x1 x2 x3 x4 x5 x6 x7 x8 x9 x10 x11 x12 x13 x14 x15 x16 x17 x18 x19 x20
      = Tail.tail (val_main_v53 (F := Ideal) x0 x1 x2 x3 x4 x5 x6 x7 x8) x9 x10 x11 x12 x13 x14 x15 x16 x17 x18 x19 x20 := by
  unfold Tail.tail
  rfl

end Cert.RefValue

end
-- ==== Proof.KI.ValHost3.lean ====
/-
  What the second pallas_call of the idealized kernel program finds in its arrays: the host operations between the two
  pallas_calls, read at an index over the extended reals. They gather the rows of p1 by the edge list's source column and
  sum them into the nodes the destination column names, count the nodes of each graph and take the reciprocal of that
  count (at least 1), and lay out W2_root transposed, the second bias as a row and the graph words as a column.
-/
import proofs.«423418_j69827578298829_3_alg».proof.Proof.KI.Vals
import proofs.«423418_j69827578298829_3_alg».proof.Proof.Gen.ReferenceIdeal.Read
import proofs.«423418_j69827578298829_3_alg».proof.Proof.SpecDefs
import proofs.«423418_j69827578298829_3_alg».proof.Proof.Inputs
import proofs.«423418_j69827578298829_3_alg».proof.Proof.LibContract
import proofs.«423418_j69827578298829_3_alg».proof.Proof.LibGatherRows
import proofs.«423418_j69827578298829_3_alg».proof.Proof.LibScatterRows
import Idealize.ShloMosaic.Lib.StableHlo.Run
import Idealize.ShloMosaic.Lib.ValueIdx
import Idealize.ShloMosaic.Lib.IdealHost
import Idealize.ShloMosaic.Lib.ValueLayout
import proofs.«423418_j69827578298829_3_alg».proof.Proof.RefValue

set_option maxRecDepth 16384

noncomputable section

namespace Cert.KernelIdeal.ValHost3

open Cert.KernelIdeal Cert.KernelIdeal.Gen
open Idealize.ShloMosaic Idealize.ShloMosaic.TcCoe Idealize.ShloMosaic.ValueIdx Idealize.ShloMosaic.StableHlo
open Idealize.SL Idealize.SL.Sem
open Cert.Inputs
open scoped BigOperators

variable (m : (ℓ : Loc nD τ sig) → Buf (Elt Ideal) ℓ)

/-! ## The arrays the statements read -/

/-- The edge list (argument 1) on core `c` at launch. -/
abbrev edges (c : Dev nD) : (⟨S2x1250000, .i32⟩ : BufTy).Contents (Elt Ideal) := m ((c : Thread nD τ).loc main_arg1)
/-- The graph ids (argument 2). -/
abbrev graphIds (c : Dev nD) : (⟨S100000, .i32⟩ : BufTy).Contents (Elt Ideal) := m ((c : Thread nD τ).loc main_arg2)
/-- The second layer's bias (argument 7). -/
abbrev bias2 (c : Dev nD) : (⟨S64, .f32⟩ : BufTy).Contents (Elt Ideal) := m ((c : Thread nD τ).loc main_arg7)
/-- W2_root (argument 8). -/
abbrev w2root (c : Dev nD) : (⟨S64x128, .f32⟩ : BufTy).Contents (Elt Ideal) := m ((c : Thread nD τ).loc main_arg8)
/-- What the first pallas_call leaves in h1's array. -/
abbrev h1arr (c : Dev nD) : (⟨S100000x128, .f32⟩ : BufTy).Contents (Elt Ideal) := Run.W2 m c (Proc.devRef .tc main_v18_0)
/-- What it leaves in p1's array. -/
abbrev p1arr (c : Dev nD) : (⟨S100000x64, .f32⟩ : BufTy).Contents (Elt Ideal) := Run.W2 m c (Proc.devRef .tc main_v18_1)

/-! ## What the stretch finds: the first pallas_call's results, and the launch contents of what nothing has written -/

/-- A reference that neither the first stretch of host operations nor the first pallas_call writes is, when the second
    stretch starts, at its launch contents. -/
theorem untouched_at_launch (c : Dev nD) (r : Ref sig .tc) (h2 : r ∉ ([main_v18_0, main_v18_1] : List (Ref sig .tc)))
    (h1 : r ∉ hostOps0_W) : Gen.V2 m (Run.outs2 m) c r = m ((c : Thread nD τ).loc r) :=
  (Gen.V2_of m _ c r h2).trans ((Gen.V1_of m c r h1).trans rfl)

/-- p1's array when the second stretch starts is what the first pallas_call left there. -/
theorem v2_p1 (c : Dev nD) : Gen.V2 m (Run.outs2 m) c main_v18_1 = p1arr m c := by
  show Function.update _ (Proc.devRef .tc main_v18_1) _ (Proc.devRef .tc main_v18_1) = _
  rw [Function.update_self]
  rfl

/-- h1's array likewise. -/
theorem v2_h1 (c : Dev nD) : Gen.V2 m (Run.outs2 m) c main_v18_0 = h1arr m c := by
  show Function.update (Function.update _ (Proc.devRef .tc main_v18_0) _) (Proc.devRef .tc main_v18_1) _ (Proc.devRef .tc main_v18_0) = _
  rw [Function.update_of_ne (StableHlo.devRef_ne_of_ne (by decide)), Function.update_self]
  rfl

/-- The edge list's first row as a vector, written by the first stretch: the same stages of the edge list as the
    reference's. -/
theorem v2_src_vector (c : Dev nD) :
    (Gen.V2 m (Run.outs2 m) c main_v1 : (⟨S1250000, .i32⟩ : BufTy).Contents (Elt Ideal))
      = ReferenceIdeal.Read.val_main_v1 (F := Ideal) (edges m c) := by
  rw [Gen.V2_of m _ c main_v1 (by decide)]
  show StableHlo.after hostOps0 _ (Proc.devRef .tc main_v1) = _
  after_results
  rfl

/-- Its second row as a vector. -/
theorem v2_dst_vector (c : Dev nD) :
    (Gen.V2 m (Run.outs2 m) c main_v3 : (⟨S1250000, .i32⟩ : BufTy).Contents (Elt Ideal))
      = ReferenceIdeal.Read.val_main_v3 (F := Ideal) (edges m c) := by
  rw [Gen.V2_of m _ c main_v3 (by decide)]
  show StableHlo.after hostOps0 _ (Proc.devRef .tc main_v3) = _
  after_results
  rfl

/-! ## The second aggregation's input: p1's source rows summed into their destination nodes -/

/-- The source column from the source vector: a negative word wrapped by the number of nodes, laid out as a column. -/
def wrapColumn (v : (⟨S1250000, .i32⟩ : BufTy).Contents (Elt Ideal)) : (⟨S1250000x1, .i32⟩ : BufTy).Contents (Elt Ideal) :=
  broadcastInDim S1250000x1 ![0] bcast_S1250000_S1250000x1_0
    (select (cmpi .slt v (broadcastInDim S1250000 ![] bcast_S_S1250000 (constantI S_ 32 0#32)))
      (addi v (broadcastInDim S1250000 ![] bcast_S_S1250000 (constantI S_ 32 100000#32))) v)

/-- The destination vector laid out as a column. -/
def asColumn (v : (⟨S1250000, .i32⟩ : BufTy).Contents (Elt Ideal)) : (⟨S1250000x1, .i32⟩ : BufTy).Contents (Elt Ideal) :=
  broadcastInDim S1250000x1 ![0] bcast_S1250000_S1250000x1_0 v

/-- On the reference's source vector the wrapped column is the reference's own source column. -/
theorem wrapColumn_ref (e : (⟨S2x1250000, .i32⟩ : BufTy).Contents (Elt Ideal)) :
    wrapColumn (ReferenceIdeal.Read.val_main_v1 (F := Ideal) e) = ReferenceIdeal.Read.val_main_v9 (F := Ideal) e := rfl
theorem asColumn_ref (e : (⟨S2x1250000, .i32⟩ : BufTy).Contents (Elt Ideal)) :
    asColumn (ReferenceIdeal.Read.val_main_v3 (F := Ideal) e) = ReferenceIdeal.Read.val_main_v12 (F := Ideal) e := rfl

/-- The stretch's aggregation from any contents: p1's rows gathered by the wrapped source column, scatter-added into
    zeros by the destination column. -/
theorem stretch_agg2 (V : Valuation τ sig (Elt Ideal)) :
    (StableHlo.after hostOps1 V (Proc.devRef .tc main_v28) : (⟨S100000x64, .f32⟩ : BufTy).Contents (Elt Ideal))
      = Host.scatterAdd (F := Ideal) (φ := .f32) scatter_S100000x64_S1250000x1_S1250000x64_1_0_0_1
          (ReferenceIdeal.Read.val_main_v11 (F := Ideal))
          (asColumn (V (Proc.devRef .tc main_v3)))
          (Host.gather gather_S100000x64_S1250000x1_S1250000x64_1_0_n_n_0_1_164
            (V (Proc.devRef .tc main_v18_1) : (⟨S100000x64, .f32⟩ : BufTy).Contents (Elt Ideal))
            (wrapColumn (V (Proc.devRef .tc main_v1)))) := by
  after_results_simp
  rfl

/-- The array as a term over the reference's own columns. -/
theorem v3_agg2_arr (c : Dev nD) :
    (Gen.V3 m (Run.outs2 m) c main_v28 : (⟨S100000x64, .f32⟩ : BufTy).Contents (Elt Ideal))
      = Host.scatterAdd (F := Ideal) (φ := .f32) scatter_S100000x64_S1250000x1_S1250000x64_1_0_0_1
          (ReferenceIdeal.Read.val_main_v11 (F := Ideal))
          (ReferenceIdeal.Read.val_main_v12 (F := Ideal) (edges m c))
          (Host.gather gather_S100000x64_S1250000x1_S1250000x64_1_0_n_n_0_1_164 (p1arr m c)
            (ReferenceIdeal.Read.val_main_v9 (F := Ideal) (edges m c))) := by
  have e := stretch_agg2 (Gen.V2 m (Run.outs2 m) c)
  rw [v2_p1, v2_src_vector, v2_dst_vector, wrapColumn_ref, asColumn_ref] at e
  exact e

theorem v3_agg2 (c : Dev nD) (n : Fin 100000) (c' : Fin 64) :
    (Gen.V3 m (Run.outs2 m) c main_v28 : (⟨S100000x64, .f32⟩ : BufTy).Contents (Elt Ideal)) (ix2 n c')
      = Spec.seg (DW (edges m c)) (fun e => p1arr m c (ix2 (SR (edges m c) e) c')) n := by
  rw [v3_agg2_arr, LibScatterRows.scatterAdd_rows_apply _ rfl rfl rfl rfl, ReferenceIdeal.Read.val_main_v11_apply, ReferenceIdeal.Read.val_main_cst_apply]
  show Ideal.ofBits .f32 0x00000000#32 + _ = _
  rw [Ideal.ofBits_zero_f32, zero_add]
  unfold Spec.seg
  refine Finset.sum_congr rfl fun e _ => ?_
  rw [LibGatherRows.gather_rows _ rfl rfl rfl rfl rfl rfl (p1arr m c) (ReferenceIdeal.Read.val_main_v9 (F := Ideal) (edges m c)) e c' (by decide)]
  rfl

/-! ## h1, W2_root transposed, the bias row, the graph column -/

/-- h1's array is not touched between the two pallas_calls. -/
theorem v3_h1 (c : Dev nD) : Gen.V3 m (Run.outs2 m) c main_v18_0 = h1arr m c := by
  rw [Gen.V3_of m _ c main_v18_0 (by decide)]
  exact v2_h1 m c

theorem v3_w2root (c : Dev nD) (k : Fin 128) (c' : Fin 64) :
    (Gen.V3 m (Run.outs2 m) c main_v37 : (⟨S128x64, .f32⟩ : BufTy).Contents (Elt Ideal)) (ix2 k c')
      = W2 (w2root m c) c' k := by
  have e : (Gen.V3 m (Run.outs2 m) c main_v37 : (⟨S128x64, .f32⟩ : BufTy).Contents (Elt Ideal))
      = ReferenceIdeal.Read.val_main_v38 (F := Ideal) (w2root m c) := by
    show StableHlo.after hostOps1 _ (Proc.devRef .tc main_v37) = _
    after_results
    rw [untouched_at_launch m c main_arg8 (by decide) (by decide)]
    rfl
  rw [e, ReferenceIdeal.Read.val_main_v38_apply, RefValue.transposed_w2root_idx]
  rfl

theorem v3_b2 (c : Dev nD) (c' : Fin 64) :
    (Gen.V3 m (Run.outs2 m) c main_v38 : (⟨S1x64, .f32⟩ : BufTy).Contents (Elt Ideal)) (ix2 (0 : Fin 1) c')
      = B2 (bias2 m c) c' := by
  have e : (Gen.V3 m (Run.outs2 m) c main_v38 : (⟨S1x64, .f32⟩ : BufTy).Contents (Elt Ideal))
      = shapeCast S1x64 (bias2 m c) shapeCasts_S64_S1x64 := by
    show StableHlo.after hostOps1 _ (Proc.devRef .tc main_v38) = _
    after_results
    rw [untouched_at_launch m c main_arg7 (by decide) (by decide)]
    rfl
  rw [e, shapeCast_a_1a_apply]
  rfl

/-- A vector laid out as a column: entry (i, 0) is the vector's entry i. -/
theorem column_of_vector {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem v3_batch (c : Dev nD) (n : Fin 100000) :
    (Gen.V3 m (Run.outs2 m) c main_v39 : (⟨S100000x1, .i32⟩ : BufTy).Contents (Elt Ideal)) (ix2 n (0 : Fin 1))
      = BW (graphIds m c) n := by
  have e : (Gen.V3 m (Run.outs2 m) c main_v39 : (⟨S100000x1, .i32⟩ : BufTy).Contents (Elt Ideal))
      = shapeCast S100000x1 (graphIds m c) shapeCasts_S100000_S100000x1 := by
    show StableHlo.after hostOps1 _ (Proc.devRef .tc main_v39) = _
    after_results
    rw [untouched_at_launch m c main_arg2 (by decide) (by decide)]
    rfl
  rw [e, column_of_vector]
  rfl

/-! ## The reciprocal of each graph's node count -/

/-- The stretch's reciprocal counts from any contents: the reference's own count of each graph's nodes (at least 1),
    under 1, laid out as a column. -/
theorem stretch_invc (V : Valuation τ sig (Elt Ideal)) :
    (StableHlo.after hostOps1 V (Proc.devRef .tc main_v40) : (⟨S64x1, .f32⟩ : BufTy).Contents (Elt Ideal))
      = shapeCast S64x1 (Host.divf (F := Ideal) (φ := .f32) (ReferenceIdeal.Read.val_main_v49 (F := Ideal))
          (ReferenceIdeal.Read.val_main_v50 (F := Ideal) (V (Proc.devRef .tc main_arg2)))) shapeCasts_S64_S64x1 := by
  after_results_simp
  rfl

theorem v3_invc (c : Dev nD) (g : Fin 64) :
    (Gen.V3 m (Run.outs2 m) c main_v40 : (⟨S64x1, .f32⟩ : BufTy).Contents (Elt Ideal)) (ix2 g (0 : Fin 1))
      = Ideal.div 1 (max (Spec.cnt (G := 64) (BW (graphIds m c)) g) 1) := by
  have e := stretch_invc (Gen.V2 m (Run.outs2 m) c)
  rw [untouched_at_launch m c main_arg2 (by decide) (by decide)] at e
  refine (congrFun e _).trans ?_
  rw [column_of_vector]
  rw [hostDivf_apply]
  rw [ReferenceIdeal.Read.val_main_v49_apply, ReferenceIdeal.Read.val_main_cst_7_apply, ReferenceIdeal.Read.val_main_v50_apply, RefValue.ref_cnt, ReferenceIdeal.Read.val_main_v49_apply,
    ReferenceIdeal.Read.val_main_cst_7_apply]
  show Ideal.div (Ideal.ofBits .f32 0x3F800000#32) (max _ (Ideal.ofBits .f32 0x3F800000#32)) = _
  rw [Ideal.ofBits_one_f32]

end Cert.KernelIdeal.ValHost3

end
-- ==== Proof.KI.Value.lean ====
/-
  The kernel program's pooled means are the first writing of the specification (the one that multiplies h1 by W2_rel
  before summing over the edges, pools with a 0/1 indicator and multiplies by the reciprocal of the count), at the
  arguments as launched, read as plain functions of row and column.

  The chain: no operation after the second kernel writes the pooled means; the second kernel leaves them, index by
  index, at the indicator-weighted sum over the nodes of max (agg2 + h1 · W2_root + b2, 0), times the inverse count,
  of the arrays it finds; those arrays are: the second aggregate (p1's source rows summed into the nodes their edges
  land on, p1 as the first kernel left it), h1 as the first kernel left it, W2_root transposed, the bias as a row, the
  graph words as a column, and the inverse counts; the first kernel leaves h1 = max (agg1 · W_rel + x · W_root + b1, 0)
  and p1 = h1 · W2_rel of the arrays it finds: the first aggregate (the reference's own), the features, the weights
  transposed, the bias as a row. Term by term that is `Spec.h3K`.
-/
import proofs.«423418_j69827578298829_3_alg».proof.Proof.KI.Vals
import proofs.«423418_j69827578298829_3_alg».proof.Proof.KI.ValR0
import proofs.«423418_j69827578298829_3_alg».proof.Proof.KI.ValR1
import proofs.«423418_j69827578298829_3_alg».proof.Proof.KI.ValHost
import proofs.«423418_j69827578298829_3_alg».proof.Proof.KI.ValHost3
import proofs.«423418_j69827578298829_3_alg».proof.Proof.RefValue
import proofs.«423418_j69827578298829_3_alg».proof.Proof.SpecDefs
import proofs.«423418_j69827578298829_3_alg».proof.Proof.Inputs
import Idealize.ShloMosaic.Lib.ValueIdx

set_option maxRecDepth 16384

noncomputable section

namespace Cert.KernelIdeal.Value

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ) (c : Dev nD)

/-! ## The arguments as launched, read as plain functions of row and column -/

/-- The feature matrix. -/
abbrev sx : Fin 100000 → Fin 64 → EReal := Inputs.X (m ((c : Thread nD τ).loc main_arg0))
/-- The row each edge reads. -/
abbrev ssr : Fin 1250000 → Fin 100000 := Inputs.SR (m ((c : Thread nD τ).loc main_arg1))
/-- The word naming the node each edge lands on. -/
abbrev sdw : Fin 1250000 → BitVec 32 := Inputs.DW (m ((c : Thread nD τ).loc main_arg1))
/-- Each node's graph word. -/
abbrev sbw : Fin 100000 → BitVec 32 := Inputs.BW (m ((c : Thread nD τ).loc main_arg2))
/-- Layer 1: relation weight, bias, root weight. -/
abbrev sw1rel : Fin 128 → Fin 64 → EReal := Inputs.W1 (m ((c : Thread nD τ).loc main_arg3))
abbrev sb1 : Fin 128 → EReal := Inputs.B1 (m ((c : Thread nD τ).loc main_arg4))
abbrev sw1root : Fin 128 → Fin 64 → EReal := Inputs.W1 (m ((c : Thread nD τ).loc main_arg5))
/-- Layer 2: relation weight, bias, root weight. -/
abbrev sw2rel : Fin 64 → Fin 128 → EReal := Inputs.W2 (m ((c : Thread nD τ).loc main_arg6))
abbrev sb2 : Fin 64 → EReal := Inputs.B2 (m ((c : Thread nD τ).loc main_arg7))
abbrev sw2root : Fin 64 → Fin 128 → EReal := Inputs.W2 (m ((c : Thread nD τ).loc main_arg8))

/-! ## Layer 1, as the first kernel leaves it -/

/-- The first kernel's h1 is the first writing's h1. -/
theorem h1_is (n : Fin 100000) (j : Fin 128) :
    ValR0.h1Out (Run.E1 m) c (ix2 n j)
      = Spec.h1K (sx m c) (ssr m c) (sdw m c) (sw1rel m c) (sb1 m c) (sw1root m c) n j := by
  rw [ValR0.h1_at]
  unfold Spec.h1K
  have hagg : ∀ k : Fin 64, ValR0.agg (Run.E1 m) c (ix2 n k) = Spec.agg1 (sx m c) (ssr m c) (sdw m c) n k := fun k => by
    show (Gen.V1 m c main_v13 : S100000x64.Idx → EReal) (ix2 n k) = _
    rw [ValHost.v1_agg]
    exact RefValue.ref_agg1 _ _ n k
  have hfeat : ∀ k : Fin 64, ValR0.feat (Run.E1 m) c (ix2 n k) = sx m c n k := fun k => by
    show (Gen.V1 m c main_arg0 : S100000x64.Idx → EReal) (ix2 n k) = _
    rw [ValHost.v1_x]
    rfl
  have hwrel : ∀ k : Fin 64, ValR0.wrel (Run.E1 m) c (ix2 k j) = sw1rel m c j k := fun k => ValHost.v1_wrel m c k j
  have hwroot : ∀ k : Fin 64, ValR0.wroot (Run.E1 m) c (ix2 k j) = sw1root m c j k := fun k => ValHost.v1_wroot m c k j
  have hb : ValR0.bias (Run.E1 m) c (ix2 0 j) = sb1 m c j := ValHost.v1_b1 m c j
  rw [hb, Finset.sum_congr rfl fun k _ => congrArg₂ (· * ·) (hagg k) (hwrel k),
    Finset.sum_congr rfl fun k _ => congrArg₂ (· * ·) (hfeat k) (hwroot k)]

/-- The first kernel's p1 is the first writing's p1: h1 times W2_rel. -/
theorem p1_is (n : Fin 100000) (q : Fin 64) :
    ValR0.p1Out (Run.E1 m) c (ix2 n q)
      = Spec.p1K (sx m c) (ssr m c) (sdw m c) (sw1rel m c) (sb1 m c) (sw1root m c) (sw2rel m c) n q := by
  rw [ValR0.p1_at]
  unfold Spec.p1K
  exact Finset.sum_congr rfl fun k _ => congrArg₂ (· * ·) (h1_is m c n k) (ValHost.v1_w2rel m c k q)

/-! ## Layer 2 and the pooling, as the second kernel leaves them -/

/-- What the first kernel leaves is what the second finds: its h1 … -/
theorem h1_found (n : Fin 100000) (k : Fin 128) :
    (Run.W2 m c (Proc.devRef .tc main_v18_0) : Vec Ideal S100000x128 .f32) (ix2 n k) = ValR0.h1Out (Run.E1 m) c (ix2 n k) :=
  congrFun (Run.outs_h1 m c) (ix2 n k)

/-- … and its p1. -/
theorem p1_found (n : Fin 100000) (q : Fin 64) :
    (Run.W2 m c (Proc.devRef .tc main_v18_1) : Vec Ideal S100000x64 .f32) (ix2 n q) = ValR0.p1Out (Run.E1 m) c (ix2 n q) :=
  congrFun (Run.outs_p1 m c) (ix2 n q)

/-- The second aggregate the second kernel finds is the first writing's: p1's source rows summed into the nodes their
    edges land on. -/
theorem agg2_is (n : Fin 100000) (q : Fin 64) :
    ValR1.arr28 (Run.E3 m) c (ix2 n q)
      = Spec.agg2K (sx m c) (ssr m c) (sdw m c) (sw1rel m c) (sb1 m c) (sw1root m c) (sw2rel m c) n q := by
  refine (ValHost3.v3_agg2 m c n q).trans ?_
  unfold Spec.agg2K
  exact congrArg (fun u => Spec.seg (sdw m c) u n) (funext fun e => (p1_found m c _ q).trans (p1_is m c _ q))

/-- The h1 the second kernel finds is the first writing's. -/
theorem h1_again (n : Fin 100000) (k : Fin 128) :
    ValR1.arr18 (Run.E3 m) c (ix2 n k)
      = Spec.h1K (sx m c) (ssr m c) (sdw m c) (sw1rel m c) (sb1 m c) (sw1root m c) n k :=
  (congrFun (ValHost3.v3_h1 m c) (ix2 n k)).trans ((h1_found m c n k).trans (h1_is m c n k))

/-- Layer 2 at a node, from what the second kernel finds: the first writing's h2. -/
theorem h2_is (n : Fin 100000) (q : Fin 64) :
    max ((ValR1.arr28 (Run.E3 m) c (ix2 n q)
        + ∑ k : Fin 128, ValR1.arr18 (Run.E3 m) c (ix2 n k) * ValR1.arr37 (Run.E3 m) c (ix2 k q))
      + ValR1.arr38 (Run.E3 m) c (ix2 0 q)) 0
      = Spec.h2K (sx m c) (ssr m c) (sdw m c) (sw1rel m c) (sb1 m c) (sw1root m c) (sw2rel m c) (sb2 m c) (sw2root m c) n q := by
  unfold Spec.h2K
  have hb : ValR1.arr38 (Run.E3 m) c (ix2 0 q) = sb2 m c q := ValHost3.v3_b2 m c q
  have hw : ∀ k : Fin 128, ValR1.arr37 (Run.E3 m) c (ix2 k q) = sw2root m c q k := fun k => ValHost3.v3_w2root m c k q
  rw [hb, agg2_is m c n q, Finset.sum_congr rfl fun k _ => congrArg₂ (· * ·) (h1_again m c n k) (hw k)]

/-- The second kernel's pooled means at (g, q): the first writing of the specification. -/
theorem h3_is (g q : Fin 64) :
    (R1.dat (Run.E3 m) c).arrAt 6 cfg1.N (ix2 g q)
      = Spec.h3K (G := 64) (sx m c) (ssr m c) (sdw m c) (sbw m c) (sw1rel m c) (sb1 m c) (sw1root m c)
          (sw2rel m c) (sb2 m c) (sw2root m c) g q := by
  refine (ValR1.h3_at (Run.E3 m) c g q).trans ?_
  unfold Spec.h3K Spec.poolK
  have hinv : ValR1.arr40 (Run.E3 m) c (ix2 g 0) = Ideal.div 1 (max (Spec.cnt (G := 64) (sbw m c) g) 1) :=
    ValHost3.v3_invc m c g
  have hg : ∀ n : Fin 100000, ValR1.arr39 (Run.E3 m) c (ix2 n 0) = sbw m c n := fun n => ValHost3.v3_batch m c n
  rw [hinv, Finset.sum_congr rfl fun n _ => by rw [hg n, h2_is m c n q]]

/-- THE KERNEL PROGRAM'S POOLED MEANS are the first writing of the specification, at the arguments as launched: no
    operation after the second kernel writes them, and the second kernel leaves them at `h3_is`. -/
theorem ker_h3 :
    (Gen.V13 m (Run.outs m) c main_v41 : Vec Ideal S64x64 .f32)
      = fun i => Spec.h3K (G := 64) (Inputs.X (m ((c : Thread nD τ).loc main_arg0)))
          (Inputs.SR (m ((c : Thread nD τ).loc main_arg1))) (Inputs.DW (m ((c : Thread nD τ).loc main_arg1)))
          (Inputs.BW (m ((c : Thread nD τ).loc main_arg2))) (Inputs.W1 (m ((c : Thread nD τ).loc main_arg3)))
          (Inputs.B1 (m ((c : Thread nD τ).loc main_arg4))) (Inputs.W1 (m ((c : Thread nD τ).loc main_arg5)))
          (Inputs.W2 (m ((c : Thread nD τ).loc main_arg6))) (Inputs.B2 (m ((c : Thread nD τ).loc main_arg7)))
          (Inputs.W2 (m ((c : Thread nD τ).loc main_arg8))) (i 0) (i 1) := by
  refine (ValHost.v13_h3 m c (Run.outs m)).trans ((Run.outs_h3 m c).trans ?_)
  funext i
  obtain ⟨g, q, rfl⟩ : ∃ (g : Fin 64) (q : Fin 64), i = ix2 g q := ⟨i 0, i 1, eq_ix2 i⟩
  exact h3_is m c g q

end Cert.KernelIdeal.Value

end
-- ==== Proof.Spec.lean ====
/-
  The law that the two writings of the two-layer graph convolution with mean pooling (the definitions of the imported
  module) agree at every extended real.

  Layer 1 differs only in where the bias is added. Layer 1 is a maximum with 0, hence nonnegative, and over the
  extended reals multiplication distributes over a sum of NONNEGATIVE terms (whatever the multiplier: no `⊤ + ⊥` can
  arise), so multiplying by W2_rel before or after summing over the edges is the same; two finite sums commute.
  Pooling with a 0/1 indicator is selection, and "the graph word is the 32-bit word of g" is "the graph word, read
  signed, is g" for g below 2^31. The count is a finite sum of ones and zeros, a nonnegative real, so the divisor
  `max count 1` is a nonzero real, and dividing by it is multiplying by its reciprocal, at the infinities too.
-/
import proofs.«423418_j69827578298829_3_alg».proof.Proof.SpecDefs
import Idealize.ShloMosaic.PureOps.Ideal
import Mathlib.Algebra.BigOperators.Group.Finset.Basic
import Mathlib.Data.EReal.Basic
import Mathlib.Data.EReal.Operations

noncomputable section

namespace Cert.Spec

open Idealize.ShloMosaic
open scoped BigOperators

variable {N E G C H : ℕ}

section Layers

variable (x : Fin N → Fin C → EReal) (sr : Fin E → Fin N) (dw : Fin E → BitVec 32) (bw : Fin N → BitVec 32)
  (w1rel : Fin H → Fin C → EReal) (b1 : Fin H → EReal) (w1root : Fin H → Fin C → EReal)
  (w2rel : Fin C → Fin H → EReal) (b2 : Fin C → EReal) (w2root : Fin C → Fin H → EReal)

/-! ### The law, step by step -/

/-- Layer 1: the two writings add the bias at different places; addition is commutative and associative. -/
theorem h1K_eq_h1R (n : Fin N) (j : Fin H) :
    h1K x sr dw w1rel b1 w1root n j = h1R x sr dw w1rel b1 w1root n j := by
  unfold h1K h1R
  rw [add_right_comm]

/-- Layer 1 ends in a maximum with 0, so it is nonnegative (at the infinities too). -/
theorem h1R_nonneg (n : Fin N) (j : Fin H) : 0 ≤ h1R x sr dw w1rel b1 w1root n j :=
  le_max_right _ _

omit x sr dw bw w1rel b1 w1root w2rel b2 w2root in
/-- Over the extended reals a sum of NONNEGATIVE terms times any `w` (of either sign, infinite or not) is the sum
    of the products: no `⊤ + ⊥` can arise on either side. -/
theorem sum_mul_of_nonneg {ι : Type*} (s : Finset ι) (a : ι → EReal) (ha : ∀ i ∈ s, 0 ≤ a i) (w : EReal) :
    (∑ i ∈ s, a i) * w = ∑ i ∈ s, a i * w := by
  classical
  induction s using Finset.induction_on with
  | empty => simp
  | insert i s hi ih =>
    have hs : ∀ j ∈ s, 0 ≤ a j := fun j hj => ha j (Finset.mem_insert_of_mem hj)
    rw [Finset.sum_insert hi, Finset.sum_insert hi,
      EReal.right_distrib_of_nonneg (ha i (Finset.mem_insert_self i s)) (Finset.sum_nonneg hs), ih hs]

omit x bw w1rel b1 w1root w2rel b2 w2root in
/-- The exchange: for nonnegative rows `h`, multiplying by the column `w` after summing over the edges that land
    on `n` is summing, over those edges, the rows already multiplied by `w`. -/
theorem sum_seg_mul (h : Fin N → Fin H → EReal) (hh : ∀ m k, 0 ≤ h m k) (w : Fin H → EReal) (n : Fin N) :
    ∑ k : Fin H, seg dw (fun e => h (sr e) k) n * w k = seg dw (fun e => ∑ k : Fin H, h (sr e) k * w k) n := by
  unfold seg
  have hk : ∀ k : Fin H, (∑ e : Fin E, if (dw e).toInt = (n.val : ℤ) then h (sr e) k else 0) * w k
      = ∑ e : Fin E, if (dw e).toInt = (n.val : ℤ) then h (sr e) k * w k else 0 := by
    intro k
    rw [sum_mul_of_nonneg]
    · refine Finset.sum_congr rfl fun e _ => ?_
      rw [ite_mul, zero_mul]
    · intro e _
      split_ifs
      · exact hh _ _
      · exact le_rfl
  rw [Finset.sum_congr rfl fun k _ => hk k, Finset.sum_comm]
  refine Finset.sum_congr rfl fun e _ => ?_
  split_ifs
  · rfl
  · exact Finset.sum_const_zero

/-- The second aggregation of the first writing is the second writing's aggregation times W2_rel. -/
theorem agg2K_eq (n : Fin N) (c : Fin C) :
    agg2K x sr dw w1rel b1 w1root w2rel n c = ∑ k : Fin H, agg2R x sr dw w1rel b1 w1root n k * w2rel c k := by
  unfold agg2K agg2R p1K
  rw [sum_seg_mul sr dw (h1R x sr dw w1rel b1 w1root) (h1R_nonneg x sr dw w1rel b1 w1root) (w2rel c) n]
  congr 1
  funext e
  exact Finset.sum_congr rfl fun k _ => by rw [h1K_eq_h1R]

/-- Layer 2: the two writings agree. -/
theorem h2K_eq_h2R (n : Fin N) (c : Fin C) :
    h2K x sr dw w1rel b1 w1root w2rel b2 w2root n c = h2R x sr dw w1rel b1 w1root w2rel b2 w2root n c := by
  unfold h2K h2R
  rw [agg2K_eq, add_right_comm]
  congr 2
  exact Finset.sum_congr rfl fun k _ => by rw [h1K_eq_h1R]

omit x sr dw bw w1rel b1 w1root w2rel b2 w2root in
/-- For `g` below 2^31, "the word is the 32-bit word of `g`" and "the word, read signed, is `g`" are one
    condition. -/
theorem eq_ofNat_iff_toInt_eq (hG : G ≤ 2 ^ 31) (g : Fin G) (b : BitVec 32) :
    b = BitVec.ofNat 32 g.val ↔ b.toInt = (g.val : ℤ) := by
  have hg : g.val < 2 ^ 31 := lt_of_lt_of_le g.isLt hG
  have hv : (BitVec.ofNat 32 g.val).toInt = (g.val : ℤ) := by
    rw [BitVec.toInt_eq_toNat_of_lt (by rw [BitVec.toNat_ofNat]; omega), BitVec.toNat_ofNat]
    omega
  rw [← hv, BitVec.toInt_inj]

/-- Pooling: the 0/1 indicator times the row is the selection of the row. -/
theorem poolK_eq_poolR (hG : G ≤ 2 ^ 31) (g : Fin G) (c : Fin C) :
    poolK (G := G) x sr dw bw w1rel b1 w1root w2rel b2 w2root g c
      = poolR (G := G) x sr dw bw w1rel b1 w1root w2rel b2 w2root g c := by
  unfold poolK poolR seg
  refine Finset.sum_congr rfl fun n _ => ?_
  rw [ite_mul, one_mul, zero_mul, h2K_eq_h2R]
  exact if_congr (eq_ofNat_iff_toInt_eq hG g (bw n)) rfl rfl

omit x sr dw bw w1rel b1 w1root w2rel b2 w2root in
/-- A finite sum of ones and zeros is a nonnegative real. -/
theorem sum_one_zero_eq_coe {ι : Type*} (s : Finset ι) (p : ι → Prop) [DecidablePred p] :
    ∃ r : ℝ, 0 ≤ r ∧ (∑ i ∈ s, if p i then (1 : EReal) else 0) = (r : EReal) := by
  classical
  induction s using Finset.induction_on with
  | empty => exact ⟨0, le_rfl, by simp⟩
  | insert i s hi ih =>
    obtain ⟨r, hr, hs⟩ := ih
    rw [Finset.sum_insert hi, hs]
    by_cases hp : p i
    · exact ⟨1 + r, by positivity, by rw [if_pos hp, EReal.coe_add, EReal.coe_one]⟩
    · exact ⟨r, hr, by rw [if_neg hp, zero_add]⟩

omit x sr dw w1rel b1 w1root w2rel b2 w2root in
/-- The divisor `max (count) 1` is a real, at least 1. -/
theorem max_cnt_one_eq_coe (g : Fin G) : ∃ r : ℝ, r ≠ 0 ∧ max (cnt (G := G) bw g) 1 = (r : EReal) := by
  obtain ⟨r, _, hc⟩ := sum_one_zero_eq_coe (Finset.univ : Finset (Fin N)) (fun n => (bw n).toInt = (g.val : ℤ))
  refine ⟨max r 1, (lt_of_lt_of_le one_pos (le_max_right r 1)).ne', ?_⟩
  unfold cnt seg
  rw [hc, ← EReal.coe_one]
  exact (EReal.coe_strictMono.monotone.map_max).symm

/-- THE LAW: the two writings are one function, at every extended real (graph words are compared as 32-bit words
    on one side and read signed on the other: for g below 2^31 that is one condition). -/
theorem h3K_eq_h3R (hG : G ≤ 2 ^ 31) (g : Fin G) (c : Fin C) :
    h3K x sr dw bw w1rel b1 w1root w2rel b2 w2root g c = h3R x sr dw bw w1rel b1 w1root w2rel b2 w2root g c := by
  obtain ⟨r, hr, hm⟩ := max_cnt_one_eq_coe (G := G) bw g
  unfold h3K h3R
  rw [hm, Ideal.div_coe hr, Ideal.div_coe hr, one_mul, poolK_eq_poolR x sr dw bw w1rel b1 w1root w2rel b2 w2root hG]

end Layers

end Cert.Spec

end
-- ==== Proof.Algebraic.lean ====
/-
  The last conjunct of the statement, assembled. The idealized kernel program and the idealized reference, run from
  memories that agree on the 21 arguments, end with the same pooled means and the same decoder output, each program's
  arguments unchanged.

  The kernel's run leaves every unscoped buffer at the last valuation; its pooled means are the first writing of the
  two-layer graph convolution (taken here as a hypothesis on that valuation), and its output is the decoder of them.
  The reference's run leaves the second writing and the decoder of it. The two writings are one function at every
  extended real, so the pooled means agree, and the decoder is one function of them and of the twelve arguments the
  two memories share.
-/
import proofs.«423418_j69827578298829_3_alg».proof.Defs
import proofs.«423418_j69827578298829_3_alg».proof.Proof.KI.Frame
import proofs.«423418_j69827578298829_3_alg».proof.Proof.KI.ValHost
import proofs.«423418_j69827578298829_3_alg».proof.Proof.RefValue
import proofs.«423418_j69827578298829_3_alg».proof.Proof.Spec
import proofs.«423418_j69827578298829_3_alg».proof.Proof.Gen.Pre_finite_inputs

set_option maxRecDepth 16384
set_option pp.maxSteps 5000
set_option pp.deepTerms false

noncomputable section

namespace Cert.Proof.Alg

open Idealize.ShloMosaic Idealize.ShloMosaic.TcCoe Idealize.SL.Sem

/-- From the kernel's pooled means being the first writing of the specification: both programs, from memories
    agreeing on the arguments, end with equal results and unchanged arguments. -/
theorem algebraic_of
    (hker : ∀ (m : (ℓ : Loc Cert.KernelIdeal.nD Cert.KernelIdeal.τ Cert.KernelIdeal.sig) → Buf (Elt Ideal) ℓ) (c : Dev Cert.KernelIdeal.nD),
        (Cert.KernelIdeal.Gen.V13 m (Cert.KernelIdeal.Run.outs m) c Cert.KernelIdeal.main_v41 : Vec Ideal Cert.KernelIdeal.S64x64 .f32)
          = fun i => Cert.Spec.h3K (G := 64) (Inputs.X (m ((c.tc : Thread Cert.KernelIdeal.nD Cert.KernelIdeal.τ).loc Cert.KernelIdeal.main_arg0))) (Inputs.SR (m ((c.tc : Thread Cert.KernelIdeal.nD Cert.KernelIdeal.τ).loc Cert.KernelIdeal.main_arg1))) (Inputs.DW (m ((c.tc : Thread Cert.KernelIdeal.nD Cert.KernelIdeal.τ).loc Cert.KernelIdeal.main_arg1))) (Inputs.BW (m ((c.tc : Thread Cert.KernelIdeal.nD Cert.KernelIdeal.τ).loc Cert.KernelIdeal.main_arg2)))
            (Inputs.W1 (m ((c.tc : Thread Cert.KernelIdeal.nD Cert.KernelIdeal.τ).loc Cert.KernelIdeal.main_arg3))) (Inputs.B1 (m ((c.tc : Thread Cert.KernelIdeal.nD Cert.KernelIdeal.τ).loc Cert.KernelIdeal.main_arg4))) (Inputs.W1 (m ((c.tc : Thread Cert.KernelIdeal.nD Cert.KernelIdeal.τ).loc Cert.KernelIdeal.main_arg5)))
            (Inputs.W2 (m ((c.tc : Thread Cert.KernelIdeal.nD Cert.KernelIdeal.τ).loc Cert.KernelIdeal.main_arg6))) (Inputs.B2 (m ((c.tc : Thread Cert.KernelIdeal.nD Cert.KernelIdeal.τ).loc Cert.KernelIdeal.main_arg7))) (Inputs.W2 (m ((c.tc : Thread Cert.KernelIdeal.nD Cert.KernelIdeal.τ).loc Cert.KernelIdeal.main_arg8))) (i 0) (i 1)) :
    Cert.algebraic_KernelIdeal_ReferenceIdeal := by
  intro m g m' g' _ hagree
  -- the second writing at the kernel's arguments is what the kernel leaves in its pooled means
  have e53 : ∀ c : Dev Cert.KernelIdeal.nD,
      Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
        = Cert.KernelIdeal.Gen.V13 m (Cert.KernelIdeal.Run.outs m) c Cert.KernelIdeal.main_v41 := by
    intro c
    rw [Cert.RefValue.ref_h3, hker m c]
    funext i
    exact (Cert.Spec.h3K_eq_h3R _ _ _ _ _ _ _ _ _ _ (by norm_num) (i 0) (i 1)).symm
  refine ⟨fun c => Cert.KernelIdeal.Gen.V13 m (Cert.KernelIdeal.Run.outs m) c Cert.KernelIdeal.main_v41,
    fun c => Cert.KernelIdeal.Gen.V13 m (Cert.KernelIdeal.Run.outs m) c Cert.KernelIdeal.main_v75, ?_, ?_⟩
  · -- the kernel's run: the two results and the arguments read off the last valuation
    refine (θ_run Cert.KernelIdeal.defs _ _).mono (fun r h c => ?_) (Cert.KernelIdeal.Run.run_vals m g)
    have hc := h c
    exact ⟨hc (Proc.devRef .tc Cert.KernelIdeal.main_v41) (Finset.mem_filter.mpr ⟨StableHlo.devRef_mem_tcRefs Cert.KernelIdeal.main_v41, by decide⟩),
      hc (Proc.devRef .tc Cert.KernelIdeal.main_v75) (Finset.mem_filter.mpr ⟨StableHlo.devRef_mem_tcRefs Cert.KernelIdeal.main_v75, by decide⟩),
      (hc (Proc.devRef .tc Cert.KernelIdeal.main_arg0) (Finset.mem_filter.mpr ⟨StableHlo.devRef_mem_tcRefs Cert.KernelIdeal.main_arg0, by decide⟩)).trans (Cert.KernelIdeal.Gen.V13_main_arg0 m _ c),
      (hc (Proc.devRef .tc Cert.KernelIdeal.main_arg1) (Finset.mem_filter.mpr ⟨StableHlo.devRef_mem_tcRefs Cert.KernelIdeal.main_arg1, by decide⟩)).trans (Cert.KernelIdeal.Gen.V13_main_arg1 m _ c),
      (hc (Proc.devRef .tc Cert.KernelIdeal.main_arg2) (Finset.mem_filter.mpr ⟨StableHlo.devRef_mem_tcRefs Cert.KernelIdeal.main_arg2, by decide⟩)).trans (Cert.KernelIdeal.Gen.V13_main_arg2 m _ c),
      (hc (Proc.devRef .tc Cert.KernelIdeal.main_arg3) (Finset.mem_filter.mpr ⟨StableHlo.devRef_mem_tcRefs Cert.KernelIdeal.main_arg3, by decide⟩)).trans (Cert.KernelIdeal.Gen.V13_main_arg3 m _ c),
      (hc (Proc.devRef .tc Cert.KernelIdeal.main_arg4) (Finset.mem_filter.mpr ⟨StableHlo.devRef_mem_tcRefs Cert.KernelIdeal.main_arg4, by decide⟩)).trans (Cert.KernelIdeal.Gen.V13_main_arg4 m _ c),
      (hc (Proc.devRef .tc Cert.KernelIdeal.main_arg5) (Finset.mem_filter.mpr ⟨StableHlo.devRef_mem_tcRefs Cert.KernelIdeal.main_arg5, by decide⟩)).trans (Cert.KernelIdeal.Gen.V13_main_arg5 m _ c),
      (hc (Proc.devRef .tc Cert.KernelIdeal.main_arg6) (Finset.mem_filter.mpr ⟨StableHlo.devRef_mem_tcRefs Cert.KernelIdeal.main_arg6, by decide⟩)).trans (Cert.KernelIdeal.Gen.V13_main_arg6 m _ c),
      (hc (Proc.devRef .tc Cert.KernelIdeal.main_arg7) (Finset.mem_filter.mpr ⟨StableHlo.devRef_mem_tcRefs Cert.KernelIdeal.main_arg7, by decide⟩)).trans (Cert.KernelIdeal.Gen.V13_main_arg7 m _ c),
      (hc (Proc.devRef .tc Cert.KernelIdeal.main_arg8) (Finset.mem_filter.mpr ⟨StableHlo.devRef_mem_tcRefs Cert.KernelIdeal.main_arg8, by decide⟩)).trans (Cert.KernelIdeal.Gen.V13_main_arg8 m _ c),
      (hc (Proc.devRef .tc Cert.KernelIdeal.main_arg9) (Finset.mem_filter.mpr ⟨StableHlo.devRef_mem_tcRefs Cert.KernelIdeal.main_arg9, by decide⟩)).trans (Cert.KernelIdeal.Gen.V13_main_arg9 m _ c),
      (hc (Proc.devRef .tc Cert.KernelIdeal.main_arg10) (Finset.mem_filter.mpr ⟨StableHlo.devRef_mem_tcRefs Cert.KernelIdeal.main_arg10, by decide⟩)).trans (Cert.KernelIdeal.Gen.V13_main_arg10 m _ c),
      (hc (Proc.devRef .tc Cert.KernelIdeal.main_arg11) (Finset.mem_filter.mpr ⟨StableHlo.devRef_mem_tcRefs Cert.KernelIdeal.main_arg11, by decide⟩)).trans (Cert.KernelIdeal.Gen.V13_main_arg11 m _ c),
      (hc (Proc.devRef .tc Cert.KernelIdeal.main_arg12) (Finset.mem_filter.mpr ⟨StableHlo.devRef_mem_tcRefs Cert.KernelIdeal.main_arg12, by decide⟩)).trans (Cert.KernelIdeal.Gen.V13_main_arg12 m _ c),
      (hc (Proc.devRef .tc Cert.KernelIdeal.main_arg13) (Finset.mem_filter.mpr ⟨StableHlo.devRef_mem_tcRefs Cert.KernelIdeal.main_arg13, by decide⟩)).trans (Cert.KernelIdeal.Gen.V13_main_arg13 m _ c),
      (hc (Proc.devRef .tc Cert.KernelIdeal.main_arg14) (Finset.mem_filter.mpr ⟨StableHlo.devRef_mem_tcRefs Cert.KernelIdeal.main_arg14, by decide⟩)).trans (Cert.KernelIdeal.Gen.V13_main_arg14 m _ c),
      (hc (Proc.devRef .tc Cert.KernelIdeal.main_arg15) (Finset.mem_filter.mpr ⟨StableHlo.devRef_mem_tcRefs Cert.KernelIdeal.main_arg15, by decide⟩)).trans (Cert.KernelIdeal.Gen.V13_main_arg15 m _ c),
      (hc (Proc.devRef .tc Cert.KernelIdeal.main_arg16) (Finset.mem_filter.mpr ⟨StableHlo.devRef_mem_tcRefs Cert.KernelIdeal.main_arg16, by decide⟩)).trans (Cert.KernelIdeal.Gen.V13_main_arg16 m _ c),
      (hc (Proc.devRef .tc Cert.KernelIdeal.main_arg17) (Finset.mem_filter.mpr ⟨StableHlo.devRef_mem_tcRefs Cert.KernelIdeal.main_arg17, by decide⟩)).trans (Cert.KernelIdeal.Gen.V13_main_arg17 m _ c),
      (hc (Proc.devRef .tc Cert.KernelIdeal.main_arg18) (Finset.mem_filter.mpr ⟨StableHlo.devRef_mem_tcRefs Cert.KernelIdeal.main_arg18, by decide⟩)).trans (Cert.KernelIdeal.Gen.V13_main_arg18 m _ c),
      (hc (Proc.devRef .tc Cert.KernelIdeal.main_arg19) (Finset.mem_filter.mpr ⟨StableHlo.devRef_mem_tcRefs Cert.KernelIdeal.main_arg19, by decide⟩)).trans (Cert.KernelIdeal.Gen.V13_main_arg19 m _ c),
      (hc (Proc.devRef .tc Cert.KernelIdeal.main_arg20) (Finset.mem_filter.mpr ⟨StableHlo.devRef_mem_tcRefs Cert.KernelIdeal.main_arg20, by decide⟩)).trans (Cert.KernelIdeal.Gen.V13_main_arg20 m _ c)⟩
  · -- the reference's run: its two stages, at arguments the agreement turns into the kernel's
    refine (θ_run Cert.ReferenceIdeal.defs _ _).mono (fun r h c => ⟨(h c).1.trans ?_, (h c).2.1.trans ?_, (h c).2.2⟩)
      (Cert.ReferenceIdeal.Value.run (F := Ideal) m' g')
    · show Cert.ReferenceIdeal.Value.res_main_v53 m' c = Cert.KernelIdeal.Gen.V13 m (Cert.KernelIdeal.Run.outs m) c Cert.KernelIdeal.main_v41
      obtain ⟨h0, h1, h2, h3, h4, h5, h6, h7, h8, _⟩ := hagree c
      rw [Cert.ReferenceIdeal.Read.val_main_v53_eq, h0, h1, h2, h3, h4, h5, h6, h7, h8]
      exact e53 c
    · show Cert.ReferenceIdeal.Value.res_main_v87 m' c = Cert.KernelIdeal.Gen.V13 m (Cert.KernelIdeal.Run.outs m) c Cert.KernelIdeal.main_v75
      obtain ⟨h0, h1, h2, h3, h4, h5, h6, h7, h8, h9, h10, h11, h12, h13, h14, h15, h16, h17, h18, h19, h20⟩ := hagree c
      rw [Cert.ReferenceIdeal.Read.val_main_v87_eq, h0, h1, h2, h3, h4, h5, h6, h7, h8, h9, h10, h11, h12, h13, h14, h15, h16, h17,
        h18, h19, h20, Cert.RefValue.ref_tail, e53 c]
      exact (Cert.KernelIdeal.ValHost.v13_tail m c (Cert.KernelIdeal.Run.outs m)).symm

end Cert.Proof.Alg

end
-- ==== Proof.lean ====
/-
  A two-layer graph convolution with mean pooling and two small perceptrons, as two pallas_calls among host operations,
  against its jnp reference: the five claims.

  The kernel program computes layer 1 (h1 = max(agg1·W_rel + x·W_root + b1, 0)) in its first pallas_call together with
  p1 = h1·W2_rel, aggregates p1 over the edges on the host, and in its second pallas_call computes layer 2
  (h2 = max(agg2 + h1·W2_root + b2, 0)), pools it per graph by a 0/1 indicator product accumulated over the 20 row blocks,
  and scales by the reciprocal of the node counts. The reference aggregates h1, multiplies by W2_rel afterwards, pools by
  a segment sum and divides by the counts. Over the extended reals the two agree at EVERY input: the exchange of the
  aggregation with the product by W2_rel distributes a factor over a sum of nonnegative terms (h1 is a maximum with 0),
  which holds at the infinities too; a node whose graph word names no graph is dropped by both; the count is a natural
  number, so the divisor is a real ≥ 1 and dividing is multiplying by the reciprocal. The precondition is never opened.

  Frames: each pallas_call is a region of @main entered from the valuation the host operations before it leave and
  left with its result arrays at their write-backs; the second carries its accumulator in the region's invariant.
  The reference's frame is its run with the results dropped.
-/
import proofs.«423418_j69827578298829_3_alg».proof.Defs
import proofs.«423418_j69827578298829_3_alg».proof.Proof.Gen.Kernel
import proofs.«423418_j69827578298829_3_alg».proof.Proof.Gen.KernelIdeal
import proofs.«423418_j69827578298829_3_alg».proof.Proof.Gen.ReferenceIdeal
import proofs.«423418_j69827578298829_3_alg».proof.Proof.Gen.Pre_finite_inputs
import proofs.«423418_j69827578298829_3_alg».proof.Proof.Gen.ReferenceIdeal.Run
import proofs.«423418_j69827578298829_3_alg».proof.Proof.K.Frame
import proofs.«423418_j69827578298829_3_alg».proof.Proof.KI.Frame
import proofs.«423418_j69827578298829_3_alg».proof.Proof.KI.Value
import proofs.«423418_j69827578298829_3_alg».proof.Proof.Algebraic

noncomputable section

namespace Cert.Proof

open Idealize.ShloMosaic Idealize.SL.Sem

/-- The word-level kernel program's frame. -/
theorem frame_kernel : Cert.frame_Kernel := fun m ρ _ => Cert.Kernel.Run.frame m ρ

/-- The idealized kernel program's frame. -/
theorem frame_kernelIdeal : Cert.frame_KernelIdeal := fun m ρ _ => Cert.KernelIdeal.Run.frame m ρ

/-- The reference's frame: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- The two idealized programs end with equal results. -/
theorem algebraic : Cert.algebraic_KernelIdeal_ReferenceIdeal := Alg.algebraic_of Cert.KernelIdeal.Value.ker_h3

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
